-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S3x128 .f32) (main_arg7 : FVec F S128x2 .f32) (main_arg8 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S3x128x128 .f32) (main_arg6 : FVec F S3x128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S1x128x128 : Shape := ⟨3, ![1, 128, 128]⟩
abbrev S128x1 : Shape := ⟨2, ![128, 1]⟩
abbrev S1x2 : Shape := ⟨2, ![1, 2]⟩

abbrev nBuf : Space → Nat
  | .hbm => 145
  | .vmem => 68
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S3x128x128, .f32⟩
  | 6 => ⟨S3x128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000, .f32⟩
  | 24 => ⟨S100000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128, .f32⟩
  | 62 => ⟨S100000x128, .f32⟩
  | 63 => ⟨S1x128x128, .f32⟩
  | 64 => ⟨S128x128, .f32⟩
  | 65 => ⟨S1x128, .f32⟩
  | 66 => ⟨S128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x1, .f32⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S1x128, .f32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S1x128, .f32⟩
  | 108 => ⟨S100000x128, .f32⟩
  | 109 => ⟨S1x128x128, .f32⟩
  | 110 => ⟨S128x128, .f32⟩
  | 111 => ⟨S1x128, .f32⟩
  | 112 => ⟨S128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x1, .f32⟩
  | 124 => ⟨S1600000x128, .f32⟩
  | 125 => ⟨S1600000x128, .f32⟩
  | 126 => ⟨S_, .f32⟩
  | 127 => ⟨S100000x128, .f32⟩
  | _ => ⟨S100000x128, .f32⟩

abbrev hbmTy0_1 (i : Nat) : BufTy := match i % 128 with
  | 0 => ⟨S1600000x1, .i32⟩
  | 1 => ⟨S100000x128, .f32⟩
  | 2 => ⟨S1x128, .f32⟩
  | 3 => ⟨S100000x128, .f32⟩
  | 4 => ⟨S100000x1, .i32⟩
  | 5 => ⟨S128x128, .f32⟩
  | 6 => ⟨S1x128, .f32⟩
  | 7 => ⟨S128x1, .f32⟩
  | 8 => ⟨S_, .f32⟩
  | 9 => ⟨S128x1, .f32⟩
  | 10 => ⟨S128x1, .f32⟩
  | 11 => ⟨S128x128, .f32⟩
  | 12 => ⟨S128x128, .f32⟩
  | 13 => ⟨S128x2, .f32⟩
  | 14 => ⟨S1x2, .f32⟩
  | 15 => ⟨S128x2, .f32⟩
  | 16 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x1, .f32⟩
  | .local _ .vmem, ⟨56, _⟩ => ⟨S5000x1, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x1, .i32⟩
  | .local _ .vmem, ⟨65, _⟩ => ⟨S5000x1, .i32⟩
  | .local _ .vmem, ⟨66, _⟩ => ⟨S128x128, .f32⟩
  | .local _ .vmem, ⟨67, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_c_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_14 : Ref sig .tc := ⟨.hbm, 114, rfl⟩
abbrev main_v89 : Ref sig .tc := ⟨.hbm, 115, rfl⟩
abbrev main_v90 : Ref sig .tc := ⟨.hbm, 116, rfl⟩
abbrev main_c_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105_0 : Ref sig .tc := ⟨.hbm, 133, rfl⟩
abbrev main_v105_1 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg4_1 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg3_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem2_1 : DmaSem sig := 56
abbrev cc7_sem3_0 : DmaSem sig := 57
abbrev cc7_sem4_0 : DmaSem sig := 58
abbrev cc7_sem4_1 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem3_0 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  iota_S5000x128_d1_w32 : S5000x128.Iotas .tc 32 [1]
  natLt_1_32 : 1 < 32
  reduces_S5000x128_S128 : S5000x128.Reduces [0] S128
  shapeCasts_S1x128_S128x1 : S1x128.ShapeCasts S128x1
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S5000x128_S128x128_0_0_1_1_n_n_wf : DotDims.WF S5000x128 S5000x128 S128x128 [0] [0] [1] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v63) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v83) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v102) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v83) S5000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v103) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v103) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105_0) S128x128.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105_1) S1x128.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x128x128 : Shape := ⟨3, ![1, 128, 128]⟩
abbrev S128x1 : Shape := ⟨2, ![128, 1]⟩
abbrev S1x2 : Shape := ⟨2, ![1, 2]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S3x128x128, .f32⟩
  | 6 => ⟨S3x128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S1x128x128, .f32⟩
  | 71 => ⟨S128x128, .f32⟩
  | 72 => ⟨S1x128, .f32⟩
  | 73 => ⟨S128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S1600000x1, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S1x128, .f32⟩
  | 125 => ⟨S128, .f32⟩
  | 126 => ⟨S100000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000, .f32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x1, .f32⟩
  | 28 => ⟨S1600000x128, .f32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000, .f32⟩
  | 35 => ⟨S100000x1, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S1x128, .f32⟩
  | 49 => ⟨S128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S1600000, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x1, .f32⟩
  | 80 => ⟨S1600000x128, .f32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .f32⟩
  | 99 => ⟨S100000, .f32⟩
  | 100 => ⟨S_, .f32⟩
  | 101 => ⟨S128, .f32⟩
  | 102 => ⟨S100000x1, .i32⟩
  | 103 => ⟨S128, .f32⟩
  | 104 => ⟨S_, .f32⟩
  | 105 => ⟨S128x128, .f32⟩
  | 106 => ⟨S100000x1, .i32⟩
  | 107 => ⟨S128x128, .f32⟩
  | 108 => ⟨S_, .f32⟩
  | 109 => ⟨S128, .f32⟩
  | 110 => ⟨S128, .f32⟩
  | 111 => ⟨S128x1, .f32⟩
  | 112 => ⟨S128x128, .f32⟩
  | 113 => ⟨S128x128, .f32⟩
  | 114 => ⟨S128x2, .f32⟩
  | 115 => ⟨S1x2, .f32⟩
  | 116 => ⟨S128x2, .f32⟩
  | 117 => ⟨S128x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_8 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_c_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_15 : Ref sig .tc := ⟨.hbm, 127, rfl⟩
abbrev main_v97 : Ref sig .tc := ⟨.hbm, 128, rfl⟩
abbrev main_v98 : Ref sig .tc := ⟨.hbm, 129, rfl⟩
abbrev main_c_16 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_17 : Ref sig .tc := ⟨.hbm, 136, rfl⟩
abbrev main_v104 : Ref sig .tc := ⟨.hbm, 137, rfl⟩
abbrev main_v105 : Ref sig .tc := ⟨.hbm, 138, rfl⟩
abbrev main_c_18 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_19 : Ref sig .tc := ⟨.hbm, 146, rfl⟩
abbrev main_v112 : Ref sig .tc := ⟨.hbm, 147, rfl⟩
abbrev main_v113 : Ref sig .tc := ⟨.hbm, 148, rfl⟩
abbrev main_c_20 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_21 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_call2_cst : Ref sig .tc := ⟨.hbm, 171, rfl⟩
abbrev main_call2_v0 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_22 : Ref sig .tc := ⟨.hbm, 179, rfl⟩
abbrev main_v140 : Ref sig .tc := ⟨.hbm, 180, rfl⟩
abbrev main_v141 : Ref sig .tc := ⟨.hbm, 181, rfl⟩
abbrev main_c_23 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_c_24 : Ref sig .tc := ⟨.hbm, 188, rfl⟩
abbrev main_v147 : Ref sig .tc := ⟨.hbm, 189, rfl⟩
abbrev main_v148 : Ref sig .tc := ⟨.hbm, 190, rfl⟩
abbrev main_c_25 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_c_26 : Ref sig .tc := ⟨.hbm, 198, rfl⟩
abbrev main_v155 : Ref sig .tc := ⟨.hbm, 199, rfl⟩
abbrev main_v156 : Ref sig .tc := ⟨.hbm, 200, rfl⟩
abbrev main_c_27 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_28 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_call3_cst : Ref sig .tc := ⟨.hbm, 223, rfl⟩
abbrev main_call3_v0 : Ref sig .tc := ⟨.hbm, 224, rfl⟩
abbrev main_v177 : Ref sig .tc := ⟨.hbm, 225, rfl⟩
abbrev main_cst_29 : Ref sig .tc := ⟨.hbm, 226, rfl⟩
abbrev main_v178 : Ref sig .tc := ⟨.hbm, 227, rfl⟩
abbrev main_cst_30 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_31 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_cst_32 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x2_S128x2_1_0_0_1_n_n_wf : DotDims.WF S128x128 S128x2 S128x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.Spec.lean ====
/-
  The network both programs compute, as functions of the argument arrays over the extended reals, index by index.

  A graph of 100000 nodes with 128 channels goes through four graph-convolution layers, a mean pool over at most 128
  graphs and a linear head with two outputs. A layer takes node features `X`, a weight matrix `W` and a bias `b`:
  with `P = X · W` (the dense product, `mm`), node `n`'s channel `d` becomes
  `A(P)[n, d] + P[n, d] · dis[n]² + b[d]`, where `A` is the aggregation of the neighbours' rows of `P` along the edges
  (a gather, a scaling by the edge coefficient and an accumulating scatter: the same operations in both programs, so it
  enters here as one function `A` of the whole array) and `dis[n]` is the inverse square root of the node's degree plus
  one. The first layer clamps the result at zero from below (`layerFirst`); the other three add the layer's input
  first and clamp then (`layerRes`). The pool sums, per graph `g`, the rows of the nodes whose batch word read signed
  is `g` (`poolSum`) and counts them (`poolCnt`; a node whose word names no graph is in no sum and no count); the head
  divides each sum by the count clamped at one from below, multiplies by the head's weights and adds its bias (`head`).
-/
import Idealize.ShloMosaic.PureOps.Ideal
import Idealize.ShloMosaic.Lib.ValueIdx

noncomputable section

open scoped BigOperators

namespace Cert.Gcn

open Idealize.ShloMosaic Idealize.ShloMosaic.ValueIdx

/-- Node features: 100000 nodes by 128 channels. -/
abbrev Nodes : Type := (⟨2, ![100000, 128]⟩ : Shape).Idx → EReal
/-- A layer's weights: 128 by 128. -/
abbrev Weights : Type := (⟨2, ![128, 128]⟩ : Shape).Idx → EReal
/-- A vector over the 128 channels. -/
abbrev Chan : Type := (⟨1, ![128]⟩ : Shape).Idx → EReal
/-- A value per node. -/
abbrev PerNode : Type := (⟨1, ![100000]⟩ : Shape).Idx → EReal
/-- Per graph and channel. -/
abbrev Pooled : Type := (⟨2, ![128, 128]⟩ : Shape).Idx → EReal

/-- The float literal `1.0`, kept as its word: both programs spell the same word, so it is never evaluated where the
    two sides only have to agree. -/
abbrev oneLit : EReal := Ideal.ofBits .f32 0x3F800000#32

/-- A value per node, laid out as a column [100000, 1]. -/
abbrev Col : Type := (⟨2, ![100000, 1]⟩ : Shape).Idx → EReal
/-- A vector over the channels, laid out as a row [1, 128]. -/
abbrev Row : Type := (⟨2, ![1, 128]⟩ : Shape).Idx → EReal

/-- The dense product `X · W`: node `n`'s channel `d` is the sum over `k` of `X[n, k] · W[k, d]`. -/
def mm (X : Nodes) (W : Weights) : Nodes :=
  fun i => ∑ k : Fin 128, X (ix2 (i 0) k) * W (ix2 k (i 1))

/-- One graph convolution before its clamp: the aggregated neighbours of the product, plus the node's own row of the
    product scaled by `dis²`, plus the bias. -/
def conv (A : Nodes → Nodes) (dis : PerNode) (X : Nodes) (W : Weights) (b : Chan) : Nodes :=
  fun i => (A (mm X W) i + mm X W i * (dis (ix1 (i 0)) * dis (ix1 (i 0)))) + b (ix1 (i 1))

/-- The first layer: the convolution clamped at zero from below. -/
def layerFirst (A : Nodes → Nodes) (dis : PerNode) (X : Nodes) (W : Weights) (b : Chan) : Nodes :=
  fun i => max (conv A dis X W b i) 0

/-- A residual layer: the convolution plus its own input, clamped at zero from below. -/
def layerRes (A : Nodes → Nodes) (dis : PerNode) (X : Nodes) (W : Weights) (b : Chan) : Nodes :=
  fun i => max (conv A dis X W b i + X i) 0

/-- What the first layer's combining step leaves, from whole arrays: the aggregation `agg`, the product `hw`, the
    per-node scale as a column and the bias as a row. -/
def combineFirst (hw agg : Nodes) (d2 : Col) (b : Row) : Nodes :=
  fun i => max ((agg i + hw i * d2 (ix2 (i 0) 0)) + b (ix2 0 (i 1))) 0

/-- What a residual layer's combining step leaves: the same with the layer's input `res` added before the clamp. -/
def combineRes (hw agg : Nodes) (d2 : Col) (b : Row) (res : Nodes) : Nodes :=
  fun i => max (((agg i + hw i * d2 (ix2 (i 0) 0)) + b (ix2 0 (i 1))) + res i) 0

/-- `poolSum` with the batch words laid out as a column [100000, 1]. -/
def poolSumCol (bt : (⟨2, ![100000, 1]⟩ : Shape).Idx → BitVec 32) (H : Nodes) : Pooled :=
  fun j => ∑ n : Fin 100000, if (bt (ix2 n 0)).toInt = ((j 0).val : Int) then H (ix2 n (j 1)) else 0

/-- `poolCnt` with the batch words laid out as a column [100000, 1]. -/
def poolCntCol (bt : (⟨2, ![100000, 1]⟩ : Shape).Idx → BitVec 32) : Fin 128 → EReal :=
  fun g => ∑ n : Fin 100000, if (bt (ix2 n 0)).toInt = (g.val : Int) then (1 : EReal) else 0

/-- Per graph `g` and channel `d`: the sum of `H[n, d]` over the nodes `n` whose batch word, read signed, is `g`. -/
def poolSum (bt : (⟨1, ![100000]⟩ : Shape).Idx → BitVec 32) (H : Nodes) : Pooled :=
  fun j => ∑ n : Fin 100000, if (bt (ix1 n)).toInt = ((j 0).val : Int) then H (ix2 n (j 1)) else 0

/-- Per graph `g`: the number of nodes whose batch word, read signed, is `g`. -/
def poolCnt (bt : (⟨1, ![100000]⟩ : Shape).Idx → BitVec 32) : Fin 128 → EReal :=
  fun g => ∑ n : Fin 100000, if (bt (ix1 n)).toInt = (g.val : Int) then (1 : EReal) else 0

/-- The head: graph `g`'s output `o` is the sum over the channels `k` of (the pooled sum divided by the count clamped
    at one from below) times the head's weight, plus the head's bias. -/
def head (P : Pooled) (C : Fin 128 → EReal) (Wp : (⟨2, ![128, 2]⟩ : Shape).Idx → EReal)
    (bp : (⟨1, ![2]⟩ : Shape).Idx → EReal) : (⟨2, ![128, 2]⟩ : Shape).Idx → EReal :=
  fun o => (∑ k : Fin 128, Ideal.div (P (ix2 (o 0) k)) (max (C (o 0)) oneLit) * Wp (ix2 k (o 1))) + bp (ix1 (o 1))

/-- The whole network: four layers, the pool and the head. -/
def net (A : Nodes → Nodes) (dis : PerNode) (X : Nodes) (W0 : Weights) (b0 : Chan) (W1 : Weights) (b1 : Chan)
    (W2 : Weights) (b2 : Chan) (W3 : Weights) (b3 : Chan) (bt : (⟨1, ![100000]⟩ : Shape).Idx → BitVec 32)
    (Wp : (⟨2, ![128, 2]⟩ : Shape).Idx → EReal) (bp : (⟨1, ![2]⟩ : Shape).Idx → EReal) :
    (⟨2, ![128, 2]⟩ : Shape).Idx → EReal :=
  head (poolSum bt (layerRes A dis (layerRes A dis (layerRes A dis (layerFirst A dis X W0 b0) W1 b1) W2 b2) W3 b3))
    (poolCnt bt) Wp bp

end Cert.Gcn

end
-- ==== Proof.Glue.lean ====
/-
  What both programs compute on the host around the dense products, as functions of the edge list (and, for the
  aggregation, of the array it aggregates): the edges' source and target nodes, the per-node inverse square root of the
  degree plus one, the per-edge coefficient (the product of that quantity at the edge's two ends), the aggregation of an
  array's rows along the edges, and the three later layers' weight matrices and bias vectors cut out of their stacked
  arrays. Both programs apply exactly these operations (the kernel's program once per run for the per-edge coefficient,
  the reference once per layer), so each enters the comparison as ONE function, never opened.
-/
import proofs.«426480_j82094004896163_1_alg».proof.Proof.Gen.ReferenceIdeal
import proofs.«426480_j82094004896163_1_alg».proof.Proof.Spec

noncomputable section

namespace Cert.Glue

open Cert.ReferenceIdeal Idealize.ShloMosaic
open Cert.ReferenceIdeal.Facts₀ Cert.ReferenceIdeal.Facts

/-- The edges' source nodes: row 0 of the edge list. -/
def src (ei : IVec S2x1600000 32) : IVec S1600000 32 :=
  shapeCast _ (extractStridedSlice S1x1600000 ![0, 0] ei slices_S2x1600000_S1x1600000_0_0) shapeCasts_S1x1600000_S1600000

/-- The edges' target nodes: row 1 of the edge list. -/
def dst (ei : IVec S2x1600000 32) : IVec S1600000 32 :=
  shapeCast _ (extractStridedSlice S1x1600000 ![1, 0] ei slices_S2x1600000_S1x1600000_1_0) shapeCasts_S1x1600000_S1600000

/-- A list of node numbers prepared for a row lookup, as a column: a negative word has the number of nodes added. -/
def norm (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Per node: the inverse square root of (the number of edges that end at the node, plus one). -/
def dis (ei : IVec S2x1600000 32) : FVec Ideal S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dst ei))
      (broadcastInDim S1600000 ![] bcast_S_S1600000 (constant S_ .f32 0x3F800000#32)))
    (broadcastInDim S100000 ![] bcast_S_S100000 (constant S_ .f32 0x3F800000#32)))

/-- Per edge: `dis` at its source times `dis` at its target. -/
def coef (ei : IVec S2x1600000 32) : FVec Ideal S1600000 .f32 :=
  mulf (Host.gather gather_S100000_S1600000x1_S1600000_n_0_n_n_0_1_1 (dis ei) (norm (src ei)))
    (Host.gather gather_S100000_S1600000x1_S1600000_n_0_n_n_0_1_1 (dis ei) (norm (dst ei)))

/-- The aggregation along the edges: each edge's source row of `hw`, scaled by the edge's coefficient, added into
    the edge's target row of a zero array. -/
def agg (ei : IVec S2x1600000 32) (hw : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst ei))
    (mulf (Host.gather gather_S100000x128_S1600000x1_S1600000x128_1_0_n_n_0_1_1128 hw (norm (src ei)))
      (broadcastInDim S1600000x128 ![0, 1] bcast_S1600000x1_S1600000x128_0_1
        (broadcastInDim S1600000x1 ![0] bcast_S1600000_S1600000x1_0 (coef ei))))

/-- The three later layers' weight matrices: slab `k` of the stacked weights. -/
def wh0 (a5 : FVec Ideal S3x128x128 .f32) : FVec Ideal S128x128 .f32 :=
  shapeCast _ (extractStridedSlice S1x128x128 ![0, 0, 0] a5 slices_S3x128x128_S1x128x128_0_0_0) shapeCasts_S1x128x128_S128x128
def wh1 (a5 : FVec Ideal S3x128x128 .f32) : FVec Ideal S128x128 .f32 :=
  shapeCast _ (extractStridedSlice S1x128x128 ![1, 0, 0] a5 slices_S3x128x128_S1x128x128_1_0_0) shapeCasts_S1x128x128_S128x128
def wh2 (a5 : FVec Ideal S3x128x128 .f32) : FVec Ideal S128x128 .f32 :=
  shapeCast _ (extractStridedSlice S1x128x128 ![2, 0, 0] a5 slices_S3x128x128_S1x128x128_2_0_0) shapeCasts_S1x128x128_S128x128

/-- The three later layers' bias vectors: row `k` of the stacked biases. -/
def bh0 (a6 : FVec Ideal S3x128 .f32) : FVec Ideal S128 .f32 :=
  shapeCast _ (extractStridedSlice S1x128 ![0, 0] a6 slices_S3x128_S1x128_0_0) shapeCasts_S1x128_S128
def bh1 (a6 : FVec Ideal S3x128 .f32) : FVec Ideal S128 .f32 :=
  shapeCast _ (extractStridedSlice S1x128 ![1, 0] a6 slices_S3x128_S1x128_1_0) shapeCasts_S1x128_S128
def bh2 (a6 : FVec Ideal S3x128 .f32) : FVec Ideal S128 .f32 :=
  shapeCast _ (extractStridedSlice S1x128 ![2, 0] a6 slices_S3x128_S1x128_2_0) shapeCasts_S1x128_S128

/-- The whole network at the two programs' shared host functions: what both results are shown equal to. -/
def result (x : FVec Ideal S100000x128 .f32) (ei : IVec S2x1600000 32) (bt : IVec S100000 32)
    (w0 : FVec Ideal S128x128 .f32) (b0 : FVec Ideal S128 .f32) (a5 : FVec Ideal S3x128x128 .f32)
    (a6 : FVec Ideal S3x128 .f32) (wp : FVec Ideal S128x2 .f32) (bp : FVec Ideal S2 .f32) : FVec Ideal S128x2 .f32 :=
  Cert.Gcn.net (agg ei) (dis ei) x w0 b0 (wh0 a5) (bh0 a6) (wh1 a5) (bh1 a6) (wh2 a5) (bh2 a6) bt wp bp

end Cert.Glue

end
-- ==== Proof.KCarried.lean ====
/-
  The kernel program's run between its regions, as values. With the argument arrays as launched, the node features after
  layer `j` are `feat1 … feat4` (Proof/Spec.lean's layers at the shared host functions of Proof/Glue.lean). A BOUNDARY of
  the run is a point between two segments of @main; `Carried` says what the buffers that live across many segments hold
  there: the edges' ends, the per-edge coefficient, the per-node scale (as a column: the square of `dis`), and the
  arguments later segments still read.
-/
import proofs.«426480_j82094004896163_1_alg».proof.Proof.Gen.KernelIdeal.Frame
import proofs.«426480_j82094004896163_1_alg».proof.Proof.Spec
import proofs.«426480_j82094004896163_1_alg».proof.Proof.Glue

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

/-- The argument arrays as launched, on core `c`. -/
abbrev argX : Cert.Gcn.Nodes := m ((c.tc : Thread nD τ).loc main_arg0)
abbrev argEI : IVec Cert.ReferenceIdeal.S2x1600000 32 := m ((c.tc : Thread nD τ).loc main_arg1)
abbrev argBT : IVec Cert.ReferenceIdeal.S100000 32 := m ((c.tc : Thread nD τ).loc main_arg2)
abbrev argW0 : Cert.Gcn.Weights := m ((c.tc : Thread nD τ).loc main_arg3)
abbrev argB0 : Cert.Gcn.Chan := m ((c.tc : Thread nD τ).loc main_arg4)
abbrev argA5 : FVec Ideal Cert.ReferenceIdeal.S3x128x128 .f32 := m ((c.tc : Thread nD τ).loc main_arg5)
abbrev argA6 : FVec Ideal Cert.ReferenceIdeal.S3x128 .f32 := m ((c.tc : Thread nD τ).loc main_arg6)
abbrev argWP : FVec Ideal Cert.ReferenceIdeal.S128x2 .f32 := m ((c.tc : Thread nD τ).loc main_arg7)
abbrev argBP : FVec Ideal Cert.ReferenceIdeal.S2 .f32 := m ((c.tc : Thread nD τ).loc main_arg8)

/-- The node features after each of the four layers. -/
def feat1 : Cert.Gcn.Nodes :=
  Cert.Gcn.layerFirst (Cert.Glue.agg (argEI m c)) (Cert.Glue.dis (argEI m c)) (argX m c) (argW0 m c) (argB0 m c)
def feat2 : Cert.Gcn.Nodes :=
  Cert.Gcn.layerRes (Cert.Glue.agg (argEI m c)) (Cert.Glue.dis (argEI m c)) (feat1 m c) (Cert.Glue.wh0 (argA5 m c)) (Cert.Glue.bh0 (argA6 m c))
def feat3 : Cert.Gcn.Nodes :=
  Cert.Gcn.layerRes (Cert.Glue.agg (argEI m c)) (Cert.Glue.dis (argEI m c)) (feat2 m c) (Cert.Glue.wh1 (argA5 m c)) (Cert.Glue.bh1 (argA6 m c))
def feat4 : Cert.Gcn.Nodes :=
  Cert.Gcn.layerRes (Cert.Glue.agg (argEI m c)) (Cert.Glue.dis (argEI m c)) (feat3 m c) (Cert.Glue.wh2 (argA5 m c)) (Cert.Glue.bh2 (argA6 m c))

/-- What the long-lived buffers hold at a boundary whose contents are `W`. -/
structure Carried (W : Valuation τ sig (Elt Ideal)) : Prop where
  src : W (Proc.devRef .tc main_v1) = Cert.Glue.src (argEI m c)
  dst : W (Proc.devRef .tc main_v3) = Cert.Glue.dst (argEI m c)
  coef : W (Proc.devRef .tc main_v27) = Cert.Glue.coef (argEI m c)
  scale : ∀ n : Fin 100000, (W (Proc.devRef .tc main_v12) : Cert.Gcn.Col) (ix2 n 0)
    = Cert.Glue.dis (argEI m c) (ix1 n) * Cert.Glue.dis (argEI m c) (ix1 n)
  a2 : W (Proc.devRef .tc main_arg2) = m ((c.tc : Thread nD τ).loc main_arg2)
  a5 : W (Proc.devRef .tc main_arg5) = m ((c.tc : Thread nD τ).loc main_arg5)
  a6 : W (Proc.devRef .tc main_arg6) = m ((c.tc : Thread nD τ).loc main_arg6)
  a7 : W (Proc.devRef .tc main_arg7) = m ((c.tc : Thread nD τ).loc main_arg7)
  a8 : W (Proc.devRef .tc main_arg8) = m ((c.tc : Thread nD τ).loc main_arg8)

end Cert.KernelIdeal.KVal

end
-- ==== Proof.KMatmul0.lean ====
/-
  The dense-product region 0: every grid point loads a block of 5000 node rows and the whole weight matrix, multiplies
  them (the product accumulated into a zero block) and stores the block; a change of float format is the identity at the
  ideal instance, so after the region the output array holds the dense product of the two arrays the region found.
-/
import proofs.«426480_j82094004896163_1_alg».proof.Proof.Gen.KernelIdeal.Frame
import proofs.«426480_j82094004896163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The product of one block, entry by entry -/

/-- The product's left index at output entry `i` and contraction index `q` keeps the output's row … -/
theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column. -/
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right index takes the contraction index as its row … -/
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at row `p` and column `q` of the block: the two changes of float format are the identity
    on the extended reals and the accumulator is the zero block, so the entry is the sum over the 128 contracted
    channels `k` of the row block's entry `(p, k)` times the weights' entry `(k, q)`. -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  rfl

/-- A row block that is rows `5000·n …` of the node array `X`, times weights that are the whole matrix `W`, gives at
    row `p` of the block the dense product's row `5000·n + p`: the two sums run over the same 128 terms. -/
theorem point0 (X : Cert.Gcn.Nodes) (W : Cert.Gcn.Weights) (x : Vec Ideal S5000x128 .f32) (w : Vec Ideal S128x128 .f32) (n : Nat)
    (hx : ∀ (p : Fin 5000) (k : Fin 128) (r : Fin 100000), r.val = n * 5000 + p.val → x (ix2 p k) = X (ix2 r k))
    (hw : ∀ (k q : Fin 128), w (ix2 k q) = W (ix2 k q))
    (p : Fin 5000) (q : Fin 128) (r : Fin 100000) (hr : r.val = n * 5000 + p.val) :
    k0_pay1 (F := Ideal) x w (ix2 p q) = Cert.Gcn.mm X W (ix2 r q) := by
  rw [pay0_apply]
  show ∑ k : Fin 128, x (ix2 p k) * w (ix2 k q) = ∑ k : Fin 128, X (ix2 r k) * W (ix2 k q)
  refine Finset.sum_congr rfl fun k _ => ?_
  rw [hx p k r hr, hw k q]

/-! ## The blocks of the three windows -/

theorem hz0 : (![0, 0] : Fin 2 → Nat) = fun _ => 0 := funext fun a => by fin_cases a <;> rfl

/-- The block indices over the 20 grid points: the node rows' window and the output's window are at block row `t`,
    the weights' window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows `5000·t … 5000·t + 4999` of the node array the region found. -/
theorem iblk0_0_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1's block at every point is the whole weight matrix the region found. -/
theorem iblk0_1_apply (c : Dev nD) (t : Fin cfg0.N) (k q : Fin 128) :
    (iblk0 V c 1 t : Vec Ideal S128x128 .f32) (ix2 k q) = (V c main_arg3 : S128x128.Idx → EReal) (ix2 k q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-! ## From the blocks to the array -/

/-- What point `t` writes back is block `t` of the dense product of the two arrays the region found: entry `(p, q)`
    of the stored block sits at row `5000·t + p` of the output array, and is the product's entry there. -/
theorem flushed0_eq (c : Dev nD) (t : Fin cfg0.N) :
    (dat0 (F := Ideal) V c).flushed 2 t
      = ((cfg0.win 2).blk t).view.read (Elt Ideal) (Cert.Gcn.mm (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨-, -, -, -, e4, e5⟩ := idx_facts0 t
  have hN : t.val < 20 := Nat.lt_of_lt_of_eq t.isLt (show cfg0.N = 20 from N_0)
  funext j
  rw [View.read_apply]
  have hp : (j 0).val < 5000 := (j 0).isLt
  have hq : (j 1).val < 128 := (j 1).isLt
  have hj : (cfg0.win 2).xinj (grid0.coords t) j = ix2 (⟨(j 0).val, hp⟩ : Fin 5000) (⟨(j 1).val, hq⟩ : Fin 128) :=
    funext fun a => Fin.ext (by match a with | ⟨0, _⟩ => rfl | ⟨1, _⟩ => rfl)
  show k0_pay1 (F := Ideal) (iblk0 V c 0 t) (iblk0 V c 1 t) ((cfg0.win 2).xinj (grid0.coords t) j) = _
  rw [hj]
  refine (point0 (V c main_arg0) (V c main_arg3) (iblk0 V c 0 t) (iblk0 V c 1 t) t.val
    (fun p k r hr => iblk0_0_apply V c t p k r hr) (fun k q => iblk0_1_apply V c t k q)
    ⟨(j 0).val, hp⟩ ⟨(j 1).val, hq⟩ ⟨t.val * 5000 + (j 0).val, by omega⟩ rfl).trans ?_
  refine congrArg (Cert.Gcn.mm (V c main_arg0) (V c main_arg3)) (funext fun a => Fin.ext ?_)
  match a with
  | ⟨0, _⟩ => show t.val * 5000 + (j 0).val = win0_2.index t (0 : Fin 2) * 5000 + 1 * (j 0).val; rw [e4]; omega
  | ⟨1, _⟩ => show (j 1).val = win0_2.index t (1 : Fin 2) * 128 + 1 * (j 1).val; rw [e5]; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Row `r` of the output array is in the block of point `r / 5000`, which is written back: the 20 blocks tile the
    100000 rows. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index ⟨(i 0).val / 5000, _⟩ (0 : Fin 2) * 5000 ≤ (i 0).val
      ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val
      ∧ (i 1).val < win0_2.index ⟨(i 0).val / 5000, _⟩ (1 : Fin 2) * 128 + 128
    rw [e5]; omega

/-- After region 0 its output array is the dense product of its two input arrays as the region found them. -/
theorem mm0 (c : Dev nD) :
    (dat0 (F := Ideal) V c).arrAt 2 cfg0.N = Cert.Gcn.mm (V c main_arg0) (V c main_arg3) := by
  exact (dat0 (F := Ideal) V c).arrAt_eq_of_cover 2 (Cert.Gcn.mm (V c main_arg0) (V c main_arg3))
    (fun t _ => flushed0_eq V c t) cover0

end Cert.KernelIdeal.KVal

end
-- ==== Proof.KCombine1.lean ====
/-
  The combining region 1: every grid point loads a block of 5000 rows of the product, of the aggregation, the
  rows' per-node scales as a column and the bias as a row, and stores, element by element, the aggregation plus the
  product times the node's scale plus the channel's bias, clamped at zero from below.
-/
import proofs.«426480_j82094004896163_1_alg».proof.Proof.Gen.KernelIdeal.Frame
import proofs.«426480_j82094004896163_1_alg».proof.Proof.Spec
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- Every access of the body starts at the origin of its buffer. -/
theorem zeroOff1 : (![0, 0] : Fin 2 → Nat) = fun _ => 0 := funext fun a => by fin_cases a <;> rfl

/-- A column `[a, 1]` broadcast to `[a, b]` reads, at `(p, q)`, the column's entry of row `p`. -/
theorem bcastCol1_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p` and channel `q` of a block: the first operand there, plus the second operand
    there times the column's entry of row `p`, plus the row's entry of channel `q`, the larger of that and zero.
    The casts to the same shape are identities, the two broadcasts read the column along its row and the row along
    its channel, and the zero word is the number zero. -/
theorem pay1_apply (x0 x1 : Vec Ideal S5000x128 .f32) (x2 : Vec Ideal S5000x1 .f32) (x3 : Vec Ideal S1x128 .f32)
    (p : Fin 5000) (q : Fin 128) :
    k1_pay1 (F := Ideal) x0 x1 x2 x3 (ix2 p q)
      = max ((x0 (ix2 p q) + x1 (ix2 p q) * x2 (ix2 p (0 : Fin 1))) + x3 (ix2 (0 : Fin 1) q)) 0 := by
  unfold k1_pay1
  rw [maximumf_apply, addf_apply, addf_apply, mulf_apply, broadcast_apply]
  rw [shapeCast_self, shapeCast_self, shapeCast_self, shapeCast_self]
  rw [bcastCol1_apply, broadcastTo_1b_ab_apply]
  show max _ (Ideal.ofBits .f32 0x00000000#32) = _
  rw [Ideal.ofBits_zero_f32]

/-- One entry of a block against one entry of the whole arrays. If at the block's index `j` the four loaded blocks
    hold what the whole arrays hold at the array's index `i` (the product and the aggregation at `i`, the scale of
    `i`'s row, the bias of `i`'s channel), then the body's result at `j` is the combining step at `i`. The body is
    handed the aggregation's block first and the product's second, which is the order of the sum in the combining
    step. -/
theorem blockval1 (hw agg : Cert.Gcn.Nodes) (d2 : Cert.Gcn.Col) (b : Cert.Gcn.Row)
    (x0 x1 : Vec Ideal S5000x128 .f32) (x2 : Vec Ideal S5000x1 .f32) (x3 : Vec Ideal S1x128 .f32)
    (j : S5000x128.Idx) (i : S100000x128.Idx)
    (h0 : x0 j = hw i) (h1 : x1 j = agg i)
    (h2 : x2 (ix2 (j 0) (0 : Fin 1)) = d2 (ix2 (i 0) (0 : Fin 1)))
    (h3 : x3 (ix2 (0 : Fin 1) (j 1)) = b (ix2 (0 : Fin 1) (i 1))) :
    k1_pay1 (F := Ideal) x1 x0 x2 x3 j = Cert.Gcn.combineFirst hw agg d2 b i := by
  obtain ⟨p, q, rfl⟩ : ∃ (p : Fin 5000) (q : Fin 128), j = ix2 p q := ⟨j 0, j 1, eq_ix2 j⟩
  rw [pay1_apply, h0, h1]
  show max ((agg i + hw i * x2 (ix2 p (0 : Fin 1))) + x3 (ix2 (0 : Fin 1) q)) 0 = _
  rw [show x2 (ix2 p (0 : Fin 1)) = d2 (ix2 (i 0) (0 : Fin 1)) from h2,
    show x3 (ix2 (0 : Fin 1) q) = b (ix2 (0 : Fin 1) (i 1)) from h3]
  rfl

/-- The block indices at grid point `t`, decided over the twenty points: the product, the aggregation, the scale
    column and the output are at block row `t`, block column `0`; the bias row is at block `(0, 0)` at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combining step of the whole arrays. Entry `(p, q)` of the output's
    block is row `5000 t + p`, channel `q` of the array; the product's and the aggregation's blocks sit at the same
    rows and channels, the scale's block at the same rows of its one column, and the bias's block is the whole row:
    each input block's entry is the array's entry the combining step reads there. -/
theorem flushed1_eq (c : Dev nD) (t : Fin cfg1.N) :
    (dat1 (F := Ideal) V c).flushed 4 t
      = ((cfg1.win 4).blk t).view.read (Elt Ideal)
          (Cert.Gcn.combineFirst (V c main_v28) (V c main_v41) (V c main_v12) (V c main_v42)) := by
  show (cfg1.win 4).cut (grid1.coords t) ((dat1 V c).after 4 t) = _
  rw [after1_4]
  unfold out1_4
  rw [View.canon_unit_zero zeroOff1]
  simp only [View.ld_unit_zero (S := S5000x128) zeroOff1, View.ld_unit_zero (S := S5000x1) zeroOff1,
    View.ld_unit_zero (S := S1x128) zeroOff1]
  obtain ⟨a00, a01, a10, a11, a20, a21, a30, a31, a40, a41⟩ := idx_facts1 t
  funext j
  have hj0 : (j 0).val < 5000 := (j 0).isLt
  have hj1 : (j 1).val < 128 := (j 1).isLt
  refine blockval1 (V c main_v28) (V c main_v41) (V c main_v12) (V c main_v42)
    (iblk1 V c 0 t) (iblk1 V c 1 t) (iblk1 V c 2 t) (iblk1 V c 3 t) j (((cfg1.win 4).blk t).view.emb j) ?_ ?_ ?_ ?_
  · -- the product: same row, same channel
    show V c main_v28 (((cfg1.win 0).blk t).view.emb j) = V c main_v28 (((cfg1.win 4).blk t).view.emb j)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · -- the aggregation: same row, same channel
    show V c main_v41 (((cfg1.win 1).blk t).view.emb j) = V c main_v41 (((cfg1.win 4).blk t).view.emb j)
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · -- the scale: same row of the one column
    show V c main_v12 (((cfg1.win 2).blk t).view.emb (ix2 (j 0) (0 : Fin 1)))
      = V c main_v12 (ix2 ((((cfg1.win 4).blk t).view.emb j) 0) (0 : Fin 1))
    refine congrArg _ (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · -- the bias: same channel of the one row
    show V c main_v42 (((cfg1.win 3).blk t).view.emb (ix2 (0 : Fin 1) (j 1)))
      = V c main_v42 (ix2 (0 : Fin 1) ((((cfg1.win 4).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- The twenty blocks of 5000 rows fill the 100000 rows: row `r` is in the block of point `r / 5000`, which writes
    back like every point. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_4 _, ?_⟩
  rw [mem_blk1]
  obtain ⟨-, -, -, -, -, -, -, -, e0, e1⟩ := idx_facts1 ⟨(i 0).val / 5000, hlt⟩
  have e0' : win1_4.index ⟨(i 0).val / 5000, hlt⟩ (0 : Fin 2) = (i 0).val / 5000 := e0
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    omega

/-- After region 1 its output array is the first layer's combining step of the arrays the region found. -/
theorem combine1 (c : Dev nD) :
    (dat1 (F := Ideal) V c).arrAt 4 cfg1.N
      = Cert.Gcn.combineFirst (V c main_v28) (V c main_v41) (V c main_v12) (V c main_v42) := by
  exact (dat1 (F := Ideal) V c).arrAt_eq_of_cover 4
    (Cert.Gcn.combineFirst (V c main_v28) (V c main_v41) (V c main_v12) (V c main_v42))
    (fun t _ => flushed1_eq V c t) cover1

end Cert.KernelIdeal.KVal

end
-- ==== Proof.KLayer1.lean ====
/-
  Layer 1 of the kernel program's run: the host operations before the first region (the edges' ends, the degrees, the
  per-node scale and the per-edge coefficient), the dense product of the features and the first weights (region 0), the
  aggregation and the bias row on the host, and the combining region 1. At the boundary after region 1 the long-lived
  buffers hold what `Carried` says and the layer's output buffer holds the first layer's features.

  The run is followed boundary by boundary. A buffer's contents at a boundary are either carried from the boundary
  before (the segment between does not write the buffer, or holds it as an input array, which a region leaves as
  entered), or read off the segment: a host stretch leaves in its result buffer its operations applied to the contents
  it found, a region leaves in its output array the function its value lemma names.
-/
import proofs.«426480_j82094004896163_1_alg».proof.Proof.KCarried
import proofs.«426480_j82094004896163_1_alg».proof.Proof.KMatmul0
import proofs.«426480_j82094004896163_1_alg».proof.Proof.KCombine1
import Idealize.ShloMosaic.Lib.ValueLayout

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

namespace Layer1

/-- A buffer that a stretch of host operations does not write holds after the stretch what it held before. -/
local macro "layer1_carry " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Boundary 1: after the first stretch of host operations

The stretch cuts the edge list into its two rows, counts the edges ending at each node (a scatter of ones into zeros),
takes the inverse square root of the count plus one, squares it into a column, and multiplies that quantity at each
edge's two ends into the per-edge coefficient. These are, operation by operation, the shared host functions of the
edge list; no operation of the stretch writes an argument. -/

theorem w1_src : W1 (F := Ideal) m ρ c (Proc.devRef .tc main_v1) = Cert.Glue.src (argEI m c) := by
  show StableHlo.after hostOps0 (W0 m ρ c) (Proc.devRef .tc main_v1) = _
  after_results
  rfl

theorem w1_dst : W1 (F := Ideal) m ρ c (Proc.devRef .tc main_v3) = Cert.Glue.dst (argEI m c) := by
  show StableHlo.after hostOps0 (W0 m ρ c) (Proc.devRef .tc main_v3) = _
  after_results
  rfl

theorem w1_coef : W1 (F := Ideal) m ρ c (Proc.devRef .tc main_v27) = Cert.Glue.coef (argEI m c) := by
  show StableHlo.after hostOps0 (W0 m ρ c) (Proc.devRef .tc main_v27) = _
  after_results_simp
  rfl

/-- The column buffer is the square of `dis`, recast from a vector over the nodes to a column. -/
theorem w1_sq : W1 (F := Ideal) m ρ c (Proc.devRef .tc main_v12)
    = shapeCast S100000x1 (mulf (Cert.Glue.dis (argEI m c)) (Cert.Glue.dis (argEI m c))) shapeCasts_S100000_S100000x1 := by
  show StableHlo.after hostOps0 (W0 m ρ c) (Proc.devRef .tc main_v12) = _
  after_results
  rfl

/-- A vector over the nodes recast to a column reads, at `(n, 0)`, the vector at `n`: the recast keeps the row-major
    position, and `(n, 0)` in a column sits at position `n`. -/
theorem col_apply (x : (⟨1, ![100000]⟩ : Shape).Idx → EReal)
    (h : (⟨1, ![100000]⟩ : Shape).ShapeCasts ⟨2, ![100000, 1]⟩) (n : Fin 100000) :
    shapeCast ⟨2, ![100000, 1]⟩ x h (ix2 n 0) = x (ix1 n) :=
  shapeCast_apply x h _ _ (by
    rw [Shape.rowMajor_val_two, Shape.rowMajor_val_one]
    show n.val = n.val * 1 + 0
    omega)

/-- Row `n` of the column is `dis` at node `n`, squared. -/
theorem w1_scale (n : Fin 100000) : (W1 (F := Ideal) m ρ c (Proc.devRef .tc main_v12) : Cert.Gcn.Col) (ix2 n 0)
    = Cert.Glue.dis (argEI m c) (ix1 n) * Cert.Glue.dis (argEI m c) (ix1 n) :=
  (congrFun (w1_sq m ρ c) (ix2 n 0)).trans ((col_apply _ _ n).trans (mulf_apply _ _ _))

/-- An argument no host operation of the first stretch writes: as launched. -/
theorem w1_arg0 : W1 (F := Ideal) m ρ c (Proc.devRef .tc main_arg0) = argX m c := by
  show StableHlo.after hostOps0 (W0 m ρ c) (Proc.devRef .tc main_arg0) = W0 m ρ c (Proc.devRef .tc main_arg0)
  layer1_carry hostOps0
theorem w1_arg2 : W1 (F := Ideal) m ρ c (Proc.devRef .tc main_arg2) = m ((c.tc : Thread nD τ).loc main_arg2) := by
  show StableHlo.after hostOps0 (W0 m ρ c) (Proc.devRef .tc main_arg2) = W0 m ρ c (Proc.devRef .tc main_arg2)
  layer1_carry hostOps0
theorem w1_arg3 : W1 (F := Ideal) m ρ c (Proc.devRef .tc main_arg3) = argW0 m c := by
  show StableHlo.after hostOps0 (W0 m ρ c) (Proc.devRef .tc main_arg3) = W0 m ρ c (Proc.devRef .tc main_arg3)
  layer1_carry hostOps0
theorem w1_arg4 : W1 (F := Ideal) m ρ c (Proc.devRef .tc main_arg4) = argB0 m c := by
  show StableHlo.after hostOps0 (W0 m ρ c) (Proc.devRef .tc main_arg4) = W0 m ρ c (Proc.devRef .tc main_arg4)
  layer1_carry hostOps0
theorem w1_arg5 : W1 (F := Ideal) m ρ c (Proc.devRef .tc main_arg5) = m ((c.tc : Thread nD τ).loc main_arg5) := by
  show StableHlo.after hostOps0 (W0 m ρ c) (Proc.devRef .tc main_arg5) = W0 m ρ c (Proc.devRef .tc main_arg5)
  layer1_carry hostOps0
theorem w1_arg6 : W1 (F := Ideal) m ρ c (Proc.devRef .tc main_arg6) = m ((c.tc : Thread nD τ).loc main_arg6) := by
  show StableHlo.after hostOps0 (W0 m ρ c) (Proc.devRef .tc main_arg6) = W0 m ρ c (Proc.devRef .tc main_arg6)
  layer1_carry hostOps0
theorem w1_arg7 : W1 (F := Ideal) m ρ c (Proc.devRef .tc main_arg7) = m ((c.tc : Thread nD τ).loc main_arg7) := by
  show StableHlo.after hostOps0 (W0 m ρ c) (Proc.devRef .tc main_arg7) = W0 m ρ c (Proc.devRef .tc main_arg7)
  layer1_carry hostOps0
theorem w1_arg8 : W1 (F := Ideal) m ρ c (Proc.devRef .tc main_arg8) = m ((c.tc : Thread nD τ).loc main_arg8) := by
  show StableHlo.after hostOps0 (W0 m ρ c) (Proc.devRef .tc main_arg8) = W0 m ρ c (Proc.devRef .tc main_arg8)
  layer1_carry hostOps0

/-! ## Boundary 2: after region 0, the dense product

The region's arrays are the features, the first weights (both inputs: left as entered) and the product buffer. -/

theorem w2_prod : W2 (F := Ideal) m ρ c (Proc.devRef .tc main_v28) = Cert.Gcn.mm (argX m c) (argW0 m c) := by
  show W2 (F := Ideal) m ρ c (Proc.devRef .tc (Pipeline.arrRef spec0 2)) = _
  refine (W2_arr m ρ c 2).trans ((mm0 (V1 m ρ) c).trans ?_)
  show Cert.Gcn.mm (W1 (F := Ideal) m ρ c (Proc.devRef .tc main_arg0)) (W1 (F := Ideal) m ρ c (Proc.devRef .tc main_arg3)) = _
  rw [w1_arg0, w1_arg3]

theorem w2_src : W2 (F := Ideal) m ρ c (Proc.devRef .tc main_v1) = Cert.Glue.src (argEI m c) :=
  (W2_of_ne m ρ c main_v1 (by decide)).trans (w1_src m ρ c)
theorem w2_dst : W2 (F := Ideal) m ρ c (Proc.devRef .tc main_v3) = Cert.Glue.dst (argEI m c) :=
  (W2_of_ne m ρ c main_v3 (by decide)).trans (w1_dst m ρ c)
theorem w2_coef : W2 (F := Ideal) m ρ c (Proc.devRef .tc main_v27) = Cert.Glue.coef (argEI m c) :=
  (W2_of_ne m ρ c main_v27 (by decide)).trans (w1_coef m ρ c)
theorem w2_arg4 : W2 (F := Ideal) m ρ c (Proc.devRef .tc main_arg4) = argB0 m c :=
  (W2_of_ne m ρ c main_arg4 (by decide)).trans (w1_arg4 m ρ c)

/-! ## Boundary 3: after the second stretch of host operations

The stretch gathers each edge's source row of the product, scales it by the edge's coefficient and adds it into the
edge's target row of a zero array (the aggregation), and recasts the bias vector as a row. It writes none of the
long-lived buffers. -/

theorem w3_prod : W3 (F := Ideal) m ρ c (Proc.devRef .tc main_v28) = Cert.Gcn.mm (argX m c) (argW0 m c) := by
  refine Eq.trans ?_ (w2_prod m ρ c)
  show StableHlo.after hostOps1 (W2 m ρ c) (Proc.devRef .tc main_v28) = W2 m ρ c (Proc.devRef .tc main_v28)
  layer1_carry hostOps1

/-- The second stretch over any entry contents `X` that hold the edges' ends, the per-edge coefficient and an array `hw`
    in the product buffer: the aggregation buffer ends at the shared aggregation of `hw`. -/
theorem hostOps1_agg (X : Valuation τ sig (Elt Ideal)) (ei : IVec Cert.ReferenceIdeal.S2x1600000 32) (hw : Cert.Gcn.Nodes)
    (h1 : X (Proc.devRef .tc main_v1) = Cert.Glue.src ei) (h3 : X (Proc.devRef .tc main_v3) = Cert.Glue.dst ei)
    (h27 : X (Proc.devRef .tc main_v27) = Cert.Glue.coef ei) (h28 : X (Proc.devRef .tc main_v28) = hw) :
    StableHlo.after hostOps1 X (Proc.devRef .tc main_v41) = Cert.Glue.agg ei hw := by
  after_results_simp
  rw [h1, h3, h27, h28]
  rfl

theorem w3_agg : W3 (F := Ideal) m ρ c (Proc.devRef .tc main_v41)
    = Cert.Glue.agg (argEI m c) (Cert.Gcn.mm (argX m c) (argW0 m c)) :=
  hostOps1_agg (W2 m ρ c) (argEI m c) _ (w2_src m ρ c) (w2_dst m ρ c) (w2_coef m ρ c) (w2_prod m ρ c)

/-- The bias row is the bias vector recast to one row. -/
theorem hostOps1_row (X : Valuation τ sig (Elt Ideal)) (b : Cert.Gcn.Chan) (h4 : X (Proc.devRef .tc main_arg4) = b) :
    StableHlo.after hostOps1 X (Proc.devRef .tc main_v42) = shapeCast S1x128 b shapeCasts_S128_S1x128 := by
  after_results
  rw [h4]
  rfl

theorem w3_row : W3 (F := Ideal) m ρ c (Proc.devRef .tc main_v42)
    = shapeCast S1x128 (argB0 m c) shapeCasts_S128_S1x128 :=
  hostOps1_row (W2 m ρ c) (argB0 m c) (w2_arg4 m ρ c)

theorem w3_bias (q : Fin 128) : (W3 (F := Ideal) m ρ c (Proc.devRef .tc main_v42) : Cert.Gcn.Row) (ix2 0 q)
    = argB0 m c (ix1 q) :=
  (congrFun (w3_row m ρ c) (ix2 0 q)).trans (shapeCast_a_1a_apply _ _ 0 q)

theorem w3_scale (n : Fin 100000) : (W3 (F := Ideal) m ρ c (Proc.devRef .tc main_v12) : Cert.Gcn.Col) (ix2 n 0)
    = Cert.Glue.dis (argEI m c) (ix1 n) * Cert.Glue.dis (argEI m c) (ix1 n) := by
  have e : W3 (F := Ideal) m ρ c (Proc.devRef .tc main_v12) = W1 m ρ c (Proc.devRef .tc main_v12) :=
    (show StableHlo.after hostOps1 (W2 m ρ c) (Proc.devRef .tc main_v12) = W2 m ρ c (Proc.devRef .tc main_v12) by
      layer1_carry hostOps1).trans (W2_of_ne m ρ c main_v12 (by decide))
  exact (congrFun e (ix2 n 0)).trans (w1_scale m ρ c n)

/-! ## Boundary 4: after region 1, the combining step -/

/-- The combining step on the product, its aggregation, the squared scale as a column and the bias as a row is the
    first layer: entry by entry the two are the same expression once the column is read at `(n, 0)` and the row at
    `(0, d)`. -/
theorem combineFirst_eq_layerFirst (hw ag : Cert.Gcn.Nodes) (d2 : Cert.Gcn.Col) (b : Cert.Gcn.Row)
    (A : Cert.Gcn.Nodes → Cert.Gcn.Nodes) (dis : Cert.Gcn.PerNode) (X : Cert.Gcn.Nodes) (W : Cert.Gcn.Weights)
    (bias : Cert.Gcn.Chan) (hhw : hw = Cert.Gcn.mm X W) (hag : ag = A (Cert.Gcn.mm X W))
    (hd : ∀ n : Fin 100000, d2 (ix2 n 0) = dis (ix1 n) * dis (ix1 n)) (hb : ∀ q : Fin 128, b (ix2 0 q) = bias (ix1 q)) :
    Cert.Gcn.combineFirst hw ag d2 b = Cert.Gcn.layerFirst A dis X W bias := by
  subst hhw hag
  funext i
  obtain ⟨p, q, rfl⟩ : ∃ (p : Fin 100000) (q : Fin 128), i = ix2 p q := ⟨i 0, i 1, eq_ix2 i⟩
  show max ((A (Cert.Gcn.mm X W) (ix2 p q) + Cert.Gcn.mm X W (ix2 p q) * d2 (ix2 p 0)) + b (ix2 0 q)) 0
    = max ((A (Cert.Gcn.mm X W) (ix2 p q) + Cert.Gcn.mm X W (ix2 p q) * (dis (ix1 p) * dis (ix1 p))) + bias (ix1 q)) 0
  rw [hd p, hb q]

theorem w4_feat : W4 (F := Ideal) m ρ c (Proc.devRef .tc main_v43) = feat1 m c := by
  show W4 (F := Ideal) m ρ c (Proc.devRef .tc (Pipeline.arrRef spec1 4)) = _
  refine (W4_arr m ρ c 4).trans ((combine1 (V3 m ρ) c).trans ?_)
  unfold feat1
  exact combineFirst_eq_layerFirst _ _ _ _ (Cert.Glue.agg (argEI m c)) (Cert.Glue.dis (argEI m c)) (argX m c)
    (argW0 m c) (argB0 m c) (w3_prod m ρ c) (w3_agg m ρ c) (w3_scale m ρ c) (w3_bias m ρ c)

/-- A buffer that is no array of region 0 or 1 and that the second host stretch does not write holds at boundary 4
    what it held at boundary 1. -/
theorem w4_of_w1 (b : Ref sig .tc) (h1 : ∀ w, Pipeline.arrRef spec1 w ≠ b)
    (hh : StableHlo.after hostOps1 (W2 (F := Ideal) m ρ c) (Proc.devRef .tc b) = W2 m ρ c (Proc.devRef .tc b))
    (h0 : ∀ w, Pipeline.arrRef spec0 w ≠ b) :
    W4 (F := Ideal) m ρ c (Proc.devRef .tc b) = W1 m ρ c (Proc.devRef .tc b) :=
  (W4_of_ne m ρ c b h1).trans (hh.trans (W2_of_ne m ρ c b h0))

/-- The scale column is an input array of region 1: left as entered. -/
theorem w4_scale (n : Fin 100000) : (W4 (F := Ideal) m ρ c (Proc.devRef .tc main_v12) : Cert.Gcn.Col) (ix2 n 0)
    = Cert.Glue.dis (argEI m c) (ix1 n) * Cert.Glue.dis (argEI m c) (ix1 n) := by
  have e : W4 (F := Ideal) m ρ c (Proc.devRef .tc (Pipeline.arrRef spec1 2)) = W3 m ρ c (Proc.devRef .tc main_v12) :=
    (W4_arr m ρ c 2).trans (((dat1 (V3 m ρ) c).arrAt_in 2 rfl _).trans (A_eq1 (V3 m ρ) c 2))
  exact (congrFun e (ix2 n 0)).trans (w3_scale m ρ c n)

/-- The long-lived buffers at boundary 4: each is carried from boundary 1 (the scale column as an input array of
    region 1). -/
theorem carried4 : Carried m c (W4 (F := Ideal) m ρ c) :=
  { src := (w4_of_w1 m ρ c main_v1 (by decide) (by layer1_carry hostOps1) (by decide)).trans (w1_src m ρ c)
    dst := (w4_of_w1 m ρ c main_v3 (by decide) (by layer1_carry hostOps1) (by decide)).trans (w1_dst m ρ c)
    coef := (w4_of_w1 m ρ c main_v27 (by decide) (by layer1_carry hostOps1) (by decide)).trans (w1_coef m ρ c)
    scale := w4_scale m ρ c
    a2 := (w4_of_w1 m ρ c main_arg2 (by decide) (by layer1_carry hostOps1) (by decide)).trans (w1_arg2 m ρ c)
    a5 := (w4_of_w1 m ρ c main_arg5 (by decide) (by layer1_carry hostOps1) (by decide)).trans (w1_arg5 m ρ c)
    a6 := (w4_of_w1 m ρ c main_arg6 (by decide) (by layer1_carry hostOps1) (by decide)).trans (w1_arg6 m ρ c)
    a7 := (w4_of_w1 m ρ c main_arg7 (by decide) (by layer1_carry hostOps1) (by decide)).trans (w1_arg7 m ρ c)
    a8 := (w4_of_w1 m ρ c main_arg8 (by decide) (by layer1_carry hostOps1) (by decide)).trans (w1_arg8 m ρ c) }

end Layer1

/-- At the boundary after layer 1's combining region: the long-lived buffers as `Carried` says, and the layer's output
    buffer at the layer's features. -/
theorem station4 : Carried m c (W4 (F := Ideal) m ρ c) ∧ W4 (F := Ideal) m ρ c (Proc.devRef .tc main_v43) = feat1 m c :=
  ⟨Layer1.carried4 m ρ c, Layer1.w4_feat m ρ c⟩

end Cert.KernelIdeal.KVal

end
-- ==== Proof.KMatmul2.lean ====
/-
  The dense-product region 2: every grid point loads a block of 5000 node rows and the whole weight matrix, multiplies
  them (the product accumulated into a zero block) and stores the block; a change of float format is the identity at the
  ideal instance, so after the region the output array holds the dense product of the two arrays the region found.
-/
import proofs.«426480_j82094004896163_1_alg».proof.Proof.Gen.KernelIdeal.Frame
import proofs.«426480_j82094004896163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The product of one block, entry by entry -/

/-- The product's left index at output entry `i` and contraction index `q` keeps the output's row … -/
theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column. -/
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right index takes the contraction index as its row … -/
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at row `p` and column `q` of the block: the casts of each operand to its own shape and the
    two changes of float format are the identity on the extended reals and the accumulator is the zero block, so the
    entry is the sum over the 128 contracted channels `k` of the row block's entry `(p, k)` times the weights' entry
    `(k, q)`. -/
theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]
  simp only [truncf_apply, shapeCast_self]

/-- A row block that is rows `5000·n …` of the node array `X`, times weights that are the whole matrix `W`, gives at
    row `p` of the block the dense product's row `5000·n + p`: the two sums run over the same 128 terms. -/
theorem point2 (X : Cert.Gcn.Nodes) (W : Cert.Gcn.Weights) (x : Vec Ideal S5000x128 .f32) (w : Vec Ideal S128x128 .f32) (n : Nat)
    (hx : ∀ (p : Fin 5000) (k : Fin 128) (r : Fin 100000), r.val = n * 5000 + p.val → x (ix2 p k) = X (ix2 r k))
    (hw : ∀ (k q : Fin 128), w (ix2 k q) = W (ix2 k q))
    (p : Fin 5000) (q : Fin 128) (r : Fin 100000) (hr : r.val = n * 5000 + p.val) :
    k2_pay1 (F := Ideal) x w (ix2 p q) = Cert.Gcn.mm X W (ix2 r q) := by
  rw [pay2_apply]
  show ∑ k : Fin 128, x (ix2 p k) * w (ix2 k q) = ∑ k : Fin 128, X (ix2 r k) * W (ix2 k q)
  refine Finset.sum_congr rfl fun k _ => ?_
  rw [hx p k r hr, hw k q]

/-! ## The blocks of the three windows -/

theorem hz2 : (![0, 0] : Fin 2 → Nat) = fun _ => 0 := funext fun a => by fin_cases a <;> rfl

/-- The block indices over the 20 grid points: the node rows' window and the output's window are at block row `t`,
    the weights' window stays at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point `t` is rows `5000·t … 5000·t + 4999` of the node array the region found. -/
theorem iblk2_0_apply (c : Dev nD) (t : Fin cfg2.N) (p : Fin 5000) (k : Fin 128) (r : Fin 100000)
    (hr : r.val = t.val * 5000 + p.val) :
    (iblk2 V c 0 t : Vec Ideal S5000x128 .f32) (ix2 p k) = (V c main_v43 : S100000x128.Idx → EReal) (ix2 r k) := by
  obtain ⟨e0, e1, -⟩ := idx_facts2 t
  unfold iblk2
  rw [View.read_apply]
  show V c main_v43 _ = V c main_v43 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at every point is the whole weight matrix the region found. -/
theorem iblk2_1_apply (c : Dev nD) (t : Fin cfg2.N) (k q : Fin 128) :
    (iblk2 V c 1 t : Vec Ideal S128x128 .f32) (ix2 k q) = (V c main_v45 : S128x128.Idx → EReal) (ix2 k q) := by
  obtain ⟨-, -, e2, e3, -⟩ := idx_facts2 t
  unfold iblk2
  rw [View.read_apply]
  show V c main_v45 _ = V c main_v45 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-! ## From the blocks to the array -/

/-- What point `t` writes back is block `t` of the dense product of the two arrays the region found: entry `(p, q)`
    of the stored block sits at row `5000·t + p` of the output array, and is the product's entry there. -/
theorem flushed2_eq (c : Dev nD) (t : Fin cfg2.N) :
    (dat2 (F := Ideal) V c).flushed 2 t
      = ((cfg2.win 2).blk t).view.read (Elt Ideal) (Cert.Gcn.mm (V c main_v43) (V c main_v45)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨-, -, -, -, e4, e5⟩ := idx_facts2 t
  have hN : t.val < 20 := Nat.lt_of_lt_of_eq t.isLt (show cfg2.N = 20 from N_2)
  funext j
  rw [View.read_apply]
  have hp : (j 0).val < 5000 := (j 0).isLt
  have hq : (j 1).val < 128 := (j 1).isLt
  have hj : (cfg2.win 2).xinj (grid2.coords t) j = ix2 (⟨(j 0).val, hp⟩ : Fin 5000) (⟨(j 1).val, hq⟩ : Fin 128) :=
    funext fun a => Fin.ext (by match a with | ⟨0, _⟩ => rfl | ⟨1, _⟩ => rfl)
  show k2_pay1 (F := Ideal) (iblk2 V c 0 t) (iblk2 V c 1 t) ((cfg2.win 2).xinj (grid2.coords t) j) = _
  rw [hj]
  refine (point2 (V c main_v43) (V c main_v45) (iblk2 V c 0 t) (iblk2 V c 1 t) t.val
    (fun p k r hr => iblk2_0_apply V c t p k r hr) (fun k q => iblk2_1_apply V c t k q)
    ⟨(j 0).val, hp⟩ ⟨(j 1).val, hq⟩ ⟨t.val * 5000 + (j 0).val, by omega⟩ rfl).trans ?_
  refine congrArg (Cert.Gcn.mm (V c main_v43) (V c main_v45)) (funext fun a => Fin.ext ?_)
  match a with
  | ⟨0, _⟩ => show t.val * 5000 + (j 0).val = win2_2.index t (0 : Fin 2) * 5000 + 1 * (j 0).val; rw [e4]; omega
  | ⟨1, _⟩ => show (j 1).val = win2_2.index t (1 : Fin 2) * 128 + 1 * (j 1).val; rw [e5]; omega

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row `r` of the output array is in the block of point `r / 5000`, which is written back: the 20 blocks tile the
    100000 rows. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk2]
  obtain ⟨-, -, -, -, e4, e5⟩ := idx_facts2 ⟨(i 0).val / 5000, by rw [hN]; omega⟩
  intro a
  match a with
  | ⟨0, _⟩ =>
    show win2_2.index ⟨(i 0).val / 5000, _⟩ (0 : Fin 2) * 5000 ≤ (i 0).val
      ∧ (i 0).val < win2_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, _⟩ (1 : Fin 2) * 128 ≤ (i 1).val
      ∧ (i 1).val < win2_2.index ⟨(i 0).val / 5000, _⟩ (1 : Fin 2) * 128 + 128
    rw [e5]; omega

/-- After region 2 its output array is the dense product of its two input arrays as the region found them. -/
theorem mm2 (c : Dev nD) :
    (dat2 (F := Ideal) V c).arrAt 2 cfg2.N = Cert.Gcn.mm (V c main_v43) (V c main_v45) := by
  exact (dat2 (F := Ideal) V c).arrAt_eq_of_cover 2 (Cert.Gcn.mm (V c main_v43) (V c main_v45))
    (fun t _ => flushed2_eq V c t) cover2

end Cert.KernelIdeal.KVal

end
-- ==== Proof.KCombine3.lean ====
/-
  The combining region 3: every grid point loads a block of 5000 rows of the product, of the aggregation and of the layer's input, the
  rows' per-node scales as a column and the bias as a row, and stores, element by element, the aggregation plus the
  product times the node's scale plus the channel's bias plus the layer's input, clamped at zero from below.
-/
import proofs.«426480_j82094004896163_1_alg».proof.Proof.Gen.KernelIdeal.Frame
import proofs.«426480_j82094004896163_1_alg».proof.Proof.Spec
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- Every access of the body starts at the origin of its buffer. -/
theorem zeroOff3 : (![0, 0] : Fin 2 → Nat) = fun _ => 0 := funext fun a => by fin_cases a <;> rfl

/-- A column `[a, 1]` broadcast to `[a, b]` reads, at `(p, q)`, the column's entry of row `p`. -/
theorem bcastCol3_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p` and channel `q` of a block: the first operand there, plus the second operand
    there times the column's entry of row `p`, plus the row's entry of channel `q`, plus the last operand there, the
    larger of that and zero. The casts to the same shape are identities, the two broadcasts read the column along its
    row and the row along its channel, and the zero word is the number zero. -/
theorem pay3_apply (x0 x1 : Vec Ideal S5000x128 .f32) (x2 : Vec Ideal S5000x1 .f32) (x3 : Vec Ideal S1x128 .f32)
    (x4 : Vec Ideal S5000x128 .f32) (p : Fin 5000) (q : Fin 128) :
    k3_pay1 (F := Ideal) x0 x1 x2 x3 x4 (ix2 p q)
      = max (((x0 (ix2 p q) + x1 (ix2 p q) * x2 (ix2 p (0 : Fin 1))) + x3 (ix2 (0 : Fin 1) q)) + x4 (ix2 p q)) 0 := by
  unfold k3_pay1
  rw [maximumf_apply, addf_apply, addf_apply, addf_apply, mulf_apply, broadcast_apply]
  rw [shapeCast_self, shapeCast_self, shapeCast_self, shapeCast_self, shapeCast_self]
  rw [bcastCol3_apply, broadcastTo_1b_ab_apply]
  show max _ (Ideal.ofBits .f32 0x00000000#32) = _
  rw [Ideal.ofBits_zero_f32]

/-- One entry of a block against one entry of the whole arrays. If at the block's index `j` the five loaded blocks
    hold what the whole arrays hold at the array's index `i` (the product, the aggregation and the layer's input at
    `i`, the scale of `i`'s row, the bias of `i`'s channel), then the body's result at `j` is the residual combining
    step at `i`. The body is handed the aggregation's block first and the product's second, which is the order of the
    sum in the combining step. -/
theorem blockval3 (hw agg : Cert.Gcn.Nodes) (d2 : Cert.Gcn.Col) (b : Cert.Gcn.Row) (res : Cert.Gcn.Nodes)
    (x0 x1 : Vec Ideal S5000x128 .f32) (x2 : Vec Ideal S5000x1 .f32) (x3 : Vec Ideal S1x128 .f32)
    (x4 : Vec Ideal S5000x128 .f32) (j : S5000x128.Idx) (i : S100000x128.Idx)
    (h0 : x0 j = hw i) (h1 : x1 j = agg i)
    (h2 : x2 (ix2 (j 0) (0 : Fin 1)) = d2 (ix2 (i 0) (0 : Fin 1)))
    (h3 : x3 (ix2 (0 : Fin 1) (j 1)) = b (ix2 (0 : Fin 1) (i 1)))
    (h4 : x4 j = res i) :
    k3_pay1 (F := Ideal) x1 x0 x2 x3 x4 j = Cert.Gcn.combineRes hw agg d2 b res i := by
  obtain ⟨p, q, rfl⟩ : ∃ (p : Fin 5000) (q : Fin 128), j = ix2 p q := ⟨j 0, j 1, eq_ix2 j⟩
  rw [pay3_apply, h0, h1, h4]
  show max (((agg i + hw i * x2 (ix2 p (0 : Fin 1))) + x3 (ix2 (0 : Fin 1) q)) + res i) 0 = _
  rw [show x2 (ix2 p (0 : Fin 1)) = d2 (ix2 (i 0) (0 : Fin 1)) from h2,
    show x3 (ix2 (0 : Fin 1) q) = b (ix2 (0 : Fin 1) (i 1)) from h3]
  rfl

/-- The block indices at grid point `t`, decided over the twenty points: the product, the aggregation, the scale
    column, the layer's input and the output are at block row `t`, block column `0`; the bias row is at block
    `(0, 0)` at every point. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the residual combining step of the whole arrays. Entry `(p, q)` of the
    output's block is row `5000 t + p`, channel `q` of the array; the product's, the aggregation's and the layer
    input's blocks sit at the same rows and channels, the scale's block at the same rows of its one column, and the
    bias's block is the whole row: each input block's entry is the array's entry the combining step reads there. -/
theorem flushed3_eq (c : Dev nD) (t : Fin cfg3.N) :
    (dat3 (F := Ideal) V c).flushed 5 t
      = ((cfg3.win 5).blk t).view.read (Elt Ideal)
          (Cert.Gcn.combineRes (V c main_v48) (V c main_v61) (V c main_v12) (V c main_v62) (V c main_v43)) := by
  show (cfg3.win 5).cut (grid3.coords t) ((dat3 V c).after 5 t) = _
  rw [after3_5]
  unfold out3_5
  rw [View.canon_unit_zero zeroOff3]
  simp only [View.ld_unit_zero (S := S5000x128) zeroOff3, View.ld_unit_zero (S := S5000x1) zeroOff3,
    View.ld_unit_zero (S := S1x128) zeroOff3]
  obtain ⟨a00, a01, a10, a11, a20, a21, a30, a31, a40, a41, a50, a51⟩ := idx_facts3 t
  funext j
  have hj0 : (j 0).val < 5000 := (j 0).isLt
  have hj1 : (j 1).val < 128 := (j 1).isLt
  refine blockval3 (V c main_v48) (V c main_v61) (V c main_v12) (V c main_v62) (V c main_v43)
    (iblk3 V c 0 t) (iblk3 V c 1 t) (iblk3 V c 2 t) (iblk3 V c 3 t) (iblk3 V c 4 t) j
    (((cfg3.win 5).blk t).view.emb j) ?_ ?_ ?_ ?_ ?_
  · -- the product: same row, same channel
    show V c main_v48 (((cfg3.win 0).blk t).view.emb j) = V c main_v48 (((cfg3.win 5).blk t).view.emb j)
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * (j 1).val = win3_5.index t (1 : Fin 2) * 128 + 1 * (j 1).val; omega
  · -- the aggregation: same row, same channel
    show V c main_v61 (((cfg3.win 1).blk t).view.emb j) = V c main_v61 (((cfg3.win 5).blk t).view.emb j)
    refine congrArg _ (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 128 + 1 * (j 1).val = win3_5.index t (1 : Fin 2) * 128 + 1 * (j 1).val; omega
  · -- the scale: same row of the one column
    show V c main_v12 (((cfg3.win 2).blk t).view.emb (ix2 (j 0) (0 : Fin 1)))
      = V c main_v12 (ix2 ((((cfg3.win 5).blk t).view.emb j) 0) (0 : Fin 1))
    refine congrArg _ (funext fun a => Fin.ext ?_)
    match a with
    | ⟨0, _⟩ => show win3_2.index t (0 : Fin 2) * 5000 + 1 * (j 0).val = win3_5.index t (0 : Fin 2) * 5000 + 1 * (j 0).val; omega
    | ⟨1, _⟩ => show win3_2.index t (1 : Fin 2) * 1 + 1 * 0 = 0; omega
  · -- the bias: same channel of the one row
    show V c main_v62 (((cfg3.win 3).blk t).view.emb (ix2 (0 : Fin 1) (j 1)))
      = V c main_v62 (ix2 (0 : Fin 1) ((((cfg3.win 5).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  · -- the layer's input: same row, same channel
    show V c main_v43 (((cfg3.win 4).blk t).view.emb j) = V c main_v43 (((cfg3.win 5).blk t).view.emb j)
    refine congrArg _ (funext fun a => Fin.ext ?_)
    match a with
    | ⟨0, _⟩ => show win3_4.index t (0 : Fin 2) * 5000 + 1 * (j 0).val = win3_5.index t (0 : Fin 2) * 5000 + 1 * (j 0).val; omega
    | ⟨1, _⟩ => show win3_4.index t (1 : Fin 2) * 128 + 1 * (j 1).val = win3_5.index t (1 : Fin 2) * 128 + 1 * (j 1).val; omega

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v63).slice (win3_5.rect t)).set ↔ _
  rw [View.set_slice_whole, Rect.mem_set_unit]
  exact Iff.rfl

/-- The twenty blocks of 5000 rows fill the 100000 rows: row `r` is in the block of point `r / 5000`, which writes
    back like every point. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hlt : (i 0).val / 5000 < cfg3.N := by rw [hN]; omega
  refine ⟨⟨(i 0).val / 5000, hlt⟩, flush3_5 _, ?_⟩
  rw [mem_blk3]
  obtain ⟨-, -, -, -, -, -, -, -, -, -, e0, e1⟩ := idx_facts3 ⟨(i 0).val / 5000, hlt⟩
  have e0' : win3_5.index ⟨(i 0).val / 5000, hlt⟩ (0 : Fin 2) = (i 0).val / 5000 := e0
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    omega

/-- After region 3 its output array is a residual layer's combining step of the arrays the region found. -/
theorem combine3 (c : Dev nD) :
    (dat3 (F := Ideal) V c).arrAt 5 cfg3.N
      = Cert.Gcn.combineRes (V c main_v48) (V c main_v61) (V c main_v12) (V c main_v62) (V c main_v43) := by
  exact (dat3 (F := Ideal) V c).arrAt_eq_of_cover 5
    (Cert.Gcn.combineRes (V c main_v48) (V c main_v61) (V c main_v12) (V c main_v62) (V c main_v43))
    (fun t _ => flushed3_eq V c t) cover3

end Cert.KernelIdeal.KVal

end
-- ==== Proof.KLayer2.lean ====
/-
  Layer 2 of the kernel program's run, from the boundary after region 1 to the boundary after region 3: the layer's
  weights and bias cut out of their stacks, the dense product (region 2), the aggregation and the bias row on the host,
  and the residual combining region 3.
-/
import proofs.«426480_j82094004896163_1_alg».proof.Proof.KLayer1
import proofs.«426480_j82094004896163_1_alg».proof.Proof.KMatmul2
import proofs.«426480_j82094004896163_1_alg».proof.Proof.KCombine3
import Idealize.ShloMosaic.Lib.ValueLayout

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## What the three residual layers share -/

/-- No operation of a literal stretch of host operations writes the buffer in the goal: each operation writes its one
    result buffer, and the buffer in the goal is a different one. -/
macro "host_unwritten " ops:ident : tactic =>
  `(tactic| (refine List.forall_iff_forall_mem.mp ?_
             simp only [$ops:ident, List.flatten_cons, List.flatten_nil, List.append_nil, List.cons_append, List.nil_append,
               List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A residual layer's combining step is the layer itself, when it is fed the dense product, the aggregation of that
    product, a column that holds the square of `dis` node by node and a row that holds the bias channel by channel:
    at node `p` and channel `q` both sides are the same sum and clamp once the column is read at `p` and the row at `q`. -/
theorem combineRes_eq_layerRes (A : Cert.Gcn.Nodes → Cert.Gcn.Nodes) (dis : Cert.Gcn.PerNode) (X : Cert.Gcn.Nodes)
    (Wt : Cert.Gcn.Weights) (b : Cert.Gcn.Chan) (d2 : Cert.Gcn.Col) (br : Cert.Gcn.Row)
    (hd : ∀ n : Fin 100000, d2 (ix2 n 0) = dis (ix1 n) * dis (ix1 n))
    (hb : ∀ q : Fin 128, br (ix2 0 q) = b (ix1 q)) :
    Cert.Gcn.combineRes (Cert.Gcn.mm X Wt) (A (Cert.Gcn.mm X Wt)) d2 br X = Cert.Gcn.layerRes A dis X Wt b := by
  funext i
  obtain ⟨p, q, rfl⟩ : ∃ (p : Fin 100000) (q : Fin 128), i = ix2 p q := ⟨i 0, i 1, eq_ix2 i⟩
  show max (((A (Cert.Gcn.mm X Wt) (ix2 p q) + Cert.Gcn.mm X Wt (ix2 p q) * d2 (ix2 p 0)) + br (ix2 0 q)) + X (ix2 p q)) 0
     = max ((A (Cert.Gcn.mm X Wt) (ix2 p q) + Cert.Gcn.mm X Wt (ix2 p q) * (dis (ix1 p) * dis (ix1 p))) + b (ix1 q) + X (ix2 p q)) 0
  rw [hd p, hb q]

/-- `Carried` passes from one boundary to another whose contents agree with the first on the nine long-lived buffers. -/
theorem Carried.of_agree {W W' : Valuation τ sig (Elt Ideal)} (h : Carried m c W)
    (e1 : W' (Proc.devRef .tc main_v1) = W (Proc.devRef .tc main_v1))
    (e3 : W' (Proc.devRef .tc main_v3) = W (Proc.devRef .tc main_v3))
    (e27 : W' (Proc.devRef .tc main_v27) = W (Proc.devRef .tc main_v27))
    (e12 : W' (Proc.devRef .tc main_v12) = W (Proc.devRef .tc main_v12))
    (ea2 : W' (Proc.devRef .tc main_arg2) = W (Proc.devRef .tc main_arg2))
    (ea5 : W' (Proc.devRef .tc main_arg5) = W (Proc.devRef .tc main_arg5))
    (ea6 : W' (Proc.devRef .tc main_arg6) = W (Proc.devRef .tc main_arg6))
    (ea7 : W' (Proc.devRef .tc main_arg7) = W (Proc.devRef .tc main_arg7))
    (ea8 : W' (Proc.devRef .tc main_arg8) = W (Proc.devRef .tc main_arg8)) : Carried m c W' where
  src := e1.trans h.src
  dst := e3.trans h.dst
  coef := e27.trans h.coef
  scale := fun n => by rw [e12]; exact h.scale n
  a2 := ea2.trans h.a2
  a5 := ea5.trans h.a5
  a6 := ea6.trans h.a6
  a7 := ea7.trans h.a7
  a8 := ea8.trans h.a8

/-! ## Layer 2: buffers that pass through untouched

The boundaries are 4 (after region 1), 5 (after the stretch that cuts out the weights and the bias), 6 (after the dense
product, region 2), 7 (after the stretch that aggregates and lays the bias out as a row) and 8 (after the combining
region 3). A buffer that a stretch does not write, and that is no array of a region, holds after it what it held
before. -/

theorem keep5 (b : Ref sig .tc) (h2 : ∀ op ∈ (hostOps2 (F := Ideal)), Proc.devRef (τ := τ) .tc b ∉ op.writes) :
    W5 (F := Ideal) m ρ c (Proc.devRef .tc b) = W4 (F := Ideal) m ρ c (Proc.devRef .tc b) :=
  StableHlo.after_of_forall_not_mem _ _ h2

theorem keep6 (b : Ref sig .tc) (h2 : ∀ op ∈ (hostOps2 (F := Ideal)), Proc.devRef (τ := τ) .tc b ∉ op.writes)
    (r2 : ∀ w, Pipeline.arrRef spec2 w ≠ b) :
    W6 (F := Ideal) m ρ c (Proc.devRef .tc b) = W4 (F := Ideal) m ρ c (Proc.devRef .tc b) :=
  (W6_of_ne m ρ c b r2).trans (keep5 m ρ c b h2)

theorem keep7 (b : Ref sig .tc) (h2 : ∀ op ∈ (hostOps2 (F := Ideal)), Proc.devRef (τ := τ) .tc b ∉ op.writes)
    (r2 : ∀ w, Pipeline.arrRef spec2 w ≠ b)
    (h3 : ∀ op ∈ (hostOps3 (F := Ideal)), Proc.devRef (τ := τ) .tc b ∉ op.writes) :
    W7 (F := Ideal) m ρ c (Proc.devRef .tc b) = W4 (F := Ideal) m ρ c (Proc.devRef .tc b) :=
  (StableHlo.after_of_forall_not_mem _ _ h3).trans (keep6 m ρ c b h2 r2)

theorem keep8 (b : Ref sig .tc) (h2 : ∀ op ∈ (hostOps2 (F := Ideal)), Proc.devRef (τ := τ) .tc b ∉ op.writes)
    (r2 : ∀ w, Pipeline.arrRef spec2 w ≠ b)
    (h3 : ∀ op ∈ (hostOps3 (F := Ideal)), Proc.devRef (τ := τ) .tc b ∉ op.writes)
    (r3 : ∀ w, Pipeline.arrRef spec3 w ≠ b) :
    W8 (F := Ideal) m ρ c (Proc.devRef .tc b) = W4 (F := Ideal) m ρ c (Proc.devRef .tc b) :=
  (W8_of_ne m ρ c b r3).trans (keep7 m ρ c b h2 r2 h3)

/-- The per-node scale column is input window 2 of region 3, and an input window's array is left as entered. -/
theorem keep8_v12 : W8 (F := Ideal) m ρ c (Proc.devRef .tc main_v12) = W4 (F := Ideal) m ρ c (Proc.devRef .tc main_v12) :=
  ((W8_arr m ρ c 2).trans (((dat3 (V7 m ρ) c).arrAt_in 2 rfl _).trans (A_eq3 (V7 m ρ) c 2))).trans
    (keep7 m ρ c main_v12 (by host_unwritten hostOps2) (by decide) (by host_unwritten hostOps3))

/-- The long-lived buffers at boundary 8 are as at boundary 4. -/
theorem carried8 : Carried m c (W8 (F := Ideal) m ρ c) :=
  Carried.of_agree m c (station4 m ρ c).1
    (keep8 m ρ c main_v1 (by host_unwritten hostOps2) (by decide) (by host_unwritten hostOps3) (by decide))
    (keep8 m ρ c main_v3 (by host_unwritten hostOps2) (by decide) (by host_unwritten hostOps3) (by decide))
    (keep8 m ρ c main_v27 (by host_unwritten hostOps2) (by decide) (by host_unwritten hostOps3) (by decide))
    (keep8_v12 m ρ c)
    (keep8 m ρ c main_arg2 (by host_unwritten hostOps2) (by decide) (by host_unwritten hostOps3) (by decide))
    (keep8 m ρ c main_arg5 (by host_unwritten hostOps2) (by decide) (by host_unwritten hostOps3) (by decide))
    (keep8 m ρ c main_arg6 (by host_unwritten hostOps2) (by decide) (by host_unwritten hostOps3) (by decide))
    (keep8 m ρ c main_arg7 (by host_unwritten hostOps2) (by decide) (by host_unwritten hostOps3) (by decide))
    (keep8 m ρ c main_arg8 (by host_unwritten hostOps2) (by decide) (by host_unwritten hostOps3) (by decide))

/-! ## Layer 2: boundary 5, the layer's weights and bias cut out of their stacks -/

/-- The layer's input is not written by the stretch. -/
theorem w5_v43 : W5 (F := Ideal) m ρ c (Proc.devRef .tc main_v43) = feat1 m c :=
  (keep5 m ρ c main_v43 (by host_unwritten hostOps2)).trans (station4 m ρ c).2

/-- The layer's weights: slab 0 of the stacked weights, its leading unit axis dropped. -/
theorem w5_v45 : W5 (F := Ideal) m ρ c (Proc.devRef .tc main_v45) = Cert.Glue.wh0 (argA5 m c) := by
  have h4 := (station4 m ρ c).1.a5
  show StableHlo.after hostOps2 (W4 (F := Ideal) m ρ c) (Proc.devRef .tc main_v45) = _
  after_results
  rw [h4]
  rfl

/-- The layer's bias: row 0 of the stacked biases, its leading unit axis dropped. -/
theorem w5_v47 : W5 (F := Ideal) m ρ c (Proc.devRef .tc main_v47) = Cert.Glue.bh0 (argA6 m c) := by
  have h4 := (station4 m ρ c).1.a6
  show StableHlo.after hostOps2 (W4 (F := Ideal) m ρ c) (Proc.devRef .tc main_v47) = _
  after_results
  rw [h4]
  rfl

/-! ## Layer 2: boundary 6, after the dense product -/

/-- Region 2's output array: the dense product of the layer's input and the layer's weights. -/
theorem w6_v48 : W6 (F := Ideal) m ρ c (Proc.devRef .tc main_v48)
    = Cert.Gcn.mm (feat1 m c) (Cert.Glue.wh0 (argA5 m c)) := by
  refine (W6_arr m ρ c 2).trans ((mm2 (V5 m ρ) c).trans ?_)
  show Cert.Gcn.mm (W5 (F := Ideal) m ρ c (Proc.devRef .tc main_v43)) (W5 (F := Ideal) m ρ c (Proc.devRef .tc main_v45)) = _
  rw [w5_v43, w5_v45]

/-- The layer's input is input window 0 of region 2: left as entered. -/
theorem w6_v43 : W6 (F := Ideal) m ρ c (Proc.devRef .tc main_v43) = feat1 m c :=
  ((W6_arr m ρ c 0).trans (((dat2 (V5 m ρ) c).arrAt_in 0 rfl _).trans (A_eq2 (V5 m ρ) c 0))).trans (w5_v43 m ρ c)

/-- The bias is no array of region 2. -/
theorem w6_v47 : W6 (F := Ideal) m ρ c (Proc.devRef .tc main_v47) = Cert.Glue.bh0 (argA6 m c) :=
  (W6_of_ne m ρ c main_v47 (by decide)).trans (w5_v47 m ρ c)

theorem w6_v1 : W6 (F := Ideal) m ρ c (Proc.devRef .tc main_v1) = Cert.Glue.src (argEI m c) :=
  (keep6 m ρ c main_v1 (by host_unwritten hostOps2) (by decide)).trans (station4 m ρ c).1.src

theorem w6_v3 : W6 (F := Ideal) m ρ c (Proc.devRef .tc main_v3) = Cert.Glue.dst (argEI m c) :=
  (keep6 m ρ c main_v3 (by host_unwritten hostOps2) (by decide)).trans (station4 m ρ c).1.dst

theorem w6_v27 : W6 (F := Ideal) m ρ c (Proc.devRef .tc main_v27) = Cert.Glue.coef (argEI m c) :=
  (keep6 m ρ c main_v27 (by host_unwritten hostOps2) (by decide)).trans (station4 m ρ c).1.coef

/-! ## Layer 2: boundary 7, the aggregation and the bias row -/

/-- The stretch aggregates the array it finds in the product's buffer along the edges: with the edges' ends and the
    per-edge coefficient in their buffers, its operations are those of the shared aggregation, one for one (the array
    aggregated stays a variable, so the two sides are compared operation by operation and never opened). -/
theorem agg7 (P : Cert.Gcn.Nodes) (h48 : W6 (F := Ideal) m ρ c (Proc.devRef .tc main_v48) = P) :
    W7 (F := Ideal) m ρ c (Proc.devRef .tc main_v61) = Cert.Glue.agg (argEI m c) P := by
  have h1 := w6_v1 m ρ c
  have h3 := w6_v3 m ρ c
  have h27 := w6_v27 m ρ c
  show StableHlo.after hostOps3 (W6 (F := Ideal) m ρ c) (Proc.devRef .tc main_v61) = _
  after_results_simp
  rw [h1, h3, h27, h48]
  rfl

/-- The aggregation of the dense product. -/
theorem w7_v61 : W7 (F := Ideal) m ρ c (Proc.devRef .tc main_v61)
    = Cert.Glue.agg (argEI m c) (Cert.Gcn.mm (feat1 m c) (Cert.Glue.wh0 (argA5 m c))) :=
  agg7 m ρ c _ (w6_v48 m ρ c)

/-- The bias laid out as a row: at column `q` of its one row, the bias at channel `q`. -/
theorem w7_v62 (q : Fin 128) :
    (W7 (F := Ideal) m ρ c (Proc.devRef .tc main_v62) : Cert.Gcn.Row) (ix2 0 q) = Cert.Glue.bh0 (argA6 m c) (ix1 q) := by
  have h47 := w6_v47 m ρ c
  show StableHlo.after hostOps3 (W6 (F := Ideal) m ρ c) (Proc.devRef .tc main_v62) (ix2 0 q) = _
  after_results_simp
  rw [h47]
  exact shapeCast_a_1a_apply (Cert.Glue.bh0 (argA6 m c)) _ 0 q

/-- The dense product, the layer's input and the scale column are not written by the stretch. -/
theorem w7_v48 : W7 (F := Ideal) m ρ c (Proc.devRef .tc main_v48)
    = Cert.Gcn.mm (feat1 m c) (Cert.Glue.wh0 (argA5 m c)) :=
  (StableHlo.after_of_forall_not_mem _ _ (by host_unwritten hostOps3)).trans (w6_v48 m ρ c)

theorem w7_v43 : W7 (F := Ideal) m ρ c (Proc.devRef .tc main_v43) = feat1 m c :=
  (StableHlo.after_of_forall_not_mem _ _ (by host_unwritten hostOps3)).trans (w6_v43 m ρ c)

theorem w7_v12 (n : Fin 100000) : (W7 (F := Ideal) m ρ c (Proc.devRef .tc main_v12) : Cert.Gcn.Col) (ix2 n 0)
    = Cert.Glue.dis (argEI m c) (ix1 n) * Cert.Glue.dis (argEI m c) (ix1 n) := by
  rw [keep7 m ρ c main_v12 (by host_unwritten hostOps2) (by decide) (by host_unwritten hostOps3)]
  exact (station4 m ρ c).1.scale n

/-! ## Layer 2: boundary 8, after the combining region -/

/-- Region 3's output array: the residual layer over the first layer's features. -/
theorem w8_v63 : W8 (F := Ideal) m ρ c (Proc.devRef .tc main_v63) = feat2 m c := by
  refine (W8_arr m ρ c 5).trans ((combine3 (V7 m ρ) c).trans ?_)
  show Cert.Gcn.combineRes (W7 (F := Ideal) m ρ c (Proc.devRef .tc main_v48)) (W7 (F := Ideal) m ρ c (Proc.devRef .tc main_v61))
    (W7 (F := Ideal) m ρ c (Proc.devRef .tc main_v12)) (W7 (F := Ideal) m ρ c (Proc.devRef .tc main_v62))
    (W7 (F := Ideal) m ρ c (Proc.devRef .tc main_v43)) = _
  rw [w7_v48, w7_v61, w7_v43]
  exact combineRes_eq_layerRes (Cert.Glue.agg (argEI m c)) (Cert.Glue.dis (argEI m c)) (feat1 m c)
    (Cert.Glue.wh0 (argA5 m c)) (Cert.Glue.bh0 (argA6 m c)) _ _ (w7_v12 m ρ c) (w7_v62 m ρ c)

/-- At the boundary after layer 2's combining region: the long-lived buffers as `Carried` says, and the layer's output
    buffer at the layer's features. -/
theorem station8 : Carried m c (W8 (F := Ideal) m ρ c) ∧ W8 (F := Ideal) m ρ c (Proc.devRef .tc main_v63) = feat2 m c :=
  ⟨carried8 m ρ c, w8_v63 m ρ c⟩

end Cert.KernelIdeal.KVal

end
-- ==== Proof.KMatmul4.lean ====
/-
  The dense-product region 4: every grid point loads a block of 5000 node rows and the whole weight matrix, multiplies
  them (the product accumulated into a zero block) and stores the block; a change of float format is the identity at the
  ideal instance, so after the region the output array holds the dense product of the two arrays the region found.
-/
import proofs.«426480_j82094004896163_1_alg».proof.Proof.Gen.KernelIdeal.Frame
import proofs.«426480_j82094004896163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The product of one block, entry by entry -/

/-- The product's left index at output entry `i` and contraction index `q` keeps the output's row … -/
theorem lhs4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column. -/
theorem lhs4_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right index takes the contraction index as its row … -/
theorem rhs4_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at row `p` and column `q` of the block: the casts of each operand to its own shape and the
    two changes of float format are the identity on the extended reals and the accumulator is the zero block, so the
    entry is the sum over the 128 contracted channels `k` of the row block's entry `(p, k)` times the weights' entry
    `(k, q)`. -/
theorem pay4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  unfold k4_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs4_0 _ _
    | ⟨1, _⟩ => exact (lhs4_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs4_0 _ _).trans hk
    | ⟨1, _⟩ => exact rhs4_1 _ _)
  rw [el, er]
  simp only [truncf_apply, shapeCast_self]

/-- A row block that is rows `5000·n …` of the node array `X`, times weights that are the whole matrix `W`, gives at
    row `p` of the block the dense product's row `5000·n + p`: the two sums run over the same 128 terms. -/
theorem point4 (X : Cert.Gcn.Nodes) (W : Cert.Gcn.Weights) (x : Vec Ideal S5000x128 .f32) (w : Vec Ideal S128x128 .f32) (n : Nat)
    (hx : ∀ (p : Fin 5000) (k : Fin 128) (r : Fin 100000), r.val = n * 5000 + p.val → x (ix2 p k) = X (ix2 r k))
    (hw : ∀ (k q : Fin 128), w (ix2 k q) = W (ix2 k q))
    (p : Fin 5000) (q : Fin 128) (r : Fin 100000) (hr : r.val = n * 5000 + p.val) :
    k4_pay1 (F := Ideal) x w (ix2 p q) = Cert.Gcn.mm X W (ix2 r q) := by
  rw [pay4_apply]
  show ∑ k : Fin 128, x (ix2 p k) * w (ix2 k q) = ∑ k : Fin 128, X (ix2 r k) * W (ix2 k q)
  refine Finset.sum_congr rfl fun k _ => ?_
  rw [hx p k r hr, hw k q]

/-! ## The blocks of the three windows -/

theorem hz4 : (![0, 0] : Fin 2 → Nat) = fun _ => 0 := funext fun a => by fin_cases a <;> rfl

/-- The block indices over the 20 grid points: the node rows' window and the output's window are at block row `t`,
    the weights' window stays at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 0's block at point `t` is rows `5000·t … 5000·t + 4999` of the node array the region found. -/
theorem iblk4_0_apply (c : Dev nD) (t : Fin cfg4.N) (p : Fin 5000) (k : Fin 128) (r : Fin 100000)
    (hr : r.val = t.val * 5000 + p.val) :
    (iblk4 V c 0 t : Vec Ideal S5000x128 .f32) (ix2 p k) = (V c main_v63 : S100000x128.Idx → EReal) (ix2 r k) := by
  obtain ⟨e0, e1, -⟩ := idx_facts4 t
  unfold iblk4
  rw [View.read_apply]
  show V c main_v63 _ = V c main_v63 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- Window 1's block at every point is the whole weight matrix the region found. -/
theorem iblk4_1_apply (c : Dev nD) (t : Fin cfg4.N) (k q : Fin 128) :
    (iblk4 V c 1 t : Vec Ideal S128x128 .f32) (ix2 k q) = (V c main_v65 : S128x128.Idx → EReal) (ix2 k q) := by
  obtain ⟨-, -, e2, e3, -⟩ := idx_facts4 t
  unfold iblk4
  rw [View.read_apply]
  show V c main_v65 _ = V c main_v65 _
  congr 1
  funext a
  apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-! ## From the blocks to the array -/

/-- What point `t` writes back is block `t` of the dense product of the two arrays the region found: entry `(p, q)`
    of the stored block sits at row `5000·t + p` of the output array, and is the product's entry there. -/
theorem flushed4_eq (c : Dev nD) (t : Fin cfg4.N) :
    (dat4 (F := Ideal) V c).flushed 2 t
      = ((cfg4.win 2).blk t).view.read (Elt Ideal) (Cert.Gcn.mm (V c main_v63) (V c main_v65)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x128) hz4]
  obtain ⟨-, -, -, -, e4, e5⟩ := idx_facts4 t
  have hN : t.val < 20 := Nat.lt_of_lt_of_eq t.isLt (show cfg4.N = 20 from N_4)
  funext j
  rw [View.read_apply]
  have hp : (j 0).val < 5000 := (j 0).isLt
  have hq : (j 1).val < 128 := (j 1).isLt
  have hj : (cfg4.win 2).xinj (grid4.coords t) j = ix2 (⟨(j 0).val, hp⟩ : Fin 5000) (⟨(j 1).val, hq⟩ : Fin 128) :=
    funext fun a => Fin.ext (by match a with | ⟨0, _⟩ => rfl | ⟨1, _⟩ => rfl)
  show k4_pay1 (F := Ideal) (iblk4 V c 0 t) (iblk4 V c 1 t) ((cfg4.win 2).xinj (grid4.coords t) j) = _
  rw [hj]
  refine (point4 (V c main_v63) (V c main_v65) (iblk4 V c 0 t) (iblk4 V c 1 t) t.val
    (fun p k r hr => iblk4_0_apply V c t p k r hr) (fun k q => iblk4_1_apply V c t k q)
    ⟨(j 0).val, hp⟩ ⟨(j 1).val, hq⟩ ⟨t.val * 5000 + (j 0).val, by omega⟩ rfl).trans ?_
  refine congrArg (Cert.Gcn.mm (V c main_v63) (V c main_v65)) (funext fun a => Fin.ext ?_)
  match a with
  | ⟨0, _⟩ => show t.val * 5000 + (j 0).val = win4_2.index t (0 : Fin 2) * 5000 + 1 * (j 0).val; rw [e4]; omega
  | ⟨1, _⟩ => show (j 1).val = win4_2.index t (1 : Fin 2) * 128 + 1 * (j 1).val; rw [e5]; omega

/-- An index of the output array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v68).slice (win4_2.rect t)).set ↔ _
  rw [View.set_slice_whole, Rect.mem_set_unit]
  exact Iff.rfl

/-- Row `r` of the output array is in the block of point `r / 5000`, which is written back: the 20 blocks tile the
    100000 rows. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_2 _, ?_⟩
  rw [mem_blk4]
  obtain ⟨-, -, -, -, e4, e5⟩ := idx_facts4 ⟨(i 0).val / 5000, by rw [hN]; omega⟩
  intro a
  match a with
  | ⟨0, _⟩ =>
    show win4_2.index ⟨(i 0).val / 5000, _⟩ (0 : Fin 2) * 5000 ≤ (i 0).val
      ∧ (i 0).val < win4_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, _⟩ (1 : Fin 2) * 128 ≤ (i 1).val
      ∧ (i 1).val < win4_2.index ⟨(i 0).val / 5000, _⟩ (1 : Fin 2) * 128 + 128
    rw [e5]; omega

/-- After region 4 its output array is the dense product of its two input arrays as the region found them. -/
theorem mm4 (c : Dev nD) :
    (dat4 (F := Ideal) V c).arrAt 2 cfg4.N = Cert.Gcn.mm (V c main_v63) (V c main_v65) := by
  exact (dat4 (F := Ideal) V c).arrAt_eq_of_cover 2 (Cert.Gcn.mm (V c main_v63) (V c main_v65))
    (fun t _ => flushed4_eq V c t) cover4

end Cert.KernelIdeal.KVal

end
-- ==== Proof.KCombine5.lean ====
/-
  The combining region 5: every grid point loads a block of 5000 rows of the product, of the aggregation and of the layer's input, the
  rows' per-node scales as a column and the bias as a row, and stores, element by element, the aggregation plus the
  product times the node's scale plus the channel's bias plus the layer's input, clamped at zero from below.
-/
import proofs.«426480_j82094004896163_1_alg».proof.Proof.Gen.KernelIdeal.Frame
import proofs.«426480_j82094004896163_1_alg».proof.Proof.Spec
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- Every access of the body starts at the origin of its buffer. -/
theorem zeroOff5 : (![0, 0] : Fin 2 → Nat) = fun _ => 0 := funext fun a => by fin_cases a <;> rfl

/-- A column `[a, 1]` broadcast to `[a, b]` reads, at `(p, q)`, the column's entry of row `p`. -/
theorem bcastCol5_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p` and channel `q` of a block: the first operand there, plus the second operand
    there times the column's entry of row `p`, plus the row's entry of channel `q`, plus the last operand there, the
    larger of that and zero. The casts to the same shape are identities, the two broadcasts read the column along its
    row and the row along its channel, and the zero word is the number zero. -/
theorem pay5_apply (x0 x1 : Vec Ideal S5000x128 .f32) (x2 : Vec Ideal S5000x1 .f32) (x3 : Vec Ideal S1x128 .f32)
    (x4 : Vec Ideal S5000x128 .f32) (p : Fin 5000) (q : Fin 128) :
    k5_pay1 (F := Ideal) x0 x1 x2 x3 x4 (ix2 p q)
      = max (((x0 (ix2 p q) + x1 (ix2 p q) * x2 (ix2 p (0 : Fin 1))) + x3 (ix2 (0 : Fin 1) q)) + x4 (ix2 p q)) 0 := by
  unfold k5_pay1
  rw [maximumf_apply, addf_apply, addf_apply, addf_apply, mulf_apply, broadcast_apply]
  rw [shapeCast_self, shapeCast_self, shapeCast_self, shapeCast_self, shapeCast_self]
  rw [bcastCol5_apply, broadcastTo_1b_ab_apply]
  show max _ (Ideal.ofBits .f32 0x00000000#32) = _
  rw [Ideal.ofBits_zero_f32]

/-- One entry of a block against one entry of the whole arrays. If at the block's index `j` the five loaded blocks
    hold what the whole arrays hold at the array's index `i` (the product, the aggregation and the layer's input at
    `i`, the scale of `i`'s row, the bias of `i`'s channel), then the body's result at `j` is the residual combining
    step at `i`. The body is handed the aggregation's block first and the product's second, which is the order of the
    sum in the combining step. -/
theorem blockval5 (hw agg : Cert.Gcn.Nodes) (d2 : Cert.Gcn.Col) (b : Cert.Gcn.Row) (res : Cert.Gcn.Nodes)
    (x0 x1 : Vec Ideal S5000x128 .f32) (x2 : Vec Ideal S5000x1 .f32) (x3 : Vec Ideal S1x128 .f32)
    (x4 : Vec Ideal S5000x128 .f32) (j : S5000x128.Idx) (i : S100000x128.Idx)
    (h0 : x0 j = hw i) (h1 : x1 j = agg i)
    (h2 : x2 (ix2 (j 0) (0 : Fin 1)) = d2 (ix2 (i 0) (0 : Fin 1)))
    (h3 : x3 (ix2 (0 : Fin 1) (j 1)) = b (ix2 (0 : Fin 1) (i 1)))
    (h4 : x4 j = res i) :
    k5_pay1 (F := Ideal) x1 x0 x2 x3 x4 j = Cert.Gcn.combineRes hw agg d2 b res i := by
  obtain ⟨p, q, rfl⟩ : ∃ (p : Fin 5000) (q : Fin 128), j = ix2 p q := ⟨j 0, j 1, eq_ix2 j⟩
  rw [pay5_apply, h0, h1, h4]
  show max (((agg i + hw i * x2 (ix2 p (0 : Fin 1))) + x3 (ix2 (0 : Fin 1) q)) + res i) 0 = _
  rw [show x2 (ix2 p (0 : Fin 1)) = d2 (ix2 (i 0) (0 : Fin 1)) from h2,
    show x3 (ix2 (0 : Fin 1) q) = b (ix2 (0 : Fin 1) (i 1)) from h3]
  rfl

/-- The block indices at grid point `t`, decided over the twenty points: the product, the aggregation, the scale
    column, the layer's input and the output are at block row `t`, block column `0`; the bias row is at block
    `(0, 0)` at every point. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the residual combining step of the whole arrays. Entry `(p, q)` of the
    output's block is row `5000 t + p`, channel `q` of the array; the product's, the aggregation's and the layer
    input's blocks sit at the same rows and channels, the scale's block at the same rows of its one column, and the
    bias's block is the whole row: each input block's entry is the array's entry the combining step reads there. -/
theorem flushed5_eq (c : Dev nD) (t : Fin cfg5.N) :
    (dat5 (F := Ideal) V c).flushed 5 t
      = ((cfg5.win 5).blk t).view.read (Elt Ideal)
          (Cert.Gcn.combineRes (V c main_v68) (V c main_v81) (V c main_v12) (V c main_v82) (V c main_v63)) := by
  show (cfg5.win 5).cut (grid5.coords t) ((dat5 V c).after 5 t) = _
  rw [after5_5]
  unfold out5_5
  rw [View.canon_unit_zero zeroOff5]
  simp only [View.ld_unit_zero (S := S5000x128) zeroOff5, View.ld_unit_zero (S := S5000x1) zeroOff5,
    View.ld_unit_zero (S := S1x128) zeroOff5]
  obtain ⟨a00, a01, a10, a11, a20, a21, a30, a31, a40, a41, a50, a51⟩ := idx_facts5 t
  funext j
  have hj0 : (j 0).val < 5000 := (j 0).isLt
  have hj1 : (j 1).val < 128 := (j 1).isLt
  refine blockval5 (V c main_v68) (V c main_v81) (V c main_v12) (V c main_v82) (V c main_v63)
    (iblk5 V c 0 t) (iblk5 V c 1 t) (iblk5 V c 2 t) (iblk5 V c 3 t) (iblk5 V c 4 t) j
    (((cfg5.win 5).blk t).view.emb j) ?_ ?_ ?_ ?_ ?_
  · -- the product: same row, same channel
    show V c main_v68 (((cfg5.win 0).blk t).view.emb j) = V c main_v68 (((cfg5.win 5).blk t).view.emb j)
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  · -- the aggregation: same row, same channel
    show V c main_v81 (((cfg5.win 1).blk t).view.emb j) = V c main_v81 (((cfg5.win 5).blk t).view.emb j)
    refine congrArg _ (funext fun a => Fin.ext ?_)
    match a with
    | ⟨0, _⟩ => show win5_1.index t (0 : Fin 2) * 5000 + 1 * (j 0).val = win5_5.index t (0 : Fin 2) * 5000 + 1 * (j 0).val; omega
    | ⟨1, _⟩ => show win5_1.index t (1 : Fin 2) * 128 + 1 * (j 1).val = win5_5.index t (1 : Fin 2) * 128 + 1 * (j 1).val; omega
  · -- the scale: same row of the one column
    show V c main_v12 (((cfg5.win 2).blk t).view.emb (ix2 (j 0) (0 : Fin 1)))
      = V c main_v12 (ix2 ((((cfg5.win 5).blk t).view.emb j) 0) (0 : Fin 1))
    refine congrArg _ (funext fun a => Fin.ext ?_)
    match a with
    | ⟨0, _⟩ => show win5_2.index t (0 : Fin 2) * 5000 + 1 * (j 0).val = win5_5.index t (0 : Fin 2) * 5000 + 1 * (j 0).val; omega
    | ⟨1, _⟩ => show win5_2.index t (1 : Fin 2) * 1 + 1 * 0 = 0; omega
  · -- the bias: same channel of the one row
    show V c main_v82 (((cfg5.win 3).blk t).view.emb (ix2 (0 : Fin 1) (j 1)))
      = V c main_v82 (ix2 (0 : Fin 1) ((((cfg5.win 5).blk t).view.emb j) 1))
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  · -- the layer's input: same row, same channel
    show V c main_v63 (((cfg5.win 4).blk t).view.emb j) = V c main_v63 (((cfg5.win 5).blk t).view.emb j)
    refine congrArg _ (funext fun a => Fin.ext ?_)
    match a with
    | ⟨0, _⟩ => show win5_4.index t (0 : Fin 2) * 5000 + 1 * (j 0).val = win5_5.index t (0 : Fin 2) * 5000 + 1 * (j 0).val; omega
    | ⟨1, _⟩ => show win5_4.index t (1 : Fin 2) * 128 + 1 * (j 1).val = win5_5.index t (1 : Fin 2) * 128 + 1 * (j 1).val; omega

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v83).slice (win5_5.rect t)).set ↔ _
  rw [View.set_slice_whole, Rect.mem_set_unit]
  exact Iff.rfl

/-- The twenty blocks of 5000 rows fill the 100000 rows: row `r` is in the block of point `r / 5000`, which writes
    back like every point. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have hlt : (i 0).val / 5000 < cfg5.N := by rw [hN]; omega
  refine ⟨⟨(i 0).val / 5000, hlt⟩, flush5_5 _, ?_⟩
  rw [mem_blk5]
  obtain ⟨-, -, -, -, -, -, -, -, -, -, e0, e1⟩ := idx_facts5 ⟨(i 0).val / 5000, hlt⟩
  have e0' : win5_5.index ⟨(i 0).val / 5000, hlt⟩ (0 : Fin 2) = (i 0).val / 5000 := e0
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    omega
  | ⟨1, _⟩ =>
    show win5_5.index ⟨(i 0).val / 5000, hlt⟩ (1 : Fin 2) * 128 ≤ (i 1).val
      ∧ (i 1).val < win5_5.index ⟨(i 0).val / 5000, hlt⟩ (1 : Fin 2) * 128 + 128
    omega

/-- After region 5 its output array is a residual layer's combining step of the arrays the region found. -/
theorem combine5 (c : Dev nD) :
    (dat5 (F := Ideal) V c).arrAt 5 cfg5.N
      = Cert.Gcn.combineRes (V c main_v68) (V c main_v81) (V c main_v12) (V c main_v82) (V c main_v63) := by
  exact (dat5 (F := Ideal) V c).arrAt_eq_of_cover 5
    (Cert.Gcn.combineRes (V c main_v68) (V c main_v81) (V c main_v12) (V c main_v82) (V c main_v63))
    (fun t _ => flushed5_eq V c t) cover5

end Cert.KernelIdeal.KVal

end
-- ==== Proof.KLayer3.lean ====
/-
  Layer 3 of the kernel program's run, from the boundary after region 3 to the boundary after region 5: the layer's
  weights and bias cut out of their stacks, the dense product (region 4), the aggregation and the bias row on the host,
  and the residual combining region 5.
-/
import proofs.«426480_j82094004896163_1_alg».proof.Proof.KLayer2
import proofs.«426480_j82094004896163_1_alg».proof.Proof.KMatmul4
import proofs.«426480_j82094004896163_1_alg».proof.Proof.KCombine5

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## Layer 3: buffers that pass through untouched

The boundaries are 8 (after region 3), 9 (after the stretch that cuts out the weights and the bias), 10 (after the dense
product, region 4), 11 (after the stretch that aggregates and lays the bias out as a row) and 12 (after the combining
region 5). A buffer that a stretch does not write, and that is no array of a region, holds after it what it held
before. -/

theorem keep9 (b : Ref sig .tc) (h4 : ∀ op ∈ (hostOps4 (F := Ideal)), Proc.devRef (τ := τ) .tc b ∉ op.writes) :
    W9 (F := Ideal) m ρ c (Proc.devRef .tc b) = W8 (F := Ideal) m ρ c (Proc.devRef .tc b) :=
  StableHlo.after_of_forall_not_mem _ _ h4

theorem keep10 (b : Ref sig .tc) (h4 : ∀ op ∈ (hostOps4 (F := Ideal)), Proc.devRef (τ := τ) .tc b ∉ op.writes)
    (r4 : ∀ w, Pipeline.arrRef spec4 w ≠ b) :
    W10 (F := Ideal) m ρ c (Proc.devRef .tc b) = W8 (F := Ideal) m ρ c (Proc.devRef .tc b) :=
  (W10_of_ne m ρ c b r4).trans (keep9 m ρ c b h4)

theorem keep11 (b : Ref sig .tc) (h4 : ∀ op ∈ (hostOps4 (F := Ideal)), Proc.devRef (τ := τ) .tc b ∉ op.writes)
    (r4 : ∀ w, Pipeline.arrRef spec4 w ≠ b)
    (h5 : ∀ op ∈ (hostOps5 (F := Ideal)), Proc.devRef (τ := τ) .tc b ∉ op.writes) :
    W11 (F := Ideal) m ρ c (Proc.devRef .tc b) = W8 (F := Ideal) m ρ c (Proc.devRef .tc b) :=
  (StableHlo.after_of_forall_not_mem _ _ h5).trans (keep10 m ρ c b h4 r4)

theorem keep12 (b : Ref sig .tc) (h4 : ∀ op ∈ (hostOps4 (F := Ideal)), Proc.devRef (τ := τ) .tc b ∉ op.writes)
    (r4 : ∀ w, Pipeline.arrRef spec4 w ≠ b)
    (h5 : ∀ op ∈ (hostOps5 (F := Ideal)), Proc.devRef (τ := τ) .tc b ∉ op.writes)
    (r5 : ∀ w, Pipeline.arrRef spec5 w ≠ b) :
    W12 (F := Ideal) m ρ c (Proc.devRef .tc b) = W8 (F := Ideal) m ρ c (Proc.devRef .tc b) :=
  (W12_of_ne m ρ c b r5).trans (keep11 m ρ c b h4 r4 h5)

/-- The per-node scale column is input window 2 of region 5, and an input window's array is left as entered. -/
theorem keep12_v12 : W12 (F := Ideal) m ρ c (Proc.devRef .tc main_v12) = W8 (F := Ideal) m ρ c (Proc.devRef .tc main_v12) :=
  ((W12_arr m ρ c 2).trans (((dat5 (V11 m ρ) c).arrAt_in 2 rfl _).trans (A_eq5 (V11 m ρ) c 2))).trans
    (keep11 m ρ c main_v12 (by host_unwritten hostOps4) (by decide) (by host_unwritten hostOps5))

/-- The long-lived buffers at boundary 12 are as at boundary 8. -/
theorem carried12 : Carried m c (W12 (F := Ideal) m ρ c) :=
  Carried.of_agree m c (station8 m ρ c).1
    (keep12 m ρ c main_v1 (by host_unwritten hostOps4) (by decide) (by host_unwritten hostOps5) (by decide))
    (keep12 m ρ c main_v3 (by host_unwritten hostOps4) (by decide) (by host_unwritten hostOps5) (by decide))
    (keep12 m ρ c main_v27 (by host_unwritten hostOps4) (by decide) (by host_unwritten hostOps5) (by decide))
    (keep12_v12 m ρ c)
    (keep12 m ρ c main_arg2 (by host_unwritten hostOps4) (by decide) (by host_unwritten hostOps5) (by decide))
    (keep12 m ρ c main_arg5 (by host_unwritten hostOps4) (by decide) (by host_unwritten hostOps5) (by decide))
    (keep12 m ρ c main_arg6 (by host_unwritten hostOps4) (by decide) (by host_unwritten hostOps5) (by decide))
    (keep12 m ρ c main_arg7 (by host_unwritten hostOps4) (by decide) (by host_unwritten hostOps5) (by decide))
    (keep12 m ρ c main_arg8 (by host_unwritten hostOps4) (by decide) (by host_unwritten hostOps5) (by decide))

/-! ## Layer 3: boundary 9, the layer's weights and bias cut out of their stacks -/

/-- The layer's input is not written by the stretch. -/
theorem w9_v63 : W9 (F := Ideal) m ρ c (Proc.devRef .tc main_v63) = feat2 m c :=
  (keep9 m ρ c main_v63 (by host_unwritten hostOps4)).trans (station8 m ρ c).2

/-- The layer's weights: slab 1 of the stacked weights, its leading unit axis dropped. -/
theorem w9_v65 : W9 (F := Ideal) m ρ c (Proc.devRef .tc main_v65) = Cert.Glue.wh1 (argA5 m c) := by
  have h8 := (station8 m ρ c).1.a5
  show StableHlo.after hostOps4 (W8 (F := Ideal) m ρ c) (Proc.devRef .tc main_v65) = _
  after_results
  rw [h8]
  rfl

/-- The layer's bias: row 1 of the stacked biases, its leading unit axis dropped. -/
theorem w9_v67 : W9 (F := Ideal) m ρ c (Proc.devRef .tc main_v67) = Cert.Glue.bh1 (argA6 m c) := by
  have h8 := (station8 m ρ c).1.a6
  show StableHlo.after hostOps4 (W8 (F := Ideal) m ρ c) (Proc.devRef .tc main_v67) = _
  after_results
  rw [h8]
  rfl

/-! ## Layer 3: boundary 10, after the dense product -/

/-- Region 4's output array: the dense product of the layer's input and the layer's weights. -/
theorem w10_v68 : W10 (F := Ideal) m ρ c (Proc.devRef .tc main_v68)
    = Cert.Gcn.mm (feat2 m c) (Cert.Glue.wh1 (argA5 m c)) := by
  refine (W10_arr m ρ c 2).trans ((mm4 (V9 m ρ) c).trans ?_)
  show Cert.Gcn.mm (W9 (F := Ideal) m ρ c (Proc.devRef .tc main_v63)) (W9 (F := Ideal) m ρ c (Proc.devRef .tc main_v65)) = _
  rw [w9_v63, w9_v65]

/-- The layer's input is input window 0 of region 4: left as entered. -/
theorem w10_v63 : W10 (F := Ideal) m ρ c (Proc.devRef .tc main_v63) = feat2 m c :=
  ((W10_arr m ρ c 0).trans (((dat4 (V9 m ρ) c).arrAt_in 0 rfl _).trans (A_eq4 (V9 m ρ) c 0))).trans (w9_v63 m ρ c)

/-- The bias is no array of region 4. -/
theorem w10_v67 : W10 (F := Ideal) m ρ c (Proc.devRef .tc main_v67) = Cert.Glue.bh1 (argA6 m c) :=
  (W10_of_ne m ρ c main_v67 (by decide)).trans (w9_v67 m ρ c)

theorem w10_v1 : W10 (F := Ideal) m ρ c (Proc.devRef .tc main_v1) = Cert.Glue.src (argEI m c) :=
  (keep10 m ρ c main_v1 (by host_unwritten hostOps4) (by decide)).trans (station8 m ρ c).1.src

theorem w10_v3 : W10 (F := Ideal) m ρ c (Proc.devRef .tc main_v3) = Cert.Glue.dst (argEI m c) :=
  (keep10 m ρ c main_v3 (by host_unwritten hostOps4) (by decide)).trans (station8 m ρ c).1.dst

theorem w10_v27 : W10 (F := Ideal) m ρ c (Proc.devRef .tc main_v27) = Cert.Glue.coef (argEI m c) :=
  (keep10 m ρ c main_v27 (by host_unwritten hostOps4) (by decide)).trans (station8 m ρ c).1.coef

/-! ## Layer 3: boundary 11, the aggregation and the bias row -/

/-- The stretch aggregates the array it finds in the product's buffer along the edges: with the edges' ends and the
    per-edge coefficient in their buffers, its operations are those of the shared aggregation, one for one (the array
    aggregated stays a variable, so the two sides are compared operation by operation and never opened). -/
theorem agg11 (P : Cert.Gcn.Nodes) (h68 : W10 (F := Ideal) m ρ c (Proc.devRef .tc main_v68) = P) :
    W11 (F := Ideal) m ρ c (Proc.devRef .tc main_v81) = Cert.Glue.agg (argEI m c) P := by
  have h1 := w10_v1 m ρ c
  have h3 := w10_v3 m ρ c
  have h27 := w10_v27 m ρ c
  show StableHlo.after hostOps5 (W10 (F := Ideal) m ρ c) (Proc.devRef .tc main_v81) = _
  after_results_simp
  rw [h1, h3, h27, h68]
  rfl

/-- The aggregation of the dense product. -/
theorem w11_v81 : W11 (F := Ideal) m ρ c (Proc.devRef .tc main_v81)
    = Cert.Glue.agg (argEI m c) (Cert.Gcn.mm (feat2 m c) (Cert.Glue.wh1 (argA5 m c))) :=
  agg11 m ρ c _ (w10_v68 m ρ c)

/-- The bias laid out as a row: at column `q` of its one row, the bias at channel `q`. -/
theorem w11_v82 (q : Fin 128) :
    (W11 (F := Ideal) m ρ c (Proc.devRef .tc main_v82) : Cert.Gcn.Row) (ix2 0 q) = Cert.Glue.bh1 (argA6 m c) (ix1 q) := by
  have h67 := w10_v67 m ρ c
  show StableHlo.after hostOps5 (W10 (F := Ideal) m ρ c) (Proc.devRef .tc main_v82) (ix2 0 q) = _
  after_results_simp
  rw [h67]
  exact shapeCast_a_1a_apply (Cert.Glue.bh1 (argA6 m c)) _ 0 q

/-- The dense product, the layer's input and the scale column are not written by the stretch. -/
theorem w11_v68 : W11 (F := Ideal) m ρ c (Proc.devRef .tc main_v68)
    = Cert.Gcn.mm (feat2 m c) (Cert.Glue.wh1 (argA5 m c)) :=
  (StableHlo.after_of_forall_not_mem _ _ (by host_unwritten hostOps5)).trans (w10_v68 m ρ c)

theorem w11_v63 : W11 (F := Ideal) m ρ c (Proc.devRef .tc main_v63) = feat2 m c :=
  (StableHlo.after_of_forall_not_mem _ _ (by host_unwritten hostOps5)).trans (w10_v63 m ρ c)

theorem w11_v12 (n : Fin 100000) : (W11 (F := Ideal) m ρ c (Proc.devRef .tc main_v12) : Cert.Gcn.Col) (ix2 n 0)
    = Cert.Glue.dis (argEI m c) (ix1 n) * Cert.Glue.dis (argEI m c) (ix1 n) := by
  rw [keep11 m ρ c main_v12 (by host_unwritten hostOps4) (by decide) (by host_unwritten hostOps5)]
  exact (station8 m ρ c).1.scale n

/-! ## Layer 3: boundary 12, after the combining region -/

/-- Region 5's output array: the residual layer over the second layer's features. -/
theorem w12_v83 : W12 (F := Ideal) m ρ c (Proc.devRef .tc main_v83) = feat3 m c := by
  refine (W12_arr m ρ c 5).trans ((combine5 (V11 m ρ) c).trans ?_)
  show Cert.Gcn.combineRes (W11 (F := Ideal) m ρ c (Proc.devRef .tc main_v68)) (W11 (F := Ideal) m ρ c (Proc.devRef .tc main_v81))
    (W11 (F := Ideal) m ρ c (Proc.devRef .tc main_v12)) (W11 (F := Ideal) m ρ c (Proc.devRef .tc main_v82))
    (W11 (F := Ideal) m ρ c (Proc.devRef .tc main_v63)) = _
  rw [w11_v68, w11_v81, w11_v63]
  exact combineRes_eq_layerRes (Cert.Glue.agg (argEI m c)) (Cert.Glue.dis (argEI m c)) (feat2 m c)
    (Cert.Glue.wh1 (argA5 m c)) (Cert.Glue.bh1 (argA6 m c)) _ _ (w11_v12 m ρ c) (w11_v82 m ρ c)

/-- At the boundary after layer 3's combining region: the long-lived buffers as `Carried` says, and the layer's output
    buffer at the layer's features. -/
theorem station12 : Carried m c (W12 (F := Ideal) m ρ c) ∧ W12 (F := Ideal) m ρ c (Proc.devRef .tc main_v83) = feat3 m c :=
  ⟨carried12 m ρ c, w12_v83 m ρ c⟩

end Cert.KernelIdeal.KVal

end
-- ==== Proof.KMatmul6.lean ====
/-
  The dense-product region 6: every grid point loads a block of 5000 node rows and the whole weight matrix, multiplies
  them (the product accumulated into a zero block) and stores the block; a change of float format is the identity at the
  ideal instance, so after the region the output array holds the dense product of the two arrays the region found.
-/
import proofs.«426480_j82094004896163_1_alg».proof.Proof.Gen.KernelIdeal.Frame
import proofs.«426480_j82094004896163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## The product of one block, entry by entry -/

/-- The product's left index at output entry `i` and contraction index `q` keeps the output's row … -/
theorem lhs6_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction index as its column. -/
theorem lhs6_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right index takes the contraction index as its row … -/
theorem rhs6_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs6_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at row `p` and column `q` of the block: the casts of each operand to its own shape and the
    two changes of float format are the identity on the extended reals and the accumulator is the zero block, so the
    entry is the sum over the 128 contracted channels `k` of the row block's entry `(p, k)` times the weights' entry
    `(k, q)`. -/
theorem pay6_apply (x : Vec Ideal S5000x128 .f32) (w : Vec Ideal S128x128 .f32) (p : Fin 5000) (q : Fin 128) :
    k6_pay1 (F := Ideal) x w (ix2 p q) = ∑ k : Fin 128, x (ix2 p k) * w (ix2 k q) := by
  unfold k6_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs6_0 _ _
    | ⟨1, _⟩ => exact (lhs6_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs6_0 _ _).trans hk
    | ⟨1, _⟩ => exact rhs6_1 _ _)
  rw [el, er]
  simp only [truncf_apply, shapeCast_self]

/-- A row block that is rows `5000·n …` of the node array `X`, times weights that are the whole matrix `W`, gives at
    row `p` of the block the dense product's row `5000·n + p`: the two sums run over the same 128 terms. -/
theorem point6 (X : Cert.Gcn.Nodes) (W : Cert.Gcn.Weights) (x : Vec Ideal S5000x128 .f32) (w : Vec Ideal S128x128 .f32) (n : Nat)
    (hx : ∀ (p : Fin 5000) (k : Fin 128) (r : Fin 100000), r.val = n * 5000 + p.val → x (ix2 p k) = X (ix2 r k))
    (hw : ∀ (k q : Fin 128), w (ix2 k q) = W (ix2 k q))
    (p : Fin 5000) (q : Fin 128) (r : Fin 100000) (hr : r.val = n * 5000 + p.val) :
    k6_pay1 (F := Ideal) x w (ix2 p q) = Cert.Gcn.mm X W (ix2 r q) := by
  rw [pay6_apply]
  show ∑ k : Fin 128, x (ix2 p k) * w (ix2 k q) = ∑ k : Fin 128, X (ix2 r k) * W (ix2 k q)
  refine Finset.sum_congr rfl fun k _ => ?_
  rw [hx p k r hr, hw k q]

/-! ## The blocks of the three windows -/

theorem hz6 : (![0, 0] : Fin 2 → Nat) = fun _ => 0 := funext fun a => by fin_cases a <;> rfl

/-- The block indices over the 20 grid points: the node rows' window and the output's window are at block row `t`,
    the weights' window stays at block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Window 0's block at point `t` is rows `5000·t … 5000·t + 4999` of the node array the region found. -/
theorem iblk6_0_apply (c : Dev nD) (t : Fin cfg6.N) (p : Fin 5000) (k : Fin 128) (r : Fin 100000)
    (hr : r.val = t.val * 5000 + p.val) :
    (iblk6 V c 0 t : Vec Ideal S5000x128 .f32) (ix2 p k) = (V c main_v83 : S100000x128.Idx → EReal) (ix2 r k) := by
  obtain ⟨e0, e1, -⟩ := idx_facts6 t
  unfold iblk6
  rw [View.read_apply]
  show V c main_v83 _ = V c main_v83 _
  congr 1
  funext a
  apply Fin.ext
  match a with
  | ⟨0, _⟩ => show win6_0.index t (0 : Fin 2) * 5000 + 1 * p.val = r.val; rw [e0, hr]; omega
  | ⟨1, _⟩ => show win6_0.index t (1 : Fin 2) * 128 + 1 * k.val = k.val; rw [e1]; omega

/-- Window 1's block at every point is the whole weight matrix the region found. -/
theorem iblk6_1_apply (c : Dev nD) (t : Fin cfg6.N) (k q : Fin 128) :
    (iblk6 V c 1 t : Vec Ideal S128x128 .f32) (ix2 k q) = (V c main_v85 : S128x128.Idx → EReal) (ix2 k q) := by
  obtain ⟨-, -, e2, e3, -⟩ := idx_facts6 t
  unfold iblk6
  rw [View.read_apply]
  show V c main_v85 _ = V c main_v85 _
  congr 1
  funext a
  apply Fin.ext
  match a with
  | ⟨0, _⟩ => show win6_1.index t (0 : Fin 2) * 128 + 1 * k.val = k.val; rw [e2]; omega
  | ⟨1, _⟩ => show win6_1.index t (1 : Fin 2) * 128 + 1 * q.val = q.val; rw [e3]; omega

/-! ## From the blocks to the array -/

/-- What point `t` writes back is block `t` of the dense product of the two arrays the region found: entry `(p, q)`
    of the stored block sits at row `5000·t + p` of the output array, and is the product's entry there. -/
theorem flushed6_eq (c : Dev nD) (t : Fin cfg6.N) :
    (dat6 (F := Ideal) V c).flushed 2 t
      = ((cfg6.win 2).blk t).view.read (Elt Ideal) (Cert.Gcn.mm (V c main_v83) (V c main_v85)) := by
  show (cfg6.win 2).cut (grid6.coords t) ((dat6 V c).after 2 t) = _
  rw [after6_2]
  unfold out6_2
  rw [View.canon_unit_zero hz6]
  simp only [View.ld_unit_zero (S := S5000x128) hz6, View.ld_unit_zero (S := S128x128) hz6]
  obtain ⟨-, -, -, -, e4, e5⟩ := idx_facts6 t
  have hN : t.val < 20 := Nat.lt_of_lt_of_eq t.isLt (show cfg6.N = 20 from N_6)
  funext j
  rw [View.read_apply]
  have hp : (j 0).val < 5000 := (j 0).isLt
  have hq : (j 1).val < 128 := (j 1).isLt
  have hj : (cfg6.win 2).xinj (grid6.coords t) j = ix2 (⟨(j 0).val, hp⟩ : Fin 5000) (⟨(j 1).val, hq⟩ : Fin 128) :=
    funext fun a => Fin.ext (by match a with | ⟨0, _⟩ => rfl | ⟨1, _⟩ => rfl)
  show k6_pay1 (F := Ideal) (iblk6 V c 0 t) (iblk6 V c 1 t) ((cfg6.win 2).xinj (grid6.coords t) j) = _
  rw [hj]
  refine (point6 (V c main_v83) (V c main_v85) (iblk6 V c 0 t) (iblk6 V c 1 t) t.val
    (fun p k r hr => iblk6_0_apply V c t p k r hr) (fun k q => iblk6_1_apply V c t k q)
    ⟨(j 0).val, hp⟩ ⟨(j 1).val, hq⟩ ⟨t.val * 5000 + (j 0).val, by omega⟩ rfl).trans ?_
  refine congrArg (Cert.Gcn.mm (V c main_v83) (V c main_v85)) (funext fun a => Fin.ext ?_)
  match a with
  | ⟨0, _⟩ => show t.val * 5000 + (j 0).val = win6_2.index t (0 : Fin 2) * 5000 + 1 * (j 0).val; rw [e4]; omega
  | ⟨1, _⟩ => show (j 1).val = win6_2.index t (1 : Fin 2) * 128 + 1 * (j 1).val; rw [e5]; omega

/-- An index of the output array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v88).slice (win6_2.rect t)).set ↔ _
  rw [View.set_slice_whole, Rect.mem_set_unit]
  exact Iff.rfl

/-- Row `r` of the output array is in the block of point `r / 5000`, which is written back: the 20 blocks tile the
    100000 rows. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_2 _, ?_⟩
  rw [mem_blk6]
  obtain ⟨-, -, -, -, e4, e5⟩ := idx_facts6 ⟨(i 0).val / 5000, by rw [hN]; omega⟩
  intro a
  match a with
  | ⟨0, _⟩ =>
    show win6_2.index ⟨(i 0).val / 5000, _⟩ (0 : Fin 2) * 5000 ≤ (i 0).val
      ∧ (i 0).val < win6_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, _⟩ (1 : Fin 2) * 128 ≤ (i 1).val
      ∧ (i 1).val < win6_2.index ⟨(i 0).val / 5000, _⟩ (1 : Fin 2) * 128 + 128
    rw [e5]; omega

/-- After region 6 its output array is the dense product of its two input arrays as the region found them. -/
theorem mm6 (c : Dev nD) :
    (dat6 (F := Ideal) V c).arrAt 2 cfg6.N = Cert.Gcn.mm (V c main_v83) (V c main_v85) := by
  exact (dat6 (F := Ideal) V c).arrAt_eq_of_cover 2 (Cert.Gcn.mm (V c main_v83) (V c main_v85))
    (fun t _ => flushed6_eq V c t) cover6

end Cert.KernelIdeal.KVal

end
-- ==== Proof.KCombine7.lean ====
/-
  The combining region 7: every grid point loads a block of 5000 rows of the product, of the aggregation and of the layer's input, the
  rows' per-node scales as a column and the bias as a row, and stores, element by element, the aggregation plus the
  product times the node's scale plus the channel's bias plus the layer's input, clamped at zero from below.
-/
import proofs.«426480_j82094004896163_1_alg».proof.Proof.Gen.KernelIdeal.Frame
import proofs.«426480_j82094004896163_1_alg».proof.Proof.Spec
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-- Every access of the body starts at the origin of its buffer. -/
theorem zeroOff7 : (![0, 0] : Fin 2 → Nat) = fun _ => 0 := funext fun a => by fin_cases a <;> rfl

/-- A column `[a, 1]` broadcast to `[a, b]` reads, at `(p, q)`, the column's entry of row `p`. -/
theorem bcastCol7_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at row `p` and channel `q` of a block: the first operand there, plus the second operand
    there times the column's entry of row `p`, plus the row's entry of channel `q`, plus the last operand there, the
    larger of that and zero. The casts to the same shape are identities, the two broadcasts read the column along its
    row and the row along its channel, and the zero word is the number zero. -/
theorem pay7_apply (x0 x1 : Vec Ideal S5000x128 .f32) (x2 : Vec Ideal S5000x1 .f32) (x3 : Vec Ideal S1x128 .f32)
    (x4 : Vec Ideal S5000x128 .f32) (p : Fin 5000) (q : Fin 128) :
    k7_pay1 (F := Ideal) x0 x1 x2 x3 x4 (ix2 p q)
      = max (((x0 (ix2 p q) + x1 (ix2 p q) * x2 (ix2 p (0 : Fin 1))) + x3 (ix2 (0 : Fin 1) q)) + x4 (ix2 p q)) 0 := by
  unfold k7_pay1
  rw [maximumf_apply, addf_apply, addf_apply, addf_apply, mulf_apply, broadcast_apply]
  rw [shapeCast_self, shapeCast_self, shapeCast_self, shapeCast_self, shapeCast_self]
  rw [bcastCol7_apply, broadcastTo_1b_ab_apply]
  show max _ (Ideal.ofBits .f32 0x00000000#32) = _
  rw [Ideal.ofBits_zero_f32]

/-- One entry of a block against one entry of the whole arrays. If at the block's index `j` the five loaded blocks
    hold what the whole arrays hold at the array's index `i` (the product, the aggregation and the layer's input at
    `i`, the scale of `i`'s row, the bias of `i`'s channel), then the body's result at `j` is the residual combining
    step at `i`. The body is handed the aggregation's block first and the product's second, which is the order of the
    sum in the combining step. -/
theorem blockval7 (hw agg : Cert.Gcn.Nodes) (d2 : Cert.Gcn.Col) (b : Cert.Gcn.Row) (res : Cert.Gcn.Nodes)
    (x0 x1 : Vec Ideal S5000x128 .f32) (x2 : Vec Ideal S5000x1 .f32) (x3 : Vec Ideal S1x128 .f32)
    (x4 : Vec Ideal S5000x128 .f32) (j : S5000x128.Idx) (i : S100000x128.Idx)
    (h0 : x0 j = hw i) (h1 : x1 j = agg i)
    (h2 : x2 (ix2 (j 0) (0 : Fin 1)) = d2 (ix2 (i 0) (0 : Fin 1)))
    (h3 : x3 (ix2 (0 : Fin 1) (j 1)) = b (ix2 (0 : Fin 1) (i 1)))
    (h4 : x4 j = res i) :
    k7_pay1 (F := Ideal) x1 x0 x2 x3 x4 j = Cert.Gcn.combineRes hw agg d2 b res i := by
  obtain ⟨p, q, rfl⟩ : ∃ (p : Fin 5000) (q : Fin 128), j = ix2 p q := ⟨j 0, j 1, eq_ix2 j⟩
  rw [pay7_apply, h0, h1, h4]
  show max (((agg i + hw i * x2 (ix2 p (0 : Fin 1))) + x3 (ix2 (0 : Fin 1) q)) + res i) 0 = _
  rw [show x2 (ix2 p (0 : Fin 1)) = d2 (ix2 (i 0) (0 : Fin 1)) from h2,
    show x3 (ix2 (0 : Fin 1) q) = b (ix2 (0 : Fin 1) (i 1)) from h3]
  rfl

/-- The block indices at grid point `t`, decided over the twenty points: the product, the aggregation, the scale
    column, the layer's input and the output are at block row `t`, block column `0`; the bias row is at block
    `(0, 0)` at every point. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- What point `t` writes back is block `t` of the residual combining step of the whole arrays. Entry `(p, q)` of the
    output's block is row `5000 t + p`, channel `q` of the array; the product's, the aggregation's and the layer
    input's blocks sit at the same rows and channels, the scale's block at the same rows of its one column, and the
    bias's block is the whole row: each input block's entry is the array's entry the combining step reads there. -/
theorem flushed7_eq (c : Dev nD) (t : Fin cfg7.N) :
    (dat7 (F := Ideal) V c).flushed 5 t
      = ((cfg7.win 5).blk t).view.read (Elt Ideal)
          (Cert.Gcn.combineRes (V c main_v88) (V c main_v101) (V c main_v12) (V c main_v102) (V c main_v83)) := by
  show (cfg7.win 5).cut (grid7.coords t) ((dat7 V c).after 5 t) = _
  rw [after7_5]
  unfold out7_5
  rw [View.canon_unit_zero zeroOff7]
  simp only [View.ld_unit_zero (S := S5000x128) zeroOff7, View.ld_unit_zero (S := S5000x1) zeroOff7,
    View.ld_unit_zero (S := S1x128) zeroOff7]
  obtain ⟨a00, a01, a10, a11, a20, a21, a30, a31, a40, a41, a50, a51⟩ := idx_facts7 t
  funext j
  have hj0 : (j 0).val < 5000 := (j 0).isLt
  have hj1 : (j 1).val < 128 := (j 1).isLt
  refine blockval7 (V c main_v88) (V c main_v101) (V c main_v12) (V c main_v102) (V c main_v83)
    (iblk7 V c 0 t) (iblk7 V c 1 t) (iblk7 V c 2 t) (iblk7 V c 3 t) (iblk7 V c 4 t) j
    (((cfg7.win 5).blk t).view.emb j) ?_ ?_ ?_ ?_ ?_
  · -- the product: same row, same channel
    show V c main_v88 (((cfg7.win 0).blk t).view.emb j) = V c main_v88 (((cfg7.win 5).blk t).view.emb j)
    refine congrArg _ (funext fun a => Fin.ext ?_)
    match a with
    | ⟨0, _⟩ => show win7_0.index t (0 : Fin 2) * 5000 + 1 * (j 0).val = win7_5.index t (0 : Fin 2) * 5000 + 1 * (j 0).val; omega
    | ⟨1, _⟩ => show win7_0.index t (1 : Fin 2) * 128 + 1 * (j 1).val = win7_5.index t (1 : Fin 2) * 128 + 1 * (j 1).val; omega
  · -- the aggregation: same row, same channel
    show V c main_v101 (((cfg7.win 1).blk t).view.emb j) = V c main_v101 (((cfg7.win 5).blk t).view.emb j)
    refine congrArg _ (funext fun a => Fin.ext ?_)
    match a with
    | ⟨0, _⟩ => show win7_1.index t (0 : Fin 2) * 5000 + 1 * (j 0).val = win7_5.index t (0 : Fin 2) * 5000 + 1 * (j 0).val; omega
    | ⟨1, _⟩ => show win7_1.index t (1 : Fin 2) * 128 + 1 * (j 1).val = win7_5.index t (1 : Fin 2) * 128 + 1 * (j 1).val; omega
  · -- the scale: same row of the one column
    show V c main_v12 (((cfg7.win 2).blk t).view.emb (ix2 (j 0) (0 : Fin 1)))
      = V c main_v12 (ix2 ((((cfg7.win 5).blk t).view.emb j) 0) (0 : Fin 1))
    refine congrArg _ (funext fun a => Fin.ext ?_)
    match a with
    | ⟨0, _⟩ => show win7_2.index t (0 : Fin 2) * 5000 + 1 * (j 0).val = win7_5.index t (0 : Fin 2) * 5000 + 1 * (j 0).val; omega
    | ⟨1, _⟩ => show win7_2.index t (1 : Fin 2) * 1 + 1 * 0 = 0; omega
  · -- the bias: same channel of the one row
    show V c main_v102 (((cfg7.win 3).blk t).view.emb (ix2 (0 : Fin 1) (j 1)))
      = V c main_v102 (ix2 (0 : Fin 1) ((((cfg7.win 5).blk t).view.emb j) 1))
    refine congrArg _ (funext fun a => Fin.ext ?_)
    match a with
    | ⟨0, _⟩ => show win7_3.index t (0 : Fin 2) * 1 + 1 * 0 = 0; omega
    | ⟨1, _⟩ => show win7_3.index t (1 : Fin 2) * 128 + 1 * (j 1).val = win7_5.index t (1 : Fin 2) * 128 + 1 * (j 1).val; omega
  · -- the layer's input: same row, same channel
    show V c main_v83 (((cfg7.win 4).blk t).view.emb j) = V c main_v83 (((cfg7.win 5).blk t).view.emb j)
    refine congrArg _ (funext fun a => Fin.ext ?_)
    match a with
    | ⟨0, _⟩ => show win7_4.index t (0 : Fin 2) * 5000 + 1 * (j 0).val = win7_5.index t (0 : Fin 2) * 5000 + 1 * (j 0).val; omega
    | ⟨1, _⟩ => show win7_4.index t (1 : Fin 2) * 128 + 1 * (j 1).val = win7_5.index t (1 : Fin 2) * 128 + 1 * (j 1).val; omega

/-- An index of the output array is in point `t`'s block iff each coordinate is in the block's range on its axis. -/
theorem mem_blk7 (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v103).slice (win7_5.rect t)).set ↔ _
  rw [View.set_slice_whole, Rect.mem_set_unit]
  exact Iff.rfl

/-- The twenty blocks of 5000 rows fill the 100000 rows: row `r` is in the block of point `r / 5000`, which writes
    back like every point. -/
theorem cover7 (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 20 := N_7
  have hlt : (i 0).val / 5000 < cfg7.N := by rw [hN]; omega
  refine ⟨⟨(i 0).val / 5000, hlt⟩, flush7_5 _, ?_⟩
  rw [mem_blk7]
  obtain ⟨-, -, -, -, -, -, -, -, -, -, e0, e1⟩ := idx_facts7 ⟨(i 0).val / 5000, hlt⟩
  have e0' : win7_5.index ⟨(i 0).val / 5000, hlt⟩ (0 : Fin 2) = (i 0).val / 5000 := e0
  intro a
  match a with
  | ⟨0, _⟩ =>
    show win7_5.index ⟨(i 0).val / 5000, hlt⟩ (0 : Fin 2) * 5000 ≤ (i 0).val
      ∧ (i 0).val < win7_5.index ⟨(i 0).val / 5000, hlt⟩ (0 : Fin 2) * 5000 + 5000
    omega
  | ⟨1, _⟩ =>
    show win7_5.index ⟨(i 0).val / 5000, hlt⟩ (1 : Fin 2) * 128 ≤ (i 1).val
      ∧ (i 1).val < win7_5.index ⟨(i 0).val / 5000, hlt⟩ (1 : Fin 2) * 128 + 128
    omega

/-- After region 7 its output array is a residual layer's combining step of the arrays the region found. -/
theorem combine7 (c : Dev nD) :
    (dat7 (F := Ideal) V c).arrAt 5 cfg7.N
      = Cert.Gcn.combineRes (V c main_v88) (V c main_v101) (V c main_v12) (V c main_v102) (V c main_v83) := by
  exact (dat7 (F := Ideal) V c).arrAt_eq_of_cover 5
    (Cert.Gcn.combineRes (V c main_v88) (V c main_v101) (V c main_v12) (V c main_v102) (V c main_v83))
    (fun t _ => flushed7_eq V c t) cover7

end Cert.KernelIdeal.KVal

end
-- ==== Proof.KLayer4.lean ====
/-
  Layer 4 of the kernel program's run, from the boundary after region 5 to the boundary after region 7: the layer's
  weights and bias cut out of their stacks, the dense product (region 6), the aggregation and the bias row on the host,
  and the residual combining region 7.
-/
import proofs.«426480_j82094004896163_1_alg».proof.Proof.KLayer3
import proofs.«426480_j82094004896163_1_alg».proof.Proof.KMatmul6
import proofs.«426480_j82094004896163_1_alg».proof.Proof.KCombine7

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## Layer 4: buffers that pass through untouched

The boundaries are 12 (after region 5), 13 (after the stretch that cuts out the weights and the bias), 14 (after the dense
product, region 6), 15 (after the stretch that aggregates and lays the bias out as a row) and 16 (after the combining
region 7). A buffer that a stretch does not write, and that is no array of a region, holds after it what it held
before. -/

theorem keep13 (b : Ref sig .tc) (h6 : ∀ op ∈ (hostOps6 (F := Ideal)), Proc.devRef (τ := τ) .tc b ∉ op.writes) :
    W13 (F := Ideal) m ρ c (Proc.devRef .tc b) = W12 (F := Ideal) m ρ c (Proc.devRef .tc b) :=
  StableHlo.after_of_forall_not_mem _ _ h6

theorem keep14 (b : Ref sig .tc) (h6 : ∀ op ∈ (hostOps6 (F := Ideal)), Proc.devRef (τ := τ) .tc b ∉ op.writes)
    (r6 : ∀ w, Pipeline.arrRef spec6 w ≠ b) :
    W14 (F := Ideal) m ρ c (Proc.devRef .tc b) = W12 (F := Ideal) m ρ c (Proc.devRef .tc b) :=
  (W14_of_ne m ρ c b r6).trans (keep13 m ρ c b h6)

theorem keep15 (b : Ref sig .tc) (h6 : ∀ op ∈ (hostOps6 (F := Ideal)), Proc.devRef (τ := τ) .tc b ∉ op.writes)
    (r6 : ∀ w, Pipeline.arrRef spec6 w ≠ b)
    (h7 : ∀ op ∈ (hostOps7 (F := Ideal)), Proc.devRef (τ := τ) .tc b ∉ op.writes) :
    W15 (F := Ideal) m ρ c (Proc.devRef .tc b) = W12 (F := Ideal) m ρ c (Proc.devRef .tc b) :=
  (StableHlo.after_of_forall_not_mem _ _ h7).trans (keep14 m ρ c b h6 r6)

theorem keep16 (b : Ref sig .tc) (h6 : ∀ op ∈ (hostOps6 (F := Ideal)), Proc.devRef (τ := τ) .tc b ∉ op.writes)
    (r6 : ∀ w, Pipeline.arrRef spec6 w ≠ b)
    (h7 : ∀ op ∈ (hostOps7 (F := Ideal)), Proc.devRef (τ := τ) .tc b ∉ op.writes)
    (r7 : ∀ w, Pipeline.arrRef spec7 w ≠ b) :
    W16 (F := Ideal) m ρ c (Proc.devRef .tc b) = W12 (F := Ideal) m ρ c (Proc.devRef .tc b) :=
  (W16_of_ne m ρ c b r7).trans (keep15 m ρ c b h6 r6 h7)

/-- The per-node scale column is input window 2 of region 7, and an input window's array is left as entered. -/
theorem keep16_v12 : W16 (F := Ideal) m ρ c (Proc.devRef .tc main_v12) = W12 (F := Ideal) m ρ c (Proc.devRef .tc main_v12) :=
  ((W16_arr m ρ c 2).trans (((dat7 (V15 m ρ) c).arrAt_in 2 rfl _).trans (A_eq7 (V15 m ρ) c 2))).trans
    (keep15 m ρ c main_v12 (by host_unwritten hostOps6) (by decide) (by host_unwritten hostOps7))

/-- The long-lived buffers at boundary 16 are as at boundary 12. -/
theorem carried16 : Carried m c (W16 (F := Ideal) m ρ c) :=
  Carried.of_agree m c (station12 m ρ c).1
    (keep16 m ρ c main_v1 (by host_unwritten hostOps6) (by decide) (by host_unwritten hostOps7) (by decide))
    (keep16 m ρ c main_v3 (by host_unwritten hostOps6) (by decide) (by host_unwritten hostOps7) (by decide))
    (keep16 m ρ c main_v27 (by host_unwritten hostOps6) (by decide) (by host_unwritten hostOps7) (by decide))
    (keep16_v12 m ρ c)
    (keep16 m ρ c main_arg2 (by host_unwritten hostOps6) (by decide) (by host_unwritten hostOps7) (by decide))
    (keep16 m ρ c main_arg5 (by host_unwritten hostOps6) (by decide) (by host_unwritten hostOps7) (by decide))
    (keep16 m ρ c main_arg6 (by host_unwritten hostOps6) (by decide) (by host_unwritten hostOps7) (by decide))
    (keep16 m ρ c main_arg7 (by host_unwritten hostOps6) (by decide) (by host_unwritten hostOps7) (by decide))
    (keep16 m ρ c main_arg8 (by host_unwritten hostOps6) (by decide) (by host_unwritten hostOps7) (by decide))

/-! ## Layer 4: boundary 13, the layer's weights and bias cut out of their stacks -/

/-- The layer's input is not written by the stretch. -/
theorem w13_v83 : W13 (F := Ideal) m ρ c (Proc.devRef .tc main_v83) = feat3 m c :=
  (keep13 m ρ c main_v83 (by host_unwritten hostOps6)).trans (station12 m ρ c).2

/-- The layer's weights: slab 2 of the stacked weights, its leading unit axis dropped. -/
theorem w13_v85 : W13 (F := Ideal) m ρ c (Proc.devRef .tc main_v85) = Cert.Glue.wh2 (argA5 m c) := by
  have h12 := (station12 m ρ c).1.a5
  show StableHlo.after hostOps6 (W12 (F := Ideal) m ρ c) (Proc.devRef .tc main_v85) = _
  after_results
  rw [h12]
  rfl

/-- The layer's bias: row 2 of the stacked biases, its leading unit axis dropped. -/
theorem w13_v87 : W13 (F := Ideal) m ρ c (Proc.devRef .tc main_v87) = Cert.Glue.bh2 (argA6 m c) := by
  have h12 := (station12 m ρ c).1.a6
  show StableHlo.after hostOps6 (W12 (F := Ideal) m ρ c) (Proc.devRef .tc main_v87) = _
  after_results
  rw [h12]
  rfl

/-! ## Layer 4: boundary 14, after the dense product -/

/-- Region 6's output array: the dense product of the layer's input and the layer's weights. -/
theorem w14_v88 : W14 (F := Ideal) m ρ c (Proc.devRef .tc main_v88)
    = Cert.Gcn.mm (feat3 m c) (Cert.Glue.wh2 (argA5 m c)) := by
  refine (W14_arr m ρ c 2).trans ((mm6 (V13 m ρ) c).trans ?_)
  show Cert.Gcn.mm (W13 (F := Ideal) m ρ c (Proc.devRef .tc main_v83)) (W13 (F := Ideal) m ρ c (Proc.devRef .tc main_v85)) = _
  rw [w13_v83, w13_v85]

/-- The layer's input is input window 0 of region 6: left as entered. -/
theorem w14_v83 : W14 (F := Ideal) m ρ c (Proc.devRef .tc main_v83) = feat3 m c :=
  ((W14_arr m ρ c 0).trans (((dat6 (V13 m ρ) c).arrAt_in 0 rfl _).trans (A_eq6 (V13 m ρ) c 0))).trans (w13_v83 m ρ c)

/-- The bias is no array of region 6. -/
theorem w14_v87 : W14 (F := Ideal) m ρ c (Proc.devRef .tc main_v87) = Cert.Glue.bh2 (argA6 m c) :=
  (W14_of_ne m ρ c main_v87 (by decide)).trans (w13_v87 m ρ c)

theorem w14_v1 : W14 (F := Ideal) m ρ c (Proc.devRef .tc main_v1) = Cert.Glue.src (argEI m c) :=
  (keep14 m ρ c main_v1 (by host_unwritten hostOps6) (by decide)).trans (station12 m ρ c).1.src

theorem w14_v3 : W14 (F := Ideal) m ρ c (Proc.devRef .tc main_v3) = Cert.Glue.dst (argEI m c) :=
  (keep14 m ρ c main_v3 (by host_unwritten hostOps6) (by decide)).trans (station12 m ρ c).1.dst

theorem w14_v27 : W14 (F := Ideal) m ρ c (Proc.devRef .tc main_v27) = Cert.Glue.coef (argEI m c) :=
  (keep14 m ρ c main_v27 (by host_unwritten hostOps6) (by decide)).trans (station12 m ρ c).1.coef

/-! ## Layer 4: boundary 15, the aggregation and the bias row -/

/-- The stretch aggregates the array it finds in the product's buffer along the edges: with the edges' ends and the
    per-edge coefficient in their buffers, its operations are those of the shared aggregation, one for one (the array
    aggregated stays a variable, so the two sides are compared operation by operation and never opened). -/
theorem agg15 (P : Cert.Gcn.Nodes) (h88 : W14 (F := Ideal) m ρ c (Proc.devRef .tc main_v88) = P) :
    W15 (F := Ideal) m ρ c (Proc.devRef .tc main_v101) = Cert.Glue.agg (argEI m c) P := by
  have h1 := w14_v1 m ρ c
  have h3 := w14_v3 m ρ c
  have h27 := w14_v27 m ρ c
  show StableHlo.after hostOps7 (W14 (F := Ideal) m ρ c) (Proc.devRef .tc main_v101) = _
  after_results_simp
  rw [h1, h3, h27, h88]
  rfl

/-- The aggregation of the dense product. -/
theorem w15_v101 : W15 (F := Ideal) m ρ c (Proc.devRef .tc main_v101)
    = Cert.Glue.agg (argEI m c) (Cert.Gcn.mm (feat3 m c) (Cert.Glue.wh2 (argA5 m c))) :=
  agg15 m ρ c _ (w14_v88 m ρ c)

/-- The bias laid out as a row: at column `q` of its one row, the bias at channel `q`. -/
theorem w15_v102 (q : Fin 128) :
    (W15 (F := Ideal) m ρ c (Proc.devRef .tc main_v102) : Cert.Gcn.Row) (ix2 0 q) = Cert.Glue.bh2 (argA6 m c) (ix1 q) := by
  have h87 := w14_v87 m ρ c
  show StableHlo.after hostOps7 (W14 (F := Ideal) m ρ c) (Proc.devRef .tc main_v102) (ix2 0 q) = _
  after_results_simp
  rw [h87]
  exact shapeCast_a_1a_apply (Cert.Glue.bh2 (argA6 m c)) _ 0 q

/-- The dense product, the layer's input and the scale column are not written by the stretch. -/
theorem w15_v88 : W15 (F := Ideal) m ρ c (Proc.devRef .tc main_v88)
    = Cert.Gcn.mm (feat3 m c) (Cert.Glue.wh2 (argA5 m c)) :=
  (StableHlo.after_of_forall_not_mem _ _ (by host_unwritten hostOps7)).trans (w14_v88 m ρ c)

theorem w15_v83 : W15 (F := Ideal) m ρ c (Proc.devRef .tc main_v83) = feat3 m c :=
  (StableHlo.after_of_forall_not_mem _ _ (by host_unwritten hostOps7)).trans (w14_v83 m ρ c)

theorem w15_v12 (n : Fin 100000) : (W15 (F := Ideal) m ρ c (Proc.devRef .tc main_v12) : Cert.Gcn.Col) (ix2 n 0)
    = Cert.Glue.dis (argEI m c) (ix1 n) * Cert.Glue.dis (argEI m c) (ix1 n) := by
  rw [keep15 m ρ c main_v12 (by host_unwritten hostOps6) (by decide) (by host_unwritten hostOps7)]
  exact (station12 m ρ c).1.scale n

/-! ## Layer 4: boundary 16, after the combining region -/

/-- Region 7's output array: the residual layer over the third layer's features. -/
theorem w16_v103 : W16 (F := Ideal) m ρ c (Proc.devRef .tc main_v103) = feat4 m c := by
  refine (W16_arr m ρ c 5).trans ((combine7 (V15 m ρ) c).trans ?_)
  show Cert.Gcn.combineRes (W15 (F := Ideal) m ρ c (Proc.devRef .tc main_v88)) (W15 (F := Ideal) m ρ c (Proc.devRef .tc main_v101))
    (W15 (F := Ideal) m ρ c (Proc.devRef .tc main_v12)) (W15 (F := Ideal) m ρ c (Proc.devRef .tc main_v102))
    (W15 (F := Ideal) m ρ c (Proc.devRef .tc main_v83)) = _
  rw [w15_v88, w15_v101, w15_v83]
  exact combineRes_eq_layerRes (Cert.Glue.agg (argEI m c)) (Cert.Glue.dis (argEI m c)) (feat3 m c)
    (Cert.Glue.wh2 (argA5 m c)) (Cert.Glue.bh2 (argA6 m c)) _ _ (w15_v12 m ρ c) (w15_v102 m ρ c)

/-- At the boundary after layer 4's combining region: the long-lived buffers as `Carried` says, and the layer's output
    buffer at the layer's features. -/
theorem station16 : Carried m c (W16 (F := Ideal) m ρ c) ∧ W16 (F := Ideal) m ρ c (Proc.devRef .tc main_v103) = feat4 m c :=
  ⟨carried16 m ρ c, w16_v103 m ρ c⟩

end Cert.KernelIdeal.KVal

end
-- ==== Proof.KPool.lean ====
/-
  The pooling region: twenty grid points, each loading 5000 node rows and their batch words. A point builds the rows'
  one-hot matrix against the 128 graph numbers (a one where the node's word is the graph's number), multiplies its
  transpose with the rows (per graph and channel: the sum of the rows of the block's nodes in that graph) and sums it
  over the rows (per graph: the number of the block's nodes in it); the first point stores zeros into the two outputs
  first, every point adds its two contributions to what the outputs hold. After the twenty points the outputs hold the
  sums and the counts over all 100000 nodes.

  The proof follows the points. A point's stores leave, in each output, one accumulate store's payload over what the
  output held (over zeros at the first point). Read at an entry over the extended reals the payload adds, to the entry,
  the sum over the block's 5000 rows of the row's share: the product with a one-hot entry is the row's value or nothing,
  because one times x is x and zero times x is zero. Row r of point t's block is row 5000 t + r of the array, so by
  induction on the point the outputs hold, after point t, the sums of the shares of the rows below 5000 (t + 1); after
  the last point these are all the rows. Both outputs have a single block that is the whole array, written back once,
  after the last point. The kernel's test "the word is the 32-bit word of g" and the statement's "the word read signed
  is g" agree because g is below 128.
-/
import proofs.«426480_j82094004896163_1_alg».proof.Proof.Gen.KernelIdeal.Frame
import proofs.«426480_j82094004896163_1_alg».proof.Proof.Spec
import Idealize.ShloMosaic.Lib.Pipeline.Value
import Idealize.ShloMosaic.Lib.ValueIdx
import Idealize.ShloMosaic.PureOps.Ideal.Laws
import Idealize.ShloMosaic.Lib.Tactic
import Idealize.ShloMosaic.Lib.FinSumWindow
import Idealize.ShloMosaic.Lib.StableHlo.Predicate

set_option maxRecDepth 16384

noncomputable section

namespace Cert.KernelIdeal.KVal

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

/-! ## What a point's stores leave in the two outputs -/

section Pieces
variable {F : FTy → Type} [FloatOps F]

/-- The stores' and loads' offsets, both zero. -/
theorem zeroOff8 : (![0, 0] : Fin 2 → Nat) = fun _ => 0 := funext fun a => by fin_cases a <;> rfl

/-- The first point leaves in the first output its accumulate store over the zeros it stored and read back. -/
theorem poolA_sum (c : Dev nD) (i : grid8.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond8_0 i)
    (x0 : Vec F S5000x128 .f32) (x1 : Vec F S5000x1 .i32) :
    out8_A_2 c i a1 h1 a2 h2 a3 h3 a4 h4 hc x0 x1 = k8_pay4 x1 x0 (k8_pay1 (F := F)) := by
  unfold out8_A_2
  rw [View.read_writes_eq_canon _ _ _ (cover8_A_2 c i a1 h1 a2 h2 a3 h3 a4 h4 hc x0 x1)]
  unfold kernelRun8_A
  dsimp only
  sl_unfold_words
  rw [View.canon_cons_unit_zero (S := S128x128) zeroOff8, View.readCov_unit_zero (S := S128x128) _ zeroOff8]
  simp only [View.readAt_eq_ld, h1.read_unread, h2.read_unread, View.ld_unit_zero (S := S5000x128) zeroOff8, View.ld_unit_zero (S := S5000x1) zeroOff8, View.ld_unit_zero (S := S128x128) zeroOff8]

/-- The first point leaves in the second output its accumulate store over the zeros it stored and read back. -/
theorem poolA_cnt (c : Dev nD) (i : grid8.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : cond8_0 i)
    (x0 : Vec F S5000x128 .f32) (x1 : Vec F S5000x1 .i32) :
    out8_A_3 c i a1 h1 a2 h2 a3 h3 a4 h4 hc x0 x1 = k8_pay5 x1 (k8_pay2 (F := F)) := by
  unfold out8_A_3
  rw [View.read_writes_eq_canon _ _ _ (cover8_A_3 c i a1 h1 a2 h2 a3 h3 a4 h4 hc x0 x1)]
  unfold kernelRun8_A
  dsimp only
  sl_unfold_words
  rw [View.canon_cons_unit_zero (S := S1x128) zeroOff8, View.readCov_unit_zero (S := S1x128) _ zeroOff8]
  simp only [View.readAt_eq_ld, h1.read_unread, h2.read_unread, View.ld_unit_zero (S := S5000x128) zeroOff8, View.ld_unit_zero (S := S5000x1) zeroOff8, View.ld_unit_zero (S := S1x128) zeroOff8]

/-- A later point leaves in the first output its accumulate store over what the output held. -/
theorem poolB_sum (c : Dev nD) (i : grid8.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond8_0 i)
    (x0 : Vec F S5000x128 .f32) (x1 : Vec F S5000x1 .i32) (xo2 : Vec F S128x128 .f32) (xo3 : Vec F S1x128 .f32) :
    out8_B_2 c i a1 h1 a2 h2 a3 h3 a4 h4 hc x0 x1 xo2 xo3 = k8_pay4 x1 x0 xo2 := by
  unfold out8_B_2
  rw [View.read_writes_eq_canon _ _ _ (cover8_B_2 c i a1 h1 a2 h2 a3 h3 a4 h4 hc x0 x1 xo2 xo3)]
  unfold kernelRun8_B
  dsimp only
  sl_unfold_words
  rw [View.canon_unit_zero zeroOff8]
  simp only [View.readAt_eq_ld, h1.read_unread, h2.read_unread, h3.read_unread, View.ld_unit_zero (S := S5000x128) zeroOff8, View.ld_unit_zero (S := S5000x1) zeroOff8, View.ld_unit_zero (S := S128x128) zeroOff8]

/-- A later point leaves in the second output its accumulate store over what the output held. -/
theorem poolB_cnt (c : Dev nD) (i : grid8.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (a4 : Memref sig .tc .vmem S1x128 .f32) (h4 : a4.IsWhole) (hc : ¬cond8_0 i)
    (x0 : Vec F S5000x128 .f32) (x1 : Vec F S5000x1 .i32) (xo2 : Vec F S128x128 .f32) (xo3 : Vec F S1x128 .f32) :
    out8_B_3 c i a1 h1 a2 h2 a3 h3 a4 h4 hc x0 x1 xo2 xo3 = k8_pay5 x1 xo3 := by
  unfold out8_B_3
  rw [View.read_writes_eq_canon _ _ _ (cover8_B_3 c i a1 h1 a2 h2 a3 h3 a4 h4 hc x0 x1 xo2 xo3)]
  unfold kernelRun8_B
  dsimp only
  sl_unfold_words
  rw [View.canon_unit_zero zeroOff8]
  simp only [View.readAt_eq_ld, h1.read_unread, h2.read_unread, h4.read_unread, View.ld_unit_zero (S := S5000x128) zeroOff8, View.ld_unit_zero (S := S5000x1) zeroOff8, View.ld_unit_zero (S := S1x128) zeroOff8]
end Pieces

/-! ## The point's arithmetic, entry by entry, over the extended reals -/

/-- A column of words broadcast along the 128 lanes reads, at row `r` and any lane, the column's row `r`. -/
theorem bcastLanes8_apply (v : S5000x1.Idx → BitVec 32) (h : S5000x1.Broadcasts S5000x128) (r : Fin 5000) (g : Fin 128) :
    broadcastTo S5000x128 v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- The one-bit answer of a comparison of words, widened and read as a signed integer, is one where the words agree
    and zero where they differ. -/
theorem onehot8_word (a b : BitVec 32) :
    (FloatOps.sitofp (F := Ideal) .f32 ((IntOp.cmpi .eq a b).setWidth 32) : EReal) = if a = b then (1 : EReal) else 0 := by
  by_cases h : a = b
  · subst h
    rw [if_pos rfl]
    have e : IntOp.cmpi .eq a a = 1#1 := by simp [IntOp.cmpi]
    rw [e]
    show (((BitVec.setWidth 32 1#1).toInt : ℝ) : EReal) = 1
    rw [show (BitVec.setWidth 32 1#1).toInt = 1 from by decide]
    simp
  · rw [if_neg h]
    have e : IntOp.cmpi .eq a b = 0#1 := by
      show BitVec.ofBool (a == b) = 0#1
      rw [beq_eq_false_iff_ne.mpr h]; rfl
    rw [e]
    show (((BitVec.setWidth 32 0#1).toInt : ℝ) : EReal) = 0
    rw [show (BitVec.setWidth 32 0#1).toInt = 0 from by decide]
    simp

/-- The one-hot matrix of a block of batch words: entry (r, g) is one when row `r`'s word is the word of `g`. -/
theorem onehot8_apply (v3 : Vec Ideal S5000x1 .i32) (r : Fin 5000) (g : Fin 128) :
    k8_pay3 (F := Ideal) v3 (ix2 r g) = if v3 (ix2 r (0 : Fin 1)) = BitVec.ofNat 32 g.val then (1 : EReal) else 0 := by
  have e1 := bcastLanes8_apply (shapeCast S5000x1 v3 shapeCasts_S5000x1_S5000x1) broadcasts_S5000x1_S5000x128 r g
  have e2 : iota .tc S5000x128 32 [1] iota_S5000x128_d1_w32 (ix2 r g) = BitVec.ofNat 32 g.val :=
    iota_single_apply .tc S5000x128 32 1 iota_S5000x128_d1_w32 (ix2 r g)
  have e3 : shapeCast S5000x1 v3 shapeCasts_S5000x1_S5000x1 = v3 := shapeCast_self v3 _
  unfold k8_pay3
  show (FloatOps.sitofp (F := Ideal) .f32 ((IntOp.cmpi .eq
      (broadcastTo S5000x128 (shapeCast S5000x1 v3 shapeCasts_S5000x1_S5000x1) broadcasts_S5000x1_S5000x128 (ix2 r g))
      (iota .tc S5000x128 32 [1] iota_S5000x128_d1_w32 (ix2 r g))).setWidth 32) : EReal) = _
  rw [e1, e2, e3]
  exact onehot8_word _ _

/-! The product contracts the row axis of both operands: the four coordinate facts of its operand indices. -/
theorem pool_lhs_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem pool_lhs_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem pool_rhs_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem pool_rhs_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- What a point adds to the first output: at graph `g` and channel `d`, over what the output held, the sum over the
    block's rows whose word is `g`'s of the row's channel `d`. -/
theorem pool_pay4_apply (v3 : Vec Ideal S5000x1 .i32) (v11 : Vec Ideal S5000x128 .f32) (v15 : Vec Ideal S128x128 .f32)
    (g d : Fin 128) :
    k8_pay4 (F := Ideal) v3 v11 v15 (ix2 g d)
      = v15 (ix2 g d) + ∑ r : Fin 5000, if v3 (ix2 r (0 : Fin 1)) = BitVec.ofNat 32 g.val then v11 (ix2 r d) else 0 := by
  unfold k8_pay4
  show (shapeCast S128x128 v15 shapeCasts_S128x128_S128x128) (ix2 g d) + _ = _
  rw [shapeCast_self v15 _]
  refine congrArg (v15 (ix2 g d) + ·) ?_
  refine (Ideal.matmul_constant_zero_apply dot_S5000x128_S5000x128_S128x128_0_0_1_1_n_n none _ _ (ix2 g d)).trans ?_
  rw [← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 g d) ((contrEquiv1 dot_S5000x128_S5000x128_S128x128_0_0_1_1_n_n 5000 rfl rfl).symm k) = ix2 k g := funext fun a => Fin.ext (by
    match a with
    | ⟨0, _⟩ => exact (pool_lhs_0 _ _).trans hk
    | ⟨1, _⟩ => exact pool_lhs_1 _ _)
  have er : dot_S5000x128_S5000x128_S128x128_0_0_1_1_n_n.rhsIdx (ix2 g d) ((contrEquiv1 dot_S5000x128_S5000x128_S128x128_0_0_1_1_n_n 5000 rfl rfl).symm k) = ix2 k d := funext fun a => Fin.ext (by
    match a with
    | ⟨0, _⟩ => exact (pool_rhs_0 _ _).trans hk
    | ⟨1, _⟩ => exact pool_rhs_1 _ _)
  rw [el, er]
  show k8_pay3 (F := Ideal) v3 (ix2 k g) * (shapeCast S5000x128 v11 shapeCasts_S5000x128_S5000x128) (ix2 k d) = _
  rw [shapeCast_self v11 _, onehot8_apply]
  split
  · exact one_mul _
  · exact zero_mul _

/-- What a point adds to the second output: at graph `g`, over what the output held, the number of the block's rows
    whose word is `g`'s. -/
theorem pool_pay5_apply (v3 : Vec Ideal S5000x1 .i32) (v19 : Vec Ideal S1x128 .f32) (g : Fin 128) :
    k8_pay5 (F := Ideal) v3 v19 (ix2 (0 : Fin 1) g)
      = v19 (ix2 (0 : Fin 1) g) + ∑ r : Fin 5000, if v3 (ix2 r (0 : Fin 1)) = BitVec.ofNat 32 g.val then (1 : EReal) else 0 := by
  unfold k8_pay5
  show (shapeCast S1x128 v19 shapeCasts_S1x128_S1x128) (ix2 (0 : Fin 1) g)
    + (shapeCast S1x128 (multiReduction .add [0] S128 (k8_pay3 (F := Ideal) v3) 0x00000000#32 reduces_S5000x128_S128 (.inl rfl) rfl)
        shapeCasts_S128_S1x128) (ix2 (0 : Fin 1) g) = _
  rw [shapeCast_self v19 _]
  refine congrArg (v19 (ix2 (0 : Fin 1) g) + ·) ?_
  refine (shapeCast_apply _ shapeCasts_S128_S1x128 (ix2 (0 : Fin 1) g) (ix1 g) (by
    rw [Shape.rowMajor_val_one, Shape.rowMajor_val_two]; show g.val = 0 * 128 + g.val; omega)).trans ?_
  refine (Ideal.multiReduction_add_single (k8_pay3 (F := Ideal) v3) 0x00000000#32 reduces_S5000x128_S128 (.inl rfl) rfl (ix1 g)).trans ?_
  refine Finset.sum_congr rfl fun r _ => ?_
  have e : reduces_S5000x128_S128.lift (ix1 g) r = ix2 r g := funext fun a => Fin.ext (by
    match a with
    | ⟨0, _⟩ => rfl
    | ⟨1, _⟩ => rfl)
  rw [e]
  exact onehot8_apply v3 r g

/-- The zeros the first point stores. -/
theorem pool_pay1_apply (j : S128x128.Idx) : k8_pay1 (F := Ideal) j = 0 := Ideal.ofBits_zero_f32
/-- The same for the second output. -/
theorem pool_pay2_apply (j : S1x128.Idx) : k8_pay2 (F := Ideal) j = 0 := Ideal.ofBits_zero_f32

/-! ## Sums over the first rows of an array -/

section Sums
open scoped BigOperators

/-- The sum of `f` over the rows below `k`. -/
def poolPrefix {R : Type*} [AddCommMonoid R] {N : ℕ} (f : Fin N → R) (k : ℕ) : R :=
  ∑ n : Fin N, if n.val < k then f n else 0

/-- Below row zero there is nothing to sum. -/
theorem poolPrefix_zero {R : Type*} [AddCommMonoid R] {N : ℕ} (f : Fin N → R) : poolPrefix f 0 = 0 :=
  Finset.sum_eq_zero fun n _ => if_neg (Nat.not_lt_zero _)

/-- The sum over the rows below `lo + W` is the sum over the rows below `lo` plus the sum over the next `W` rows. -/
theorem poolPrefix_add {R : Type*} [AddCommMonoid R] {N : ℕ} (lo W : ℕ) (h : lo + W ≤ N) (f : Fin N → R) :
    poolPrefix f (lo + W) = poolPrefix f lo + ∑ r : Fin W, f ⟨lo + r.val, by have := r.isLt; omega⟩ := by
  have hsplit : ∀ n : Fin N, (if n.val < lo + W then f n else 0)
      = (if n.val < lo then f n else 0) + (if lo ≤ n.val ∧ n.val < lo + W then f n else 0) := by
    intro n
    by_cases h1 : n.val < lo
    · rw [if_pos h1, if_pos (by omega), if_neg (by omega), add_zero]
    · by_cases h2 : n.val < lo + W
      · rw [if_neg h1, if_pos h2, if_pos ⟨by omega, h2⟩, zero_add]
      · rw [if_neg h1, if_neg h2, if_neg (by omega), add_zero]
  unfold poolPrefix
  rw [Finset.sum_congr rfl fun n _ => hsplit n, Finset.sum_add_distrib]
  congr 1
  rw [FinSumWindow.sum_window lo h _ (fun P hP => if_neg hP)]
  refine Finset.sum_congr rfl fun p _ => ?_
  exact if_pos ⟨Nat.le_add_right _ _, Nat.add_lt_add_left p.isLt _⟩

/-- Below the array's end are all its rows. -/
theorem poolPrefix_full {R : Type*} [AddCommMonoid R] {N : ℕ} (f : Fin N → R) : poolPrefix f N = ∑ n : Fin N, f n :=
  Finset.sum_congr rfl fun n _ => if_pos n.isLt

end Sums

/-! ## The blocks a point loads -/

section Blocks

/-- The node features and the batch words as the region finds them, and a point's blocks of them. -/
abbrev poolFeat (c : Dev nD) : Cert.Gcn.Nodes := V c main_v103
abbrev poolWord (c : Dev nD) : (⟨2, ![100000, 1]⟩ : Shape).Idx → BitVec 32 := V c main_v104
abbrev poolFeatBlk (c : Dev nD) (t : Fin cfg8.N) : Vec Ideal S5000x128 .f32 := iblk8 V c 0 t
abbrev poolWordBlk (c : Dev nD) (t : Fin cfg8.N) : Vec Ideal S5000x1 .i32 := iblk8 V c 1 t

/-- Point `t`'s blocks are block `t` along the rows and block zero along the lanes. -/
theorem idx_facts8 : ∀ t : Fin cfg8.N,
    win8_0.index t 0 = t.val ∧ win8_0.index t 1 = 0 ∧ win8_1.index t 0 = t.val ∧ win8_1.index t 1 = 0 :=
  (by decide +kernel : ∀ t : Fin grid8.N,
    win8_0.index t 0 = t.val ∧ win8_0.index t 1 = 0 ∧ win8_1.index t 0 = t.val ∧ win8_1.index t 1 = 0)

/-- Row `r` of point `t`'s block of features is the array's row `5000 t + r`. -/
theorem poolFeatBlk_apply (c : Dev nD) (t : Fin cfg8.N) (r : Fin 5000) (d : Fin 128) (hn : 5000 * t.val + r.val < 100000) :
    poolFeatBlk V c t (ix2 r d) = poolFeat V c (ix2 ⟨5000 * t.val + r.val, hn⟩ d) := by
  show ((cfg8.win 0).blk t).view.read (Elt Ideal) (V c (Pipeline.arrRef spec8 0)) (ix2 r d) = _
  rw [View.read_apply]
  show V c main_v103 _ = V c main_v103 _
  congr 1
  funext a
  apply Fin.ext
  match a with
  | ⟨0, _⟩ => show win8_0.index t 0 * 5000 + 1 * r.val = 5000 * t.val + r.val; rw [(idx_facts8 t).1]; omega
  | ⟨1, _⟩ => show win8_0.index t 1 * 128 + 1 * d.val = d.val; rw [(idx_facts8 t).2.1]; omega

/-- Row `r` of point `t`'s block of batch words is the column's row `5000 t + r`. -/
theorem poolWordBlk_apply (c : Dev nD) (t : Fin cfg8.N) (r : Fin 5000) (hn : 5000 * t.val + r.val < 100000) :
    poolWordBlk V c t (ix2 r (0 : Fin 1)) = poolWord V c (ix2 ⟨5000 * t.val + r.val, hn⟩ (0 : Fin 1)) := by
  show ((cfg8.win 1).blk t).view.read (Elt Ideal) (V c (Pipeline.arrRef spec8 1)) (ix2 r (0 : Fin 1)) = _
  rw [View.read_apply]
  show V c main_v104 _ = V c main_v104 _
  congr 1
  funext a
  apply Fin.ext
  match a with
  | ⟨0, _⟩ => show win8_1.index t 0 * 5000 + 1 * r.val = 5000 * t.val + r.val; rw [(idx_facts8 t).2.2.1]; omega
  | ⟨1, _⟩ => show win8_1.index t 1 * 1 + 1 * 0 = 0; rw [(idx_facts8 t).2.2.2]

end Blocks

/-! ## The running sums -/

section Invariant

/-- Graph `g`'s share of node `n` at channel `d`: the node's channel `d` when the node's word is the graph's number, else
    nothing; and the node's membership in graph `g`: one or nothing. -/
abbrev poolShare (c : Dev nD) (g d : Fin 128) (n : Fin 100000) : EReal :=
  if poolWord V c (ix2 n (0 : Fin 1)) = BitVec.ofNat 32 g.val then poolFeat V c (ix2 n d) else 0
abbrev poolMember (c : Dev nD) (g : Fin 128) (n : Fin 100000) : EReal :=
  if poolWord V c (ix2 n (0 : Fin 1)) = BitVec.ofNat 32 g.val then (1 : EReal) else 0

/-- A point's sum over its block's rows is the sum of the shares of the array's rows `lo, …, lo + 4999`, `lo = 5000 t`. -/
theorem pool_point_share (c : Dev nD) (t : Fin cfg8.N) (g d : Fin 128) (lo : ℕ) (hlo : lo = 5000 * t.val) (ht : lo + 5000 ≤ 100000) :
    (∑ r : Fin 5000, if poolWordBlk V c t (ix2 r (0 : Fin 1)) = BitVec.ofNat 32 g.val then poolFeatBlk V c t (ix2 r d) else 0)
      = ∑ r : Fin 5000, poolShare V c g d ⟨lo + r.val, by have := r.isLt; omega⟩ := by
  subst hlo
  exact Finset.sum_congr rfl fun r _ => by
    rw [poolWordBlk_apply V c t r (by have := r.isLt; omega), poolFeatBlk_apply V c t r d (by have := r.isLt; omega)]

/-- The same for the memberships. -/
theorem pool_point_member (c : Dev nD) (t : Fin cfg8.N) (g : Fin 128) (lo : ℕ) (hlo : lo = 5000 * t.val) (ht : lo + 5000 ≤ 100000) :
    (∑ r : Fin 5000, if poolWordBlk V c t (ix2 r (0 : Fin 1)) = BitVec.ofNat 32 g.val then (1 : EReal) else 0)
      = ∑ r : Fin 5000, poolMember V c g ⟨lo + r.val, by have := r.isLt; omega⟩ := by
  subst hlo
  exact Finset.sum_congr rfl fun r _ => by
    rw [poolWordBlk_apply V c t r (by have := r.isLt; omega)]

/-- One point: over an output that holds the sums of the rows below `5000 t`, the point leaves the sums of the rows
    below `5000 (t + 1)`. -/
theorem pool_step_sum (c : Dev nD) (t : Fin cfg8.N) (g d : Fin 128) (prev : Vec Ideal S128x128 .f32)
    (hprev : prev (ix2 g d) = poolPrefix (poolShare V c g d) (5000 * t.val)) :
    k8_pay4 (F := Ideal) (poolWordBlk V c t) (poolFeatBlk V c t) prev (ix2 g d) = poolPrefix (poolShare V c g d) (5000 * (t.val + 1)) := by
  have hN : t.val < 20 := lt_of_lt_of_eq t.isLt N_8
  rw [pool_pay4_apply, hprev, pool_point_share V c t g d (5000 * t.val) rfl (by omega),
    show 5000 * (t.val + 1) = 5000 * t.val + 5000 from by omega]
  exact (poolPrefix_add _ _ (by omega) _).symm

/-- The same for the counts. -/
theorem pool_step_cnt (c : Dev nD) (t : Fin cfg8.N) (g : Fin 128) (prev : Vec Ideal S1x128 .f32)
    (hprev : prev (ix2 (0 : Fin 1) g) = poolPrefix (poolMember V c g) (5000 * t.val)) :
    k8_pay5 (F := Ideal) (poolWordBlk V c t) prev (ix2 (0 : Fin 1) g) = poolPrefix (poolMember V c g) (5000 * (t.val + 1)) := by
  have hN : t.val < 20 := lt_of_lt_of_eq t.isLt N_8
  rw [pool_pay5_apply, hprev, pool_point_member V c t g (5000 * t.val) rfl (by omega),
    show 5000 * (t.val + 1) = 5000 * t.val + 5000 from by omega]
  exact (poolPrefix_add _ _ (by omega) _).symm

/-- After point `n` the first output holds, per graph and channel, the sum of the shares of the rows below `5000 (n + 1)`. -/
theorem pool_outs_sum (c : Dev nD) (g d : Fin 128) : ∀ (n : ℕ) (h : n < cfg8.N),
    (outsAt8 V c n h).1 (ix2 g d) = poolPrefix (poolShare V c g d) (5000 * (n + 1))
  | 0, h => by
    rw [outsAt8_A V c ⟨0, h⟩ rfl]
    dsimp only
    refine (congrFun (poolA_sum (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) ((hcond8_0 ⟨0, h⟩).mpr rfl)
      (poolFeatBlk V c ⟨0, h⟩) (poolWordBlk V c ⟨0, h⟩)) (ix2 g d)).trans ?_
    exact pool_step_sum V c ⟨0, h⟩ g d (k8_pay1 (F := Ideal)) ((pool_pay1_apply _).trans (poolPrefix_zero _).symm)
  | n + 1, h => by
    have hN : cfg8.N = 20 := N_8
    have hB : ¬(⟨n + 1, h⟩ : Fin cfg8.N).val % 20 = 0 := by dsimp only; omega
    rw [outsAt8_B V c ⟨n + 1, h⟩ hB]
    dsimp only
    refine (congrFun (poolB_sum (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (fun hh => hB ((hcond8_0 ⟨n + 1, h⟩).mp hh))
      (poolFeatBlk V c ⟨n + 1, h⟩) (poolWordBlk V c ⟨n + 1, h⟩) (outsAt8 V c n (Nat.lt_of_succ_lt h)).1 (outsAt8 V c n (Nat.lt_of_succ_lt h)).2) (ix2 g d)).trans ?_
    exact pool_step_sum V c ⟨n + 1, h⟩ g d _ (pool_outs_sum c g d n (Nat.lt_of_succ_lt h))

/-- After point `n` the second output holds, per graph, the number of members among the rows below `5000 (n + 1)`. -/
theorem pool_outs_cnt (c : Dev nD) (g : Fin 128) : ∀ (n : ℕ) (h : n < cfg8.N),
    (outsAt8 V c n h).2 (ix2 (0 : Fin 1) g) = poolPrefix (poolMember V c g) (5000 * (n + 1))
  | 0, h => by
    rw [outsAt8_A V c ⟨0, h⟩ rfl]
    dsimp only
    refine (congrFun (poolA_cnt (F := Ideal) c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) ((hcond8_0 ⟨0, h⟩).mpr rfl)
      (poolFeatBlk V c ⟨0, h⟩) (poolWordBlk V c ⟨0, h⟩)) (ix2 (0 : Fin 1) g)).trans ?_
    exact pool_step_cnt V c ⟨0, h⟩ g (k8_pay2 (F := Ideal)) ((pool_pay2_apply _).trans (poolPrefix_zero _).symm)
  | n + 1, h => by
    have hN : cfg8.N = 20 := N_8
    have hB : ¬(⟨n + 1, h⟩ : Fin cfg8.N).val % 20 = 0 := by dsimp only; omega
    rw [outsAt8_B V c ⟨n + 1, h⟩ hB]
    dsimp only
    refine (congrFun (poolB_cnt (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (fun hh => hB ((hcond8_0 ⟨n + 1, h⟩).mp hh))
      (poolFeatBlk V c ⟨n + 1, h⟩) (poolWordBlk V c ⟨n + 1, h⟩) (outsAt8 V c n (Nat.lt_of_succ_lt h)).1 (outsAt8 V c n (Nat.lt_of_succ_lt h)).2) (ix2 (0 : Fin 1) g)).trans ?_
    exact pool_step_cnt V c ⟨n + 1, h⟩ g _ (pool_outs_cnt c g n (Nat.lt_of_succ_lt h))

end Invariant

/-! ## The outputs after the last point -/

section Final

/-- A word is the 32-bit word of a graph number below 128 exactly when, read signed, it is that number. -/
theorem pool_word_eq_iff (w : BitVec 32) (g : Fin 128) : w = BitVec.ofNat 32 g.val ↔ w.toInt = (g.val : Int) := by
  have key : (BitVec.ofNat 32 g.val).toInt = (g.val : Int) :=
    StableHlo.Predicate.toInt_ofNat_small g.val (by have := g.isLt; omega)
  exact ⟨fun h => h ▸ key, fun h => BitVec.toInt_inj.mp (h.trans key.symm)⟩

/-- The shares of all the nodes sum to the pooled sum. -/
theorem pool_total_share (c : Dev nD) (g d : Fin 128) :
    ∑ n : Fin 100000, poolShare V c g d n = Cert.Gcn.poolSumCol (V c main_v104) (V c main_v103) (ix2 g d) := by
  unfold Cert.Gcn.poolSumCol
  exact Finset.sum_congr rfl fun n _ => if_congr (pool_word_eq_iff _ _) rfl rfl
/-- The memberships of all the nodes sum to the count. -/
theorem pool_total_member (c : Dev nD) (g : Fin 128) :
    ∑ n : Fin 100000, poolMember V c g n = Cert.Gcn.poolCntCol (V c main_v104) g := by
  unfold Cert.Gcn.poolCntCol
  exact Finset.sum_congr rfl fun n _ => if_congr (pool_word_eq_iff _ _) rfl rfl

/-- Both outputs have one block, at block index zero on both axes, at every point, -/
theorem idx_out8 : ∀ t : Fin cfg8.N,
    win8_2.index t 0 = 0 ∧ win8_2.index t 1 = 0 ∧ win8_3.index t 0 = 0 ∧ win8_3.index t 1 = 0 :=
  (by decide +kernel : ∀ t : Fin grid8.N,
    win8_2.index t 0 = 0 ∧ win8_2.index t 1 = 0 ∧ win8_3.index t 0 = 0 ∧ win8_3.index t 1 = 0)

/-- so the block is the whole array: read through it, contents of the array are themselves. -/
theorem pool_blk2_read (t : Fin cfg8.N) (G : Cert.Gcn.Pooled) : ((cfg8.win 2).blk t).view.read (Elt Ideal) G = G := by
  have hz' : (fun a => win8_2.index t a * main_v105_0.ty.shape.size a) = fun _ => 0 := funext fun a => by
    match a with
    | ⟨0, _⟩ => show win8_2.index t 0 * 128 = 0; rw [(idx_out8 t).1]
    | ⟨1, _⟩ => show win8_2.index t 1 * 128 = 0; rw [(idx_out8 t).2.1]
  exact Memref.read_access_unit_zero (Elt Ideal) main_v105_0 hz' (fun a => by rw [congrFun hz' a]; simp) G
/-- The same for the second output. -/
theorem pool_blk3_read (t : Fin cfg8.N) (G : (⟨2, ![1, 128]⟩ : Shape).Idx → EReal) :
    ((cfg8.win 3).blk t).view.read (Elt Ideal) G = G := by
  have hz' : (fun a => win8_3.index t a * main_v105_1.ty.shape.size a) = fun _ => 0 := funext fun a => by
    match a with
    | ⟨0, _⟩ => show win8_3.index t 0 * 1 = 0; rw [(idx_out8 t).2.2.1]
    | ⟨1, _⟩ => show win8_3.index t 1 * 128 = 0; rw [(idx_out8 t).2.2.2]
  exact Memref.read_access_unit_zero (Elt Ideal) main_v105_1 hz' (fun a => by rw [congrFun hz' a]; simp) G

/-- The one write-back of the first output, after the last point, writes the sums over all the nodes. -/
theorem pool_flushed_sum (c : Dev nD) (t : Fin cfg8.N) (hf : (cfg8.win 2).flush t = true) :
    (dat8 (F := Ideal) V c).flushed 2 t
      = ((cfg8.win 2).blk t).view.read (Elt Ideal) (Cert.Gcn.poolSumCol (V c main_v104) (V c main_v103)) := by
  have hN : cfg8.N = 20 := N_8
  have h19 : t.val = 19 := by have := (flush8_2 t).mp hf; have := t.isLt; omega
  refine Eq.trans ?_ (pool_blk2_read t _).symm
  funext y
  have h0 : (y 0).val < 128 := (y 0).isLt
  have h1 : (y 1).val < 128 := (y 1).isLt
  have e1 : (cfg8.win 2).xinj (grid8.coords t) y = ix2 (⟨(y 0).val, h0⟩ : Fin 128) (⟨(y 1).val, h1⟩ : Fin 128) :=
    funext fun a => Fin.ext (by
      match a with
      | ⟨0, _⟩ => rfl
      | ⟨1, _⟩ => rfl)
  have ey : ix2 (⟨(y 0).val, h0⟩ : Fin 128) (⟨(y 1).val, h1⟩ : Fin 128) = y :=
    funext fun a => Fin.ext (by
      match a with
      | ⟨0, _⟩ => rfl
      | ⟨1, _⟩ => rfl)
  show (dat8 (F := Ideal) V c).after 2 t ((cfg8.win 2).xinj (grid8.coords t) y) = _
  rw [e1, after8_2]
  refine (pool_outs_sum V c ⟨(y 0).val, h0⟩ ⟨(y 1).val, h1⟩ t.val t.isLt).trans ?_
  rw [show 5000 * (t.val + 1) = 100000 from by omega, poolPrefix_full]
  exact (pool_total_share V c _ _).trans (congrArg (Cert.Gcn.poolSumCol (V c main_v104) (V c main_v103)) ey)

/-- The one write-back of the second output, after the last point, writes the counts over all the nodes. -/
theorem pool_flushed_cnt (c : Dev nD) (t : Fin cfg8.N) (hf : (cfg8.win 3).flush t = true) :
    (dat8 (F := Ideal) V c).flushed 3 t
      = ((cfg8.win 3).blk t).view.read (Elt Ideal) (fun j => Cert.Gcn.poolCntCol (V c main_v104) (j 1)) := by
  have hN : cfg8.N = 20 := N_8
  have h19 : t.val = 19 := by have := (flush8_3 t).mp hf; have := t.isLt; omega
  refine Eq.trans ?_ (pool_blk3_read t _).symm
  funext y
  have h0 : (y 0).val < 1 := (y 0).isLt
  have h1 : (y 1).val < 128 := (y 1).isLt
  have e1 : (cfg8.win 3).xinj (grid8.coords t) y = ix2 (0 : Fin 1) (⟨(y 1).val, h1⟩ : Fin 128) :=
    funext fun a => Fin.ext (by
      match a with
      | ⟨0, _⟩ => show (y 0).val = 0; omega
      | ⟨1, _⟩ => rfl)
  show (dat8 (F := Ideal) V c).after 3 t ((cfg8.win 3).xinj (grid8.coords t) y)
    = Cert.Gcn.poolCntCol (V c main_v104) (y 1)
  rw [e1, after8_3]
  refine (pool_outs_cnt V c ⟨(y 1).val, h1⟩ t.val t.isLt).trans ?_
  rw [show 5000 * (t.val + 1) = 100000 from by omega, poolPrefix_full]
  exact pool_total_member V c _

/-- The last point. -/
abbrev poolLast : Fin cfg8.N := ⟨19, by decide⟩

/-- After the pooling region its first output holds, per graph and channel, the sum of the rows of the graph's nodes. -/
theorem pool_sum (c : Dev nD) :
    (dat8 (F := Ideal) V c).arrAt 2 cfg8.N = Cert.Gcn.poolSumCol (V c main_v104) (V c main_v103) :=
  (dat8 (F := Ideal) V c).arrAt_eq_of_cover 2 (Cert.Gcn.poolSumCol (V c main_v104) (V c main_v103)) (pool_flushed_sum V c) fun i =>
    ⟨poolLast, (flush8_2 poolLast).mpr rfl, by
      show i ∈ ((View.whole main_v105_0).slice (win8_2.rect poolLast)).set
      rw [View.set_slice_whole, Rect.mem_set_unit]
      intro a
      have h0 : (i 0 : Nat) < 128 := (i 0).isLt
      have h1 : (i 1 : Nat) < 128 := (i 1).isLt
      match a with
      | ⟨0, _⟩ =>
        show win8_2.index poolLast 0 * 128 ≤ (i 0 : Nat) ∧ (i 0 : Nat) < win8_2.index poolLast 0 * 128 + 128
        rw [(idx_out8 poolLast).1]; omega
      | ⟨1, _⟩ =>
        show win8_2.index poolLast 1 * 128 ≤ (i 1 : Nat) ∧ (i 1 : Nat) < win8_2.index poolLast 1 * 128 + 128
        rw [(idx_out8 poolLast).2.1]; omega⟩

/-- After the pooling region its second output, a row [1, 128], holds per graph the number of the graph's nodes. -/
theorem pool_cnt (c : Dev nD) :
    (dat8 (F := Ideal) V c).arrAt 3 cfg8.N = fun j => Cert.Gcn.poolCntCol (V c main_v104) (j 1) :=
  (dat8 (F := Ideal) V c).arrAt_eq_of_cover 3 (fun j => Cert.Gcn.poolCntCol (V c main_v104) (j 1)) (pool_flushed_cnt V c) fun i =>
    ⟨poolLast, (flush8_3 poolLast).mpr rfl, by
      show i ∈ ((View.whole main_v105_1).slice (win8_3.rect poolLast)).set
      rw [View.set_slice_whole, Rect.mem_set_unit]
      intro a
      have h0 : (i 0 : Nat) < 1 := (i 0).isLt
      have h1 : (i 1 : Nat) < 128 := (i 1).isLt
      match a with
      | ⟨0, _⟩ =>
        show win8_3.index poolLast 0 * 1 ≤ (i 0 : Nat) ∧ (i 0 : Nat) < win8_3.index poolLast 0 * 1 + 1
        rw [(idx_out8 poolLast).2.2.1]; omega
      | ⟨1, _⟩ =>
        show win8_3.index poolLast 1 * 128 ≤ (i 1 : Nat) ∧ (i 1 : Nat) < win8_3.index poolLast 1 * 128 + 128
        rw [(idx_out8 poolLast).2.2.2]; omega⟩

end Final

end Cert.KernelIdeal.KVal

end
-- ==== Proof.KTail.lean ====
/-
  The end of the kernel program's run: the batch words reshaped to a column, the pooling region, and the head on the
  host (the counts turned into a column and clamped at one from below, the sums divided by them, the head's product and
  bias). The result buffer holds the network of Proof/Spec.lean at the shared host functions of Proof/Glue.lean.

  The run is followed boundary by boundary from the one after the fourth layer. Entering the pool, the features are
  still the fourth layer's and the batch words sit in a column whose row `n` is node `n`'s word. Leaving it, the two
  outputs hold the per-graph sums and counts, first in their column form and then, entry by entry, in the form over
  the batch vector itself. The head is then read at one (graph, output) pair: each of its operations at an index is its
  operands at indices named by the coordinates, and the result is the defining sum of `Cert.Gcn.head`.
-/
import proofs.«426480_j82094004896163_1_alg».proof.Proof.KLayer4
import proofs.«426480_j82094004896163_1_alg».proof.Proof.KPool
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

namespace Tail

/-- A buffer that none of a host stretch's operations writes holds after the stretch what it held before it: every
    operation's result buffer is a different one. -/
local macro "host_carry" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Entering the pool: the one reshape before it writes only the batch column -/

/-- The fourth layer's features are untouched by the reshape. -/
theorem w17_v103 : W17 (F := Ideal) m ρ c (Proc.devRef .tc main_v103) = feat4 m c := by
  refine Eq.trans ?_ (station16 m ρ c).2
  host_carry hostOps8

/-- So are the head's weights … -/
theorem w17_arg7 : W17 (F := Ideal) m ρ c (Proc.devRef .tc main_arg7) = argWP m c := by
  refine Eq.trans ?_ (station16 m ρ c).1.a7
  host_carry hostOps8

/-- … and the head's bias. -/
theorem w17_arg8 : W17 (F := Ideal) m ρ c (Proc.devRef .tc main_arg8) = argBP m c := by
  refine Eq.trans ?_ (station16 m ρ c).1.a8
  host_carry hostOps8

/-- The batch column's row `n` is node `n`'s batch word: the column is the batch vector reshaped, and position
    `(n, 0)` of a [100000, 1] array is row-major position `n`, as is position `n` of the vector. -/
theorem w17_v104 (n : Fin 100000) :
    (W17 (F := Ideal) m ρ c (Proc.devRef .tc main_v104) : (⟨2, ![100000, 1]⟩ : Shape).Idx → BitVec 32) (ix2 n 0)
      = argBT m c (ix1 n) := by
  show StableHlo.after hostOps8 (W16 m ρ c) (Proc.devRef .tc main_v104) (ix2 n 0) = _
  after_results
  show shapeCast _ (W16 m ρ c (Proc.devRef .tc main_arg2)) shapeCasts_S100000_S100000x1 (ix2 n 0) = _
  rw [(station16 m ρ c).1.a2]
  exact shapeCast_apply _ _ (ix2 n 0) (ix1 n) (by
    rw [Shape.rowMajor_val_two, Shape.rowMajor_val_one]
    show n.val = n.val * 1 + 0
    omega)

/-! ## Leaving the pool -/

/-- The pool's first output: per graph and channel the sum of the fourth layer's rows over the graph's nodes. The
    region leaves the sum over the column's rows; row by row the column's word is the batch vector's. -/
theorem w18_sum : W18 (F := Ideal) m ρ c (Proc.devRef .tc main_v105_0)
    = Cert.Gcn.poolSum (argBT m c) (feat4 m c) := by
  refine (W18_arr m ρ c 2).trans ((pool_sum (V17 m ρ) c).trans ?_)
  show Cert.Gcn.poolSumCol (W17 m ρ c (Proc.devRef .tc main_v104)) (W17 m ρ c (Proc.devRef .tc main_v103)) = _
  rw [w17_v103]
  funext j
  exact Finset.sum_congr rfl fun n _ => by rw [w17_v104 m ρ c n]

/-- The pool's second output, a row [1, 128]: per graph the number of its nodes, by the same row-by-row step. -/
theorem w18_cnt : W18 (F := Ideal) m ρ c (Proc.devRef .tc main_v105_1)
    = fun j : (⟨2, ![1, 128]⟩ : Shape).Idx => Cert.Gcn.poolCnt (argBT m c) (j 1) := by
  refine (W18_arr m ρ c 3).trans ((pool_cnt (V17 m ρ) c).trans ?_)
  funext j
  show Cert.Gcn.poolCntCol (W17 m ρ c (Proc.devRef .tc main_v104)) (j 1) = _
  exact Finset.sum_congr rfl fun n _ => by rw [w17_v104 m ρ c n]

/-- The head's weights are none of the pool's arrays. -/
theorem w18_arg7 : W18 (F := Ideal) m ρ c (Proc.devRef .tc main_arg7) = argWP m c :=
  (W18_of_ne m ρ c main_arg7 (by decide)).trans (w17_arg7 m ρ c)

/-- Nor is the head's bias. -/
theorem w18_arg8 : W18 (F := Ideal) m ρ c (Proc.devRef .tc main_arg8) = argBP m c :=
  (W18_of_ne m ρ c main_arg8 (by decide)).trans (w17_arg8 m ρ c)

/-! ## The head's host operations, each read at an index -/

section Head

/-- The head's product contracts axis 1 of a [128, 128] array with axis 0 of a [128, 2] array. -/
private abbrev D := dot_S128x128_S128x2_S128x2_1_0_0_1_n_n

/-- The left operand's row is the output's row … -/
theorem lhs_0 (o : S128x2.Idx) (q : D.contr.Idx) : (D.lhsIdx o q 0).val = (o 0).val := by
  unfold DotDims.lhsIdx
  rw [dif_neg (show ¬(0 : Fin S128x128.rank) ∈ D.lhsBatch by decide),
    dif_pos (show (0 : Fin S128x128.rank) ∈ D.lhsNonContracting by decide)]
  rfl
/-- … its column the contracted coordinate … -/
theorem lhs_1 (o : S128x2.Idx) (q : D.contr.Idx) : (D.lhsIdx o q 1).val = (q ⟨0, by decide⟩).val :=
  D.lhsIdx_val_of_single rfl o q
/-- … which is also the right operand's row … -/
theorem rhs_0 (o : S128x2.Idx) (q : D.contr.Idx) : (D.rhsIdx o q 0).val = (q ⟨0, by decide⟩).val :=
  D.rhsIdx_val_of_single rfl o q
/-- … and the right operand's column is the output's column. -/
theorem rhs_1 (o : S128x2.Idx) (q : D.contr.Idx) : (D.rhsIdx o q 1).val = (o 1).val := by
  unfold DotDims.rhsIdx
  rw [dif_neg (show ¬(1 : Fin S128x2.rank) ∈ D.rhsBatch by decide),
    dif_pos (show (1 : Fin S128x2.rank) ∈ D.rhsNonContracting by decide)]
  rfl

/-- The head's product read at graph `g` and output `j`: the sum over the 128 channels `k` of the left operand at
    `(g, k)` times the right one at `(k, j)` (the contraction's one-axis index set is the 128 channels). -/
theorem headDot_apply (Y : FVec Ideal S128x128 .f32) (wp : FVec Ideal S128x2 .f32) (g : Fin 128) (j : Fin 2) :
    Host.dotGeneral D none Y wp (ix2 g j) = ∑ k : Fin 128, Y (ix2 g k) * wp (ix2 k j) := by
  generalize ho : (ix2 g j : S128x2.Idx) = o
  simp only [Host.dotGeneral]
  rw [Ideal.dotGeneral_apply, ← Equiv.sum_comp (contrEquiv1 D 128 rfl rfl).symm]
  refine Finset.sum_congr rfl fun k _ => ?_
  have hk := contrEquiv1_symm_val D 128 rfl rfl k
  have el : D.lhsIdx o ((contrEquiv1 D 128 rfl rfl).symm k) = ix2 g k := funext fun a => Fin.ext (by
    match a with
    | ⟨0, _⟩ => exact (lhs_0 _ _).trans (by rw [← ho])
    | ⟨1, _⟩ => exact (lhs_1 _ _).trans hk)
  have er : D.rhsIdx o ((contrEquiv1 D 128 rfl rfl).symm k) = ix2 k j := funext fun a => Fin.ext (by
    match a with
    | ⟨0, _⟩ => exact (rhs_0 _ _).trans hk
    | ⟨1, _⟩ => exact (rhs_1 _ _).trans (by rw [← ho]))
  rw [el, er]

/-- The host's quotient of two arrays read at an index: the quotient of the two entries. -/
theorem hostDivf_apply {s : Shape} (a b : FVec Ideal s .f32) (i : s.Idx) : Host.divf a b i = Ideal.div (a i) (b i) := rfl

/-- The counts row as a column, clamped at the literal one from below and repeated along the channels, read at
    (graph `g`, channel `k`): the graph's count clamped. The repetition reads the column at `(g, 0)`; the column's
    `(g, 0)` and the row's `(0, g)` are both row-major position `g`; the literal repeated reads the literal. -/
theorem clamp_apply (C : FVec Ideal S1x128 .f32) (g k : Fin 128) :
    broadcastInDim S128x128 ![0, 1] bcast_S128x1_S128x128_0_1
        (maximumf (shapeCast S128x1 C shapeCasts_S1x128_S128x1)
          (broadcastInDim S128x1 ![] bcast_S_S128x1 (constant S_ .f32 0x3F800000#32))) (ix2 g k)
      = max (C (ix2 0 g)) Cert.Gcn.oneLit := by
  refine (broadcastInDim_apply _ _ _ _ (ix2 g 0) (fun a => ?_)).trans ?_
  · match a with
    | ⟨0, _⟩ => show g.val = if (128 : Nat) = 1 then 0 else g.val; rw [if_neg (by decide)]
    | ⟨1, _⟩ => show 0 = if (1 : Nat) = 1 then 0 else k.val; rw [if_pos rfl]
  rw [maximumf_apply]
  congr 1
  exact shapeCast_apply _ _ (ix2 g 0) (ix2 0 g) (by
    rw [Shape.rowMajor_val_two, Shape.rowMajor_val_two]
    show 0 * 128 + g.val = g.val * 1 + 0
    omega)

/-- The bias made a row and repeated along the graphs, read at (graph `g`, output `j`): output `j`'s bias. -/
theorem bias_apply (bp : FVec Ideal S2 .f32) (g : Fin 128) (j : Fin 2) :
    broadcastInDim S128x2 ![0, 1] bcast_S1x2_S128x2_0_1 (broadcastInDim S1x2 ![1] bcast_S2_S1x2_1 bp) (ix2 g j)
      = bp (ix1 j) := by
  refine (broadcastInDim_apply _ _ _ _ (ix2 0 j) (fun a => ?_)).trans ?_
  · match a with
    | ⟨0, _⟩ => show 0 = if (1 : Nat) = 1 then 0 else g.val; rw [if_pos rfl]
    | ⟨1, _⟩ => show j.val = if (2 : Nat) = 1 then 0 else j.val; rw [if_neg (by decide)]
  refine broadcastInDim_apply _ _ _ _ (ix1 j) (fun a => ?_)
  match a with
  | ⟨0, _⟩ => show j.val = if (2 : Nat) = 1 then 0 else j.val; rw [if_neg (by decide)]

end Head

end Tail

open Tail in
/-- The kernel program's result buffer at the last boundary is the network of the argument arrays. -/
theorem result : W19 (F := Ideal) m ρ c (Proc.devRef .tc main_v114)
    = Cert.Glue.result (argX m c) (argEI m c) (argBT m c) (argW0 m c) (argB0 m c) (argA5 m c) (argA6 m c) (argWP m c) (argBP m c) := by
  -- the last host stretch, as its operations applied to what the pool left
  show StableHlo.after hostOps9 (W18 m ρ c) (Proc.devRef .tc main_v114) = _
  after_results
  rw [w18_sum, w18_cnt, w18_arg7, w18_arg8]
  -- the network is the head over the pooled fourth-layer features: the four nested layers are `feat4` by definition
  show addf (Host.dotGeneral dot_S128x128_S128x2_S128x2_1_0_0_1_n_n none
        (Host.divf (Cert.Gcn.poolSum (argBT m c) (feat4 m c))
          (broadcastInDim S128x128 ![0, 1] bcast_S128x1_S128x128_0_1
            (maximumf (shapeCast S128x1 (fun j : S1x128.Idx => Cert.Gcn.poolCnt (argBT m c) (j 1)) shapeCasts_S1x128_S128x1)
              (broadcastInDim S128x1 ![] bcast_S_S128x1 (constant S_ .f32 0x3F800000#32)))))
        (argWP m c))
      (broadcastInDim S128x2 ![0, 1] bcast_S1x2_S128x2_0_1 (broadcastInDim S1x2 ![1] bcast_S2_S1x2_1 (argBP m c)))
    = Cert.Gcn.head (Cert.Gcn.poolSum (argBT m c) (feat4 m c)) (Cert.Gcn.poolCnt (argBT m c)) (argWP m c) (argBP m c)
  -- at graph `g` and output `j`: the product's sum plus the bias, term by term the head's
  funext o
  obtain ⟨g, j, rfl⟩ : ∃ (g : Fin 128) (j : Fin 2), o = ix2 g j := ⟨o 0, o 1, eq_ix2 o⟩
  show _ = (∑ k : Fin 128, Ideal.div (Cert.Gcn.poolSum (argBT m c) (feat4 m c) (ix2 g k))
      (max (Cert.Gcn.poolCnt (argBT m c) g) Cert.Gcn.oneLit) * argWP m c (ix2 k j)) + argBP m c (ix1 j)
  rw [addf_apply, headDot_apply, bias_apply]
  refine congrArg (· + argBP m c (ix1 j)) (Finset.sum_congr rfl fun k _ => ?_)
  rw [hostDivf_apply, clamp_apply]

end Cert.KernelIdeal.KVal

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«426480_j82094004896163_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.RefValue.lean ====
/-
  The reference program's result, read off its generated run one operation at a time, as the network of Proof/Spec.lean
  at the shared host functions of Proof/Glue.lean: each layer's dense product is the sum over the contracted axis, its
  aggregation is the shared function of the product, its remaining operations are elementwise; the two segment sums of
  the pool are accumulating scatters, read at an index as sums over the nodes whose batch word names the graph.
-/
import proofs.«426480_j82094004896163_1_alg».proof.Proof.Gen.ReferenceIdeal.Run
import proofs.«426480_j82094004896163_1_alg».proof.Proof.Gen.ReferenceIdeal.Read
import proofs.«426480_j82094004896163_1_alg».proof.Proof.Spec
import proofs.«426480_j82094004896163_1_alg».proof.Proof.Glue
import proofs.«426480_j82094004896163_1_alg».proof.Proof.LibScatterSum

noncomputable section

namespace Cert.ReferenceIdeal.RefVal

open Cert.ReferenceIdeal Cert.ReferenceIdeal.Gen Idealize.ShloMosaic Idealize.ShloMosaic.TcCoe Idealize.SL.Sem
open Idealize.ShloMosaic.ValueIdx

open Cert.ReferenceIdeal.Read

section Stages

variable (x0 h : (⟨S100000x128, .f32⟩ : BufTy).Contents (Elt Ideal)) (x1 : (⟨S2x1600000, .i32⟩ : BufTy).Contents (Elt Ideal))
  (x2 : (⟨S100000, .i32⟩ : BufTy).Contents (Elt Ideal)) (x3 w : (⟨S128x128, .f32⟩ : BufTy).Contents (Elt Ideal))
  (x4 b : (⟨S128, .f32⟩ : BufTy).Contents (Elt Ideal)) (x5 : (⟨S3x128x128, .f32⟩ : BufTy).Contents (Elt Ideal))
  (x6 : (⟨S3x128, .f32⟩ : BufTy).Contents (Elt Ideal)) (x7 : (⟨S128x2, .f32⟩ : BufTy).Contents (Elt Ideal))
  (x8 : (⟨S2, .f32⟩ : BufTy).Contents (Elt Ideal))

/-! ## The shared host functions

Both sides apply the same operations to the edge list, so each of these is an equation between two spellings of one
term. -/

/-- The per-node inverse square root of the degree plus one. -/
theorem dis_eq : val_main_v10 (F := Ideal) x1 = Cert.Glue.dis x1 := rfl

/-- The first layer's aggregation is the shared aggregation of the first dense product. -/
theorem agg1_eq : val_main_v39 (F := Ideal) x0 x1 x3 = Cert.Glue.agg x1 (val_main_v11 (F := Ideal) x0 x3) := rfl

theorem wh0_eq : val_main_v50 (F := Ideal) x5 = Cert.Glue.wh0 x5 := rfl
theorem bh0_eq : val_main_v52 (F := Ideal) x6 = Cert.Glue.bh0 x6 := rfl
theorem wh1_eq : val_main_v93 (F := Ideal) x5 = Cert.Glue.wh1 x5 := rfl
theorem bh1_eq : val_main_v95 (F := Ideal) x6 = Cert.Glue.bh1 x6 := rfl
theorem wh2_eq : val_main_v136 (F := Ideal) x5 = Cert.Glue.wh2 x5 := rfl
theorem bh2_eq : val_main_v138 (F := Ideal) x6 = Cert.Glue.bh2 x6 := rfl

/-! ## One layer, over a variable for its input -/

/-- The dense product read at an index is the sum over the contracted axis. -/
theorem mm_eq : val_main_v11 (F := Ideal) h w = Cert.Gcn.mm h w := by
  funext i
  rw [val_main_v11_apply]
  unfold Cert.Gcn.mm
  refine Finset.sum_congr rfl fun k _ => ?_
  have el : lidx_main_v11 i k = ix2 (i 0) k :=
    funext fun a => Fin.ext (by match a with | ⟨0, _⟩ => rfl | ⟨1, _⟩ => rfl)
  have er : ridx_main_v11 i k = ix2 k (i 1) :=
    funext fun a => Fin.ext (by match a with | ⟨0, _⟩ => rfl | ⟨1, _⟩ => rfl)
  rw [el, er]
  rfl

/-- The per-node scale, broadcast along the channels: at node `n` it is `dis n` squared. -/
theorem scale_apply (i : S100000x128.Idx) :
    val_main_v42 (F := Ideal) x1 i = Cert.Glue.dis x1 (ix1 (i 0)) * Cert.Glue.dis x1 (ix1 (i 0)) := by
  rw [val_main_v42_apply, val_main_v41_apply, val_main_v40_apply, dis_eq]
  have e : idx_main_v41 (idx_main_v42 i) = ix1 (i 0) :=
    funext fun a => Fin.ext (by match a with | ⟨0, _⟩ => rfl)
  rw [e]
  rfl

/-- The bias, broadcast along the nodes: at channel `d` it is `b d`. -/
theorem bias_apply (i : S100000x128.Idx) : val_main_v46 (F := Ideal) b i = b (ix1 (i 1)) := by
  rw [val_main_v46_apply, val_main_v45_apply]
  have e : idx_main_v45 (idx_main_v46 i) = ix1 (i 1) :=
    funext fun a => Fin.ext (by match a with | ⟨0, _⟩ => rfl)
  rw [e]
  rfl

/-- The clamp's zero array. -/
theorem zero_apply (i : S100000x128.Idx) : val_main_call0_v0 (F := Ideal) i = 0 := by
  rw [val_main_call0_v0_apply, val_main_call0_cst_apply]
  exact Ideal.ofBits_zero_f32

/-- The first layer's operations on an input `h`: product, aggregation, self term, bias, clamp. -/
theorem first_gen :
    maximumf (addf (addf (Cert.Glue.agg x1 (val_main_v11 (F := Ideal) h w))
        (mulf (val_main_v11 (F := Ideal) h w) (val_main_v42 (F := Ideal) x1))) (val_main_v46 (F := Ideal) b))
      (val_main_call0_v0 (F := Ideal))
      = Cert.Gcn.layerFirst (Cert.Glue.agg x1) (Cert.Glue.dis x1) h w b := by
  funext i
  rw [maximumf_apply, addf_apply, addf_apply, mulf_apply, scale_apply, bias_apply, zero_apply, mm_eq]
  rfl

/-- A residual layer's operations on an input `h`: the same with `h` added before the clamp. -/
theorem res_gen :
    maximumf (addf (addf (addf (Cert.Glue.agg x1 (val_main_v11 (F := Ideal) h w))
        (mulf (val_main_v11 (F := Ideal) h w) (val_main_v42 (F := Ideal) x1))) (val_main_v46 (F := Ideal) b)) h)
      (val_main_call0_v0 (F := Ideal))
      = Cert.Gcn.layerRes (Cert.Glue.agg x1) (Cert.Glue.dis x1) h w b := by
  funext i
  rw [maximumf_apply, addf_apply, addf_apply, addf_apply, mulf_apply, scale_apply, bias_apply, zero_apply, mm_eq]
  rfl

/-! ## The four layers

Each layer's stage is, by the definitions of its operations alone, the layer's operations on the previous stage. -/

theorem layer1 : val_main_v48 (F := Ideal) x0 x1 x3 x4
    = Cert.Gcn.layerFirst (Cert.Glue.agg x1) (Cert.Glue.dis x1) x0 x3 x4 := by
  rw [← first_gen]
  rfl

theorem layer2 : val_main_v91 (F := Ideal) x0 x1 x3 x4 x5 x6
    = Cert.Gcn.layerRes (Cert.Glue.agg x1) (Cert.Glue.dis x1) (val_main_v48 (F := Ideal) x0 x1 x3 x4)
        (Cert.Glue.wh0 x5) (Cert.Glue.bh0 x6) := by
  rw [← wh0_eq, ← bh0_eq, ← res_gen]
  rfl

theorem layer3 : val_main_v134 (F := Ideal) x0 x1 x3 x4 x5 x6
    = Cert.Gcn.layerRes (Cert.Glue.agg x1) (Cert.Glue.dis x1) (val_main_v91 (F := Ideal) x0 x1 x3 x4 x5 x6)
        (Cert.Glue.wh1 x5) (Cert.Glue.bh1 x6) := by
  rw [← wh1_eq, ← bh1_eq, ← res_gen]
  rfl

theorem layer4 : val_main_v177 (F := Ideal) x0 x1 x3 x4 x5 x6
    = Cert.Gcn.layerRes (Cert.Glue.agg x1) (Cert.Glue.dis x1) (val_main_v134 (F := Ideal) x0 x1 x3 x4 x5 x6)
        (Cert.Glue.wh2 x5) (Cert.Glue.bh2 x6) := by
  rw [← wh2_eq, ← bh2_eq, ← res_gen]
  rfl

/-! ## The pool

Each segment sum is an accumulating scatter into a zero array at the batch words laid out as a column: read at an
index it is the sum over the nodes whose word, read signed, names the graph. -/

/-- The float literal 1.0 is the real one. -/
theorem ofBits_one : Ideal.ofBits .f32 0x3F800000#32 = (1 : EReal) := by
  simp [Ideal.ofBits, Ideal.ieee, -EReal.coe_mul]; norm_num

/-- The segment sum of the rows of an array `H`. -/
theorem poolSum_gen :
    Host.scatterAdd (F := Ideal) (φ := .f32) scatter_S128x128_S100000x1_S100000x128_1_0_0_1 (val_main_v182 (F := Ideal))
        (val_main_v183 (F := Ideal) x2) h
      = Cert.Gcn.poolSum x2 h := by
  funext j
  obtain ⟨p, q, rfl⟩ : ∃ (p : Fin 128) (q : Fin 128), j = ix2 p q := ⟨j 0, j 1, eq_ix2 j⟩
  refine (ScatterSum.rowScatterAdd_apply scatter_S128x128_S100000x1_S100000x128_1_0_0_1 rfl rfl rfl rfl
    _ _ h p q).trans ?_
  rw [val_main_v182_apply, val_main_cst_31_apply, Ideal.ofBits_def, Ideal.ofBits_zero_f32, zero_add]
  unfold Cert.Gcn.poolSum
  refine Finset.sum_congr rfl fun n _ => ?_
  rw [val_main_v183_apply]
  have e : idx_main_v183 (ix2 n 0) = ix1 n :=
    funext fun a => Fin.ext (by match a with | ⟨0, _⟩ => rfl)
  rw [e]

/-- The segment sum of a ones array counts the nodes of each graph. -/
theorem count_apply (g : Fin 128) : val_main_v181 (F := Ideal) x2 (ix1 g) = Cert.Gcn.poolCnt x2 g := by
  unfold val_main_v181
  refine (ScatterSum.vecScatterAdd_apply scatter_S128_S100000x1_S100000_n_0_0_1 rfl rfl rfl rfl
    _ _ _ g).trans ?_
  rw [val_main_v179_apply, val_main_cst_30_apply, Ideal.ofBits_def, Ideal.ofBits_zero_f32, zero_add]
  unfold Cert.Gcn.poolCnt
  refine Finset.sum_congr rfl fun n _ => ?_
  rw [val_main_v180_apply, val_main_v178_apply, val_main_cst_29_apply, Ideal.ofBits_def, ofBits_one]
  have e : idx_main_v180 (ix2 n 0) = ix1 n :=
    funext fun a => Fin.ext (by match a with | ⟨0, _⟩ => rfl)
  rw [e]

/-! ## The head -/

/-- The divisor, broadcast along the channels: at graph `g` the count clamped at 1.0 from below. -/
theorem clamp_apply (p q : Fin 128) :
    val_main_v188 (F := Ideal) x2 (ix2 p q) = max (Cert.Gcn.poolCnt x2 p) Cert.Gcn.oneLit := by
  rw [val_main_v188_apply, val_main_v187_apply, val_main_v186_apply]
  have e : idx_main_v187 (idx_main_v188 (ix2 p q)) = ix1 p :=
    funext fun a => Fin.ext (by match a with | ⟨0, _⟩ => rfl)
  rw [e, count_apply, val_main_v185_apply, val_main_cst_32_apply]
  rfl

/-- The result is the head of the pooled sums and the counts. -/
theorem head_eq : val_main_v193 (F := Ideal) x0 x1 x2 x3 x4 x5 x6 x7 x8
    = Cert.Gcn.head (val_main_v184 (F := Ideal) x0 x1 x2 x3 x4 x5 x6) (Cert.Gcn.poolCnt x2) x7 x8 := by
  funext o
  obtain ⟨p, r, rfl⟩ : ∃ (p : Fin 128) (r : Fin 2), o = ix2 p r := ⟨o 0, o 1, eq_ix2 o⟩
  rw [val_main_v193_apply, val_main_v190_apply, val_main_v192_apply, val_main_v191_apply, Ideal.addf_def]
  show _ = (∑ k : Fin 128, Ideal.div (val_main_v184 (F := Ideal) x0 x1 x2 x3 x4 x5 x6 (ix2 p k))
      (max (Cert.Gcn.poolCnt x2 p) Cert.Gcn.oneLit) * x7 (ix2 k r)) + x8 (ix1 r)
  have eb : idx_main_v191 (idx_main_v192 (ix2 p r)) = ix1 r :=
    funext fun a => Fin.ext (by match a with | ⟨0, _⟩ => rfl)
  rw [eb]
  refine congrArg₂ (· + ·) (Finset.sum_congr rfl fun k _ => ?_) rfl
  have el : lidx_main_v190 (ix2 p r) k = ix2 p k :=
    funext fun a => Fin.ext (by match a with | ⟨0, _⟩ => rfl | ⟨1, _⟩ => rfl)
  have er : ridx_main_v190 (ix2 p r) k = ix2 k r :=
    funext fun a => Fin.ext (by match a with | ⟨0, _⟩ => rfl | ⟨1, _⟩ => rfl)
  rw [el, er, val_main_v189_apply, clamp_apply]
  rfl

/-- The pooled sums are the segment sums of the last layer. -/
theorem pool_eq : val_main_v184 (F := Ideal) x0 x1 x2 x3 x4 x5 x6
    = Cert.Gcn.poolSum x2 (val_main_v177 (F := Ideal) x0 x1 x3 x4 x5 x6) :=
  poolSum_gen _ x2

/-! ## The network -/

/-- The last stage, over variables for the argument arrays, is the network at the shared host functions. -/
theorem value : val_main_v193 (F := Ideal) x0 x1 x2 x3 x4 x5 x6 x7 x8
    = Cert.Glue.result x0 x1 x2 x3 x4 x5 x6 x7 x8 := by
  rw [head_eq, pool_eq, layer4, layer3, layer2, layer1]
  rfl

end Stages

/-- The reference run's result term is the network of the argument arrays. -/
theorem result (m : (ℓ : Loc nD τ sig) → Buf (Elt Ideal) ℓ) (c : Dev nD) :
    Cert.ReferenceIdeal.Value.res_main_v193 (F := Ideal) m c
      = Cert.Glue.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [Read.val_main_v193_eq]
  exact value _ _ _ _ _ _ _ _ _

end Cert.ReferenceIdeal.RefVal

end
-- ==== Proof.lean ====
/-
  The certificate: a four-layer graph convolution network with a mean pool and a linear head, computed by a program of
  nine kernel regions among host operations, against its plain reference.

  The three frames are the generated ones (the reference's is its generated run with the result dropped). The ideal
  pass rewrote nothing, so the idealization claim is `True`. The value claim: both programs end with the result
  `Cert.Glue.result` of the argument arrays — Proof/Spec.lean's network at the host functions both programs share
  (Proof/Glue.lean). The kernel program's run names its result buffer at the last boundary of its run (Proof/KRun.lean),
  whose contents are that network (Proof/KTail.lean, over the four layers Proof/KLayer1 … KLayer4 and the regions'
  values Proof/KMatmul*, KCombine*, KPool); the reference's generated run ends at a term that is the same network
  (Proof/RefValue.lean). Where the two sides differ — a dense product computed block by block, an elementwise step
  computed block by block, and a segment sum computed as a product with a one-hot matrix accumulated over twenty blocks
  — the equalities are sums over the extended reals rearranged, and a term with a zero factor dropped.
-/
import proofs.«426480_j82094004896163_1_alg».proof.Defs
import proofs.«426480_j82094004896163_1_alg».proof.Proof.Gen.Kernel
import proofs.«426480_j82094004896163_1_alg».proof.Proof.Gen.Kernel.Frame
import proofs.«426480_j82094004896163_1_alg».proof.Proof.Gen.KernelIdeal
import proofs.«426480_j82094004896163_1_alg».proof.Proof.Gen.KernelIdeal.Frame
import proofs.«426480_j82094004896163_1_alg».proof.Proof.Gen.ReferenceIdeal
import proofs.«426480_j82094004896163_1_alg».proof.Proof.Gen.ReferenceIdeal.Run
import proofs.«426480_j82094004896163_1_alg».proof.Proof.Gen.Pre_finite_inputs
import proofs.«426480_j82094004896163_1_alg».proof.Proof.KRun
import proofs.«426480_j82094004896163_1_alg».proof.Proof.KTail
import proofs.«426480_j82094004896163_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the network of the argument arrays. -/
theorem algebraic : Cert.algebraic_KernelIdeal_ReferenceIdeal := by
  intro m ρ m' ρ' _ hagree
  refine ⟨fun c => Cert.Glue.result (Cert.KernelIdeal.KVal.argX m c) (Cert.KernelIdeal.KVal.argEI m c)
    (Cert.KernelIdeal.KVal.argBT m c) (Cert.KernelIdeal.KVal.argW0 m c) (Cert.KernelIdeal.KVal.argB0 m c)
    (Cert.KernelIdeal.KVal.argA5 m c) (Cert.KernelIdeal.KVal.argA6 m c) (Cert.KernelIdeal.KVal.argWP m c)
    (Cert.KernelIdeal.KVal.argBP m c), ?_, ?_⟩
  · exact (θ_run Cert.KernelIdeal.defs _ _).mono
      (fun _ h c => ⟨(h c).1.trans (Cert.KernelIdeal.KVal.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    have e := Cert.ReferenceIdeal.RefVal.result m' c
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
